-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S50000x512 : Shape := ⟨2, ![50000, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S512x512 .f32) (main_arg1 : IVec S512 32) (main_arg2 : FVec F S50000x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S50000x512 .f32 := Host.absf main_arg2
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg1 main_v9
  let main_c_3 : IVec S_ 32 := constantI S_ 32 50000#32
  let main_v11 : IVec S512 32 := broadcastInDim S512 ![] bcast_S_S512 main_c_3
  let main_v12 : IVec S512 1 := cmpi .slt main_arg1 main_v11
  let main_v13 : IVec S512 1 := andi main_v10 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v8 main_v14
  main_v15
-- ==== Kernel.lean ====
abbrev S512x512 : Shape := ⟨2, ![512, 512]⟩
abbrev S512 : Shape := ⟨1, ![512]⟩
abbrev S50000x512 : Shape := ⟨2, ![50000, 512]⟩
abbrev S512x1 : Shape := ⟨2, ![512, 1]⟩
abbrev S512x50000 : Shape := ⟨2, ![512, 50000]⟩
abbrev S2x512x1 : Shape := ⟨3, ![2, 512, 1]⟩
abbrev S1x512x1 : Shape := ⟨3, ![1, 512, 1]⟩
abbrev S_ : Shape := ⟨0, ![]⟩
abbrev S2560x512 : Shape := ⟨2, ![2560, 512]⟩
abbrev S512x2560 : Shape := ⟨2, ![512, 2560]⟩
abbrev S2560 : Shape := ⟨1, ![2560]⟩
abbrev S2560x1 : Shape := ⟨2, ![2560, 1]⟩

abbrev nBuf : Space → Nat
  | .hbm => 32
  | .vmem => 14
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S50000x512, .f32⟩
  | .hbm, ⟨3, _⟩ => ⟨S512x1, .i32⟩
  | .hbm, ⟨4, _⟩ => ⟨S512x50000, .f32⟩
  | .hbm, ⟨5, _⟩ => ⟨S2x512x1, .f32⟩
  | .hbm, ⟨6, _⟩ => ⟨S2x512x1, .f32⟩
  | .hbm, ⟨7, _⟩ => ⟨S1x512x1, .f32⟩
  | .hbm, ⟨8, _⟩ => ⟨S512x1, .f32⟩
  | .hbm, ⟨9, _⟩ => ⟨S1x512x1, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1, .i1⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x1, .f32⟩
  | .hbm, ⟨21, _⟩ => ⟨S1x512x1, .f32⟩
  | .hbm, ⟨22, _⟩ => ⟨S512x1, .f32⟩
  | .hbm, ⟨23, _⟩ => ⟨S1x512x1, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S512x512, .f32⟩
  | .local _ .vmem, ⟨1, _⟩ => ⟨S512x1, .i32⟩
  | .local _ .vmem, ⟨2, _⟩ => ⟨S2560x512, .f32⟩
  | .local _ .vmem, ⟨3, _⟩ => ⟨S2560x512, .f32⟩
  | .local _ .vmem, ⟨4, _⟩ => ⟨S512x2560, .f32⟩
  | .local _ .vmem, ⟨5, _⟩ => ⟨S512x2560, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x512, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_call0_v1_1 : Ref sig .tc := ⟨.hbm, 5, rfl⟩
abbrev main_call0_v1_2 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_v16 : Ref sig .tc := ⟨.hbm, 21, rfl⟩
abbrev main_call0_v17 : Ref sig .tc := ⟨.hbm, 22, rfl⟩
abbrev main_call0_v18 : Ref sig .tc := ⟨.hbm, 23, rfl⟩
abbrev main_call0_v19 : Ref sig .tc := ⟨.hbm, 24, rfl⟩
abbrev main_call0_v20 : Ref sig .tc := ⟨.hbm, 25, rfl⟩
abbrev main_call0_v21 : Ref sig .tc := ⟨.hbm, 26, rfl⟩
abbrev main_call0_v22 : Ref sig .tc := ⟨.hbm, 27, rfl⟩
abbrev main_call0_cst : Ref sig .tc := ⟨.hbm, 28, rfl⟩
abbrev main_call0_v23 : Ref sig .tc := ⟨.hbm, 29, rfl⟩
abbrev main_call0_cst_0 : Ref sig .tc := ⟨.hbm, 30, rfl⟩
abbrev main_v0_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v1 : BitVec 1 := Scalar.cmpi .eq arg1 c9_i32
  let v88 : BitVec 32 := Scalar.extui v1
  let c0_i32_39 : BitVec 32 := 0#32
  let v89 : BitVec 1 := Scalar.cmpi .ne v88 c0_i32_39
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2560x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S512_S512x1 : S512.ShapeCasts S512x1
  slices_S2x512x1_S1x512x1_0_0_0 : S2x512x1.Slices ![0, 0, 0] S1x512x1
  shapeCasts_S1x512x1_S512x1 : S1x512x1.ShapeCasts S512x1
  slices_S2x512x1_S1x512x1_1_0_0 : S2x512x1.Slices ![1, 0, 0] S1x512x1
  shapeCasts_S512x1_S512 : S512x1.ShapeCasts S512
  reducesTo_S512_S_d0 : S512.ReducesTo [0] S_
  h_S_ : 0 < S_.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  reduces_S512x512_S512 : S512x512.Reduces [1] S512
  broadcasts_S512x1_S512x512 : S512x1.Broadcasts S512x512
  shapeCasts_S512x512_S512x512 : S512x512.ShapeCasts S512x512
  inb_S2560x512_S2560x512_0_0 : ∀ a, (![0, 0] : Fin 2 → Nat) a + S2560x512.size a ≤ S2560x512.size a
  h_S2560x512 : 0 < S2560x512.numel
  reduces_S2560x512_S2560 : S2560x512.Reduces [1] S2560
  shapeCasts_S2560_S2560x1 : S2560.ShapeCasts S2560x1
  broadcasts_S2560x1_S2560x512 : S2560x1.Broadcasts S2560x512
  iota_S512x2560_d1_w32 : S512x2560.Iotas .tc 32 [1]
  broadcasts_S512x1_S512x2560 : S512x1.Broadcasts S512x2560
  reduces_S512x2560_S512 : S512x2560.Reduces [1] S512
  inb_S512x2560_S512x2560_0_0 : ∀ a, (![0, 0] : Fin 2 → Nat) a + S512x2560.size a ≤ S512x2560.size a
  h_S512x2560 : 0 < S512x2560.numel
  inb_S1x512x1_S1x512x1_0_0_0 : ∀ a, (![0, 0, 0] : Fin 3 → Nat) a + S1x512x1.size a ≤ S1x512x1.size a
  h_S1x512x1 : 0 < S1x512x1.numel
  shapeCasts_S512x1_S1x512x1 : S512x1.ShapeCasts S1x512x1
  dot_S512x512_S2560x512_S512x2560_1_1_0_0_n_n_wf : DotDims.WF S512x512 S2560x512 S512x2560 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .i32 = 32 ∨ (Rect.block (s := S512x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2560x512.size a < S50000x512.size a
  hwx0_2 : ∀ i : grid0.Coords, EltTy.bits .f32 = 32 ∨ (Rect.unit (s := S50000x512) (fun a => cc0_transform_2 i a * S2560x512.size a) (fun a => (Pipeline.Clip.of (cc0_transform_2 i a) (S2560x512.size a) (S50000x512.size a)).extent (S2560x512.size a)) fun a => Pipeline.Clip.inb (Pipeline.Clip.ok_of (hstart0_2 i a))).WholeWords (EltTy.packing .f32)
  hwxs0_2 : ∀ i : grid0.Coords, EltTy.bits .f32 = 32 ∨ (Rect.unit (s := S2560x512) (fun _ => 0) (fun a => (Pipeline.Clip.of (cc0_transform_2 i a) (S2560x512.size a) (S50000x512.size a)).extent (S2560x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x2560.size a < S512x50000.size a
  hwx0_3 : ∀ i : grid0.Coords, EltTy.bits .f32 = 32 ∨ (Rect.unit (s := S512x50000) (fun a => cc0_transform_3 i a * S512x2560.size a) (fun a => (Pipeline.Clip.of (cc0_transform_3 i a) (S512x2560.size a) (S512x50000.size a)).extent (S512x2560.size a)) fun a => Pipeline.Clip.inb (Pipeline.Clip.ok_of (hstart0_3 i a))).WholeWords (EltTy.packing .f32)
  hwxs0_3 : ∀ i : grid0.Coords, EltTy.bits .f32 = 32 ∨ (Rect.unit (s := S512x2560) (fun _ => 0) (fun a => (Pipeline.Clip.of (cc0_transform_3 i a) (S512x2560.size a) (S512x50000.size a)).extent (S512x2560.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)

variable [Facts₀]

def dot_S512x512_S2560x512_S512x2560_1_1_0_0_n_n : DotDims S512x512 S2560x512 S512x2560 where
  lhsContracting := [1]
  rhsContracting := [1]
  lhsNonContracting := [0]
  rhsNonContracting := [0]
  lhsBatch := []
  rhsBatch := []
  wf := dot_S512x512_S2560x512_S512x2560_1_1_0_0_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S2560x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0_0) S512x2560.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_call0_v1_1) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1_2) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x512 : Shape := ⟨2, ![512, 512]⟩
abbrev S512 : Shape := ⟨1, ![512]⟩
abbrev S50000x512 : Shape := ⟨2, ![50000, 512]⟩
abbrev S_ : Shape := ⟨0, ![]⟩
abbrev S512x1 : Shape := ⟨2, ![512, 1]⟩
abbrev S50000 : Shape := ⟨1, ![50000]⟩
abbrev S50000x1 : Shape := ⟨2, ![50000, 1]⟩
abbrev S512x50000 : Shape := ⟨2, ![512, 50000]⟩
abbrev S1x50000 : Shape := ⟨2, ![1, 50000]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S50000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S50000x512, .f32⟩
  | .hbm, ⟨14, _⟩ => ⟨S_, .f32⟩
  | .hbm, ⟨15, _⟩ => ⟨S50000, .f32⟩
  | .hbm, ⟨16, _⟩ => ⟨S50000x1, .f32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S50000x512, .f32⟩
  | .hbm, ⟨22, _⟩ => ⟨S50000x512, .f32⟩
  | .hbm, ⟨23, _⟩ => ⟨S512x50000, .f32⟩
  | .hbm, ⟨24, _⟩ => ⟨S512x50000, .f32⟩
  | .hbm, ⟨25, _⟩ => ⟨S_, .f32⟩
  | .hbm, ⟨26, _⟩ => ⟨S512x50000, .f32⟩
  | .hbm, ⟨27, _⟩ => ⟨S512x50000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S512x50000, .f32⟩
  | .hbm, ⟨32, _⟩ => ⟨S512x50000, .f32⟩
  | .hbm, ⟨33, _⟩ => ⟨S_, .f32⟩
  | .hbm, ⟨34, _⟩ => ⟨S512x50000, .f32⟩
  | .hbm, ⟨35, _⟩ => ⟨S512x50000, .f32⟩
  | .hbm, ⟨36, _⟩ => ⟨S512x50000, .f32⟩
  | .hbm, ⟨37, _⟩ => ⟨S_, .f32⟩
  | .hbm, ⟨38, _⟩ => ⟨S512x50000, .f32⟩
  | .hbm, ⟨39, _⟩ => ⟨S512x50000, .f32⟩
  | .hbm, ⟨40, _⟩ => ⟨S_, .f32⟩
  | .hbm, ⟨41, _⟩ => ⟨S512x50000, .f32⟩
  | .hbm, ⟨42, _⟩ => ⟨S512x50000, .f32⟩
  | .hbm, ⟨43, _⟩ => ⟨S512x50000, .f32⟩
  | .hbm, ⟨44, _⟩ => ⟨S_, .f32⟩
  | .hbm, ⟨45, _⟩ => ⟨S512x50000, .f32⟩
  | .hbm, ⟨46, _⟩ => ⟨S512x50000, .i1⟩
  | .hbm, ⟨47, _⟩ => ⟨S_, .f32⟩
  | .hbm, ⟨48, _⟩ => ⟨S512x50000, .f32⟩
  | .hbm, ⟨49, _⟩ => ⟨S512x50000, .f32⟩
  | .hbm, ⟨50, _⟩ => ⟨S512x50000, .f32⟩
  | .hbm, ⟨51, _⟩ => ⟨S512x1, .i32⟩
  | .hbm, ⟨52, _⟩ => ⟨S1x50000, .i32⟩
  | .hbm, ⟨53, _⟩ => ⟨S512x50000, .i32⟩
  | .hbm, ⟨54, _⟩ => ⟨S512x50000, .i32⟩
  | .hbm, ⟨55, _⟩ => ⟨S512x50000, .i1⟩
  | .hbm, ⟨56, _⟩ => ⟨S512x50000, .f32⟩
  | .hbm, ⟨57, _⟩ => ⟨S512x50000, .f32⟩
  | .hbm, ⟨58, _⟩ => ⟨S_, .f32⟩
  | .hbm, ⟨59, _⟩ => ⟨S512x50000, .f32⟩
  | .hbm, ⟨60, _⟩ => ⟨S512x50000, .f32⟩
  | .hbm, ⟨61, _⟩ => ⟨S512x50000, .f32⟩
  | .hbm, ⟨62, _⟩ => ⟨S512x50000, .f32⟩
  | .hbm, ⟨63, _⟩ => ⟨S_, .f32⟩
  | .hbm, ⟨64, _⟩ => ⟨S512x50000, .f32⟩
  | .hbm, ⟨65, _⟩ => ⟨S512x50000, .f32⟩
  | .hbm, ⟨66, _⟩ => ⟨S_, .f32⟩
  | .hbm, ⟨67, _⟩ => ⟨S512, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S512x1, .f32⟩
  | .hbm, ⟨72, _⟩ => ⟨S512x50000, .f32⟩
  | .hbm, ⟨73, _⟩ => ⟨S512x50000, .f32⟩
  | .hbm, ⟨74, _⟩ => ⟨S512x50000, .f32⟩
  | .hbm, ⟨75, _⟩ => ⟨S_, .f32⟩
  | .hbm, ⟨76, _⟩ => ⟨S512, .f32⟩
  | .hbm, ⟨77, _⟩ => ⟨S512x1, .f32⟩
  | .hbm, ⟨78, _⟩ => ⟨S512x1, .f32⟩
  | .hbm, ⟨79, _⟩ => ⟨S512x50000, .f32⟩
  | .hbm, ⟨80, _⟩ => ⟨S512x50000, .f32⟩
  | .hbm, ⟨81, _⟩ => ⟨S512x1, .i32⟩
  | .hbm, ⟨82, _⟩ => ⟨S_, .i32⟩
  | .hbm, ⟨83, _⟩ => ⟨S512x1, .i32⟩
  | .hbm, ⟨84, _⟩ => ⟨S512x1, .i1⟩
  | .hbm, ⟨85, _⟩ => ⟨S_, .i32⟩
  | .hbm, ⟨86, _⟩ => ⟨S512x1, .i32⟩
  | .hbm, ⟨87, _⟩ => ⟨S512x1, .i32⟩
  | .hbm, ⟨88, _⟩ => ⟨S512x1, .i32⟩
  | .hbm, ⟨89, _⟩ => ⟨S512x1x1, .i32⟩
  | .hbm, ⟨90, _⟩ => ⟨S1, .i32⟩
  | .hbm, ⟨91, _⟩ => ⟨S_, .i32⟩
  | .hbm, ⟨92, _⟩ => ⟨S512x1x1, .i32⟩
  | .hbm, ⟨93, _⟩ => ⟨S512x1x1, .i1⟩
  | .hbm, ⟨94, _⟩ => ⟨S1x1x1, .i32⟩
  | .hbm, ⟨95, _⟩ => ⟨S512x1x1, .i32⟩
  | .hbm, ⟨96, _⟩ => ⟨S512x1x1, .i1⟩
  | .hbm, ⟨97, _⟩ => ⟨S512x1x1, .i1⟩
  | .hbm, ⟨98, _⟩ => ⟨S_, .i1⟩
  | .hbm, ⟨99, _⟩ => ⟨S512x1, .i1⟩
  | .hbm, ⟨100, _⟩ => ⟨S512x1, .f32⟩
  | .hbm, ⟨101, _⟩ => ⟨S_, .f32⟩
  | .hbm, ⟨102, _⟩ => ⟨S512x1, .f32⟩
  | .hbm, ⟨103, _⟩ => ⟨S512x1, .f32⟩
  | .hbm, ⟨104, _⟩ => ⟨S512, .f32⟩
  | .hbm, ⟨105, _⟩ => ⟨S512, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v32 : Ref sig .tc := ⟨.hbm, 56, rfl⟩
abbrev main_v33 : Ref sig .tc := ⟨.hbm, 57, rfl⟩
abbrev main_cst_10 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_11 : Ref sig .tc := ⟨.hbm, 63, rfl⟩
abbrev main_v38 : Ref sig .tc := ⟨.hbm, 64, rfl⟩
abbrev main_v39 : Ref sig .tc := ⟨.hbm, 65, rfl⟩
abbrev main_call3_cst : Ref sig .tc := ⟨.hbm, 66, rfl⟩
abbrev main_call3_v0 : Ref sig .tc := ⟨.hbm, 67, rfl⟩
abbrev main_call3_cst_0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_v6 : Ref sig .tc := ⟨.hbm, 74, rfl⟩
abbrev main_call3_cst_1 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_v40 : Ref sig .tc := ⟨.hbm, 80, rfl⟩
abbrev main_v41 : Ref sig .tc := ⟨.hbm, 81, rfl⟩
abbrev main_call4_c : Ref sig .tc := ⟨.hbm, 82, rfl⟩
abbrev main_call4_v0 : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_c_1 : Ref sig .tc := ⟨.hbm, 90, rfl⟩
abbrev main_call4_c_2 : Ref sig .tc := ⟨.hbm, 91, rfl⟩
abbrev main_call4_v6 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_3 : Ref sig .tc := ⟨.hbm, 98, rfl⟩
abbrev main_call4_v12 : Ref sig .tc := ⟨.hbm, 99, rfl⟩
abbrev main_call4_v13 : Ref sig .tc := ⟨.hbm, 100, rfl⟩
abbrev main_call4_cst : Ref sig .tc := ⟨.hbm, 101, rfl⟩
abbrev main_call4_v14 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_12 : Ref sig .tc := ⟨.hbm, 106, rfl⟩
abbrev main_v45 : Ref sig .tc := ⟨.hbm, 107, rfl⟩
abbrev main_cst_13 : Ref sig .tc := ⟨.hbm, 108, rfl⟩
abbrev main_v46 : Ref sig .tc := ⟨.hbm, 109, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S50000x512_S50000_d1 : S50000x512.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  bcast_S_S512x50000 : S_.BroadcastsInDim S512x50000 (![] : Fin 0 → Fin S512x50000.rank)
  bcast_S512x1_S512x50000_0_1 : S512x1.BroadcastsInDim S512x50000 (![0, 1] : Fin 2 → Fin S512x50000.rank)
  bcast_S1x50000_S512x50000_0_1 : S1x50000.BroadcastsInDim S512x50000 (![0, 1] : Fin 2 → Fin S512x50000.rank)
  reducesTo_S512x50000_S512_d1 : S512x50000.ReducesTo [1] S512
  bcast_S_S512 : S_.BroadcastsInDim S512 (![] : Fin 0 → Fin S512.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  dot_S512x512_S50000x512_S512x50000_1_1_0_0_n_n_wf : DotDims.WF S512x512 S50000x512 S512x50000 [1] [1] [0] [0] [] []
  gather_S512x50000_S512x1x1_S512x1_n_1_0_0_1_2_11_wf : GatherDims.WF S512x50000 S512x1x1 S512x1 [] [1] [0] [1] [0] 2 ![1, 1]

variable [Facts₀]

def dot_S512x512_S50000x512_S512x50000_1_1_0_0_n_n : DotDims S512x512 S50000x512 S512x50000 where
  lhsContracting := [1]
  rhsContracting := [1]
  lhsNonContracting := [0]
  rhsNonContracting := [0]
  lhsBatch := []
  rhsBatch := []
  wf := dot_S512x512_S50000x512_S512x50000_1_1_0_0_n_n_wf
def gather_S512x50000_S512x1x1_S512x1_n_1_0_0_1_2_11 : GatherDims S512x50000 S512x1x1 S512x1 where
  offsetDims := []
  collapsedSliceDims := [1]
  operandBatchingDims := [0]
  startIndicesBatchingDims := [0]
  startIndexMap := [1]
  indexVectorDim := 2
  sliceSizes := ![1, 1]
  wf := gather_S512x50000_S512x1x1_S512x1_n_1_0_0_1_2_11_wf

class Facts : Prop extends Facts₀ where

variable [Facts]
-- ==== Proof.Spec.lean ====
/-
  The specification both programs are proved against: ArcFace logits and their mean cross-entropy, as ONE function
  of the three argument arrays, over the extended reals, with the float literals the two programs share kept as the
  extended reals their words denote.

    nrm v        = max (sqrt (sum_k v_k^2)) eps                      (the clamped Euclidean norm of a row)
    cosv x w r c = sum_k (x[r,k] / nrm x[r,:]) * (w[c,k] / nrm w[c,:])
    phi v        = v*cos m - sqrt (min 1 (max 0 (1.0000001 - v^2))) * sin m   if v > th,  else v - mm
    out[r,c]     = (phi (cosv r c) if labels[r] = c else cosv r c) * s
    loss         = (sum_r (log (sum_c exp out[r,c]) - out[r, labels[r]])) / 512
-/
import Idealize.ShloMosaic.PureOps.Ideal
import Idealize.ShloMosaic.Lib.ValueIdx

noncomputable section

namespace Cert.Arc

open Idealize.ShloMosaic Idealize.ShloMosaic.ValueIdx
open scoped BigOperators

/-- The shapes of the arguments and of the first result. -/
abbrev SX : Shape := ⟨2, ![512, 512]⟩
abbrev SW : Shape := ⟨2, ![50000, 512]⟩
abbrev SL : Shape := ⟨1, ![512]⟩
abbrev SO : Shape := ⟨2, ![512, 50000]⟩

/-- The literals, as the extended reals their f32 words denote. -/
def cEps : EReal := Ideal.ofBits .f32 0x2B8CBCCC#32
def cOneP : EReal := Ideal.ofBits .f32 0x3F800001#32
def cOne : EReal := Ideal.ofBits .f32 0x3F800000#32
def cZero : EReal := Ideal.ofBits .f32 0x00000000#32
def cCosM : EReal := Ideal.ofBits .f32 0x3F60A940#32
def cSinM : EReal := Ideal.ofBits .f32 0x3EF57744#32
def cTh : EReal := Ideal.ofBits .f32 0xBF60A940#32
def cMM : EReal := Ideal.ofBits .f32 0x3E757744#32
def cS : EReal := Ideal.ofBits .f32 0x41F00000#32
def c512 : EReal := Ideal.ofBits .f32 0x44000000#32

/-- The clamped Euclidean norm of a row of 512 entries. -/
def nrm (v : Fin 512 → EReal) : EReal := max (Ideal.sqrt (∑ k : Fin 512, v k * v k)) cEps

/-- Row `r` of the logits and row `c` of the weights. -/
def xrow (x : SX.Idx → EReal) (r : Fin 512) : Fin 512 → EReal := fun k => x (ix2 r k)
def wrow (w : SW.Idx → EReal) (c : Fin 50000) : Fin 512 → EReal := fun k => w (ix2 c k)

/-- The cosine of logits row `r` and weight row `c`: the inner product of the two rows, each divided by its clamped norm. -/
def cosv (x : SX.Idx → EReal) (w : SW.Idx → EReal) (r : Fin 512) (c : Fin 50000) : EReal :=
  ∑ k : Fin 512, Ideal.div (xrow x r k) (nrm (xrow x r)) * Ideal.div (wrow w c k) (nrm (wrow w c))

/-- The margin: cos (theta + m) above the threshold, the linear fall-back below it. -/
def phi (v : EReal) : EReal :=
  Scalar.select (Ideal.cmp .ogt v cTh)
    (v * cCosM - Ideal.sqrt (min cOne (max cZero (cOneP - v * v))) * cSinM)
    (v - cMM)

/-- Entry (r, c) of the scaled logits: the margin at the label's column, the cosine elsewhere. -/
def outv (x : SX.Idx → EReal) (lab : SL.Idx → BitVec 32) (w : SW.Idx → EReal) (r : Fin 512) (c : Fin 50000) : EReal :=
  (if lab (ix1 r) = BitVec.ofNat 32 c.val then phi (cosv x w r c) else cosv x w r c) * cS

/-- The first result, index by index. -/
def outSpec (x : SX.Idx → EReal) (lab : SL.Idx → BitVec 32) (w : SW.Idx → EReal) : SO.Idx → EReal :=
  fun j => outv x lab w ⟨(j 0).val, (j 0).isLt⟩ ⟨(j 1).val, (j 1).isLt⟩

/-- The label of row `r` as a column (column 0 for a label out of range: the precondition excludes those). -/
def labCol (lab : SL.Idx → BitVec 32) (r : Fin 512) : Fin 50000 :=
  if h : (lab (ix1 r)).toNat < 50000 then ⟨(lab (ix1 r)).toNat, h⟩ else ⟨0, by decide⟩

/-- Row `r`'s cross-entropy: log-sum-exp of the row minus the entry at the label. -/
def lossRow (x : SX.Idx → EReal) (lab : SL.Idx → BitVec 32) (w : SW.Idx → EReal) (r : Fin 512) : EReal :=
  Ideal.log (∑ c : Fin 50000, Ideal.exp (outv x lab w r c)) - outv x lab w r (labCol lab r)

/-- The second result: the mean of the rows' cross-entropies. -/
def lossSpec (x : SX.Idx → EReal) (lab : SL.Idx → BitVec 32) (w : SW.Idx → EReal) : EReal :=
  Ideal.div (∑ r : Fin 512, lossRow x lab w r) c512

/-- The hypotheses the loss needs: every float entry a real number, every label a class. -/
def FiniteArr {s : Shape} (a : s.Idx → EReal) : Prop := ∀ i, ∃ r : ℝ, a i = (r : EReal)
def LabelsInRange (lab : SL.Idx → BitVec 32) : Prop := ∀ i, (lab i).toNat < 50000

end Cert.Arc

end
-- ==== Proof.RefOut.lean ====
/-
  The reference program's first result is the specification's scaled logits.

  The reference is read one operation at a time, at one index (r, c) of the result: the two L2-normalisations are the
  rows divided by their clamped norms, the contraction is the cosine, the clip / select pair is the margin, the
  one-hot blend picks the margin at the label's column and the cosine elsewhere, and the last product scales by s.
-/
import proofs.«409471_j56487409877363_2_alg».proof.Proof.RefRead
import proofs.«409471_j56487409877363_2_alg».proof.Proof.Spec
import Idealize.ShloMosaic.Lib.IdealHost

noncomputable section

namespace Cert.Arc.Ref

open Cert.ReferenceIdeal Cert.ReferenceIdeal.ReadP Idealize.ShloMosaic Idealize.ShloMosaic.ValueIdx
open scoped BigOperators

/-- The clamped norm of logits row `r`, broadcast along the row. -/
theorem v6_eq (x : FVec Ideal S512x512 .f32) (r k : Fin 512) :
    val_main_v6 (F := Ideal) x (ix2 r k) = nrm (xrow x r) := by
  rw [val_main_v6_apply, val_main_v5_apply, val_main_v3_apply, val_main_v2_apply, val_main_v1_apply,
    val_main_v4_apply, val_main_cst_0_apply, val_main_cst_apply]
  simp only [val_main_v0_apply, Ideal.maximumf_def, Ideal.hostUnary_sqrt_def, Ideal.ofBits_def, Ideal.mulf_def,
    Ideal.ofBits_zero_f32, zero_add]
  unfold nrm xrow cEps
  have e : ∀ k' : Fin 512, idx_main_v1 (idx_main_v2 (idx_main_v6 (ix2 r k))) k' = ix2 r k' := fun k' =>
    funext fun a => Fin.ext (by match a with | ⟨0, _⟩ => rfl | ⟨1, _⟩ => rfl)
  simp only [e]

/-- The clamped norm of weight row `c`, broadcast along the row. -/
theorem v14_eq (w : FVec Ideal S50000x512 .f32) (c : Fin 50000) (k : Fin 512) :
    val_main_v14 (F := Ideal) w (ix2 c k) = nrm (wrow w c) := by
  rw [val_main_v14_apply, val_main_v13_apply, val_main_v11_apply, val_main_v10_apply, val_main_v9_apply,
    val_main_v12_apply, val_main_cst_2_apply, val_main_cst_1_apply]
  simp only [val_main_v8_apply, Ideal.maximumf_def, Ideal.hostUnary_sqrt_def, Ideal.ofBits_def, Ideal.mulf_def,
    Ideal.ofBits_zero_f32, zero_add]
  unfold nrm wrow cEps
  have e : ∀ k' : Fin 512, idx_main_v9 (idx_main_v10 (idx_main_v14 (ix2 c k))) k' = ix2 c k' := fun k' =>
    funext fun a => Fin.ext (by match a with | ⟨0, _⟩ => rfl | ⟨1, _⟩ => rfl)
  simp only [e]

/-- The contraction of the two normalised arrays is the cosine. -/
theorem v16_eq (x : FVec Ideal S512x512 .f32) (w : FVec Ideal S50000x512 .f32) (r : Fin 512) (c : Fin 50000) :
    val_main_v16 (F := Ideal) x w (ix2 r c) = cosv x w r c := by
  rw [val_main_v16_apply]
  unfold cosv
  refine Finset.sum_congr rfl fun k _ => ?_
  have el : lidx_main_v16 (ix2 r c) k = ix2 r k :=
    funext fun a => Fin.ext (by match a with | ⟨0, _⟩ => rfl | ⟨1, _⟩ => rfl)
  have er : ridx_main_v16 (ix2 r c) k = ix2 c k :=
    funext fun a => Fin.ext (by match a with | ⟨0, _⟩ => rfl | ⟨1, _⟩ => rfl)
  rw [el, er, val_main_v7_apply, val_main_v15_apply, v6_eq, v14_eq]
  rfl

/-- The clip / square-root / select chain is the specification's margin of the cosine. -/
theorem v31_eq (x : FVec Ideal S512x512 .f32) (w : FVec Ideal S50000x512 .f32) (r : Fin 512) (c : Fin 50000) :
    val_main_v31 (F := Ideal) x w (ix2 r c) = phi (cosv x w r c) := by
  rw [val_main_v31_apply, val_main_v28_apply, val_main_v26_apply, val_main_v30_apply, val_main_v23_apply,
    val_main_v25_apply, val_main_v21_apply, val_main_v20_apply, val_main_call0_v2_apply, val_main_v19_apply,
    val_main_v17_apply, val_main_v18_apply, val_main_v22_apply, val_main_v24_apply, val_main_v27_apply,
    val_main_v29_apply, val_main_call0_v1_apply, val_main_call0_v4_apply, val_main_call0_v0_apply,
    val_main_call0_v3_apply, val_main_cst_3_apply, val_main_cst_4_apply, val_main_cst_5_apply, val_main_cst_6_apply,
    val_main_cst_7_apply, val_main_cst_8_apply, val_main_cst_9_apply, v16_eq]
  rfl

/-- The one-hot of the label: one at the label's column, zero elsewhere. -/
theorem v32_eq (lab : IVec S512 32) (r : Fin 512) (c : Fin 50000) :
    val_main_v32 (F := Ideal) lab (ix2 r c) = if lab (ix1 r) = BitVec.ofNat 32 c.val then 1 else 0 := by
  rw [val_main_v32_apply, val_main_call2_v4_apply, val_main_call2_v2_apply, val_main_call2_v0_apply,
    val_main_call2_v3_apply, val_main_call2_v1_apply]
  have e1 : idx_main_call2_v0 (idx_main_call2_v2 (ix2 r c)) = ix1 r :=
    funext fun a => Fin.ext (by match a with | ⟨0, _⟩ => rfl)
  rw [e1]
  show (((IntOp.cmpi .eq (lab (ix1 r)) (BitVec.ofNat 32 c.val)).toNat : ℝ) : EReal) = _
  by_cases h : lab (ix1 r) = BitVec.ofNat 32 c.val
  · rw [if_pos h, h]; simp [IntOp.cmpi]
  · rw [if_neg h]; simp [IntOp.cmpi, h]

/-- One minus one is zero in the extended reals. -/
theorem one_sub_one : (1 : EReal) - 1 = 0 := by
  rw [show (1 : EReal) = ((1 : ℝ) : EReal) from rfl, ← EReal.coe_sub, sub_self, EReal.coe_zero]

/-- Entry (r, c) of the reference's first result. -/
theorem v39_eq (x : FVec Ideal S512x512 .f32) (lab : IVec S512 32) (w : FVec Ideal S50000x512 .f32)
    (r : Fin 512) (c : Fin 50000) :
    val_main_v39 (F := Ideal) x lab w (ix2 r c) = outv x lab w r c := by
  rw [val_main_v39_apply, val_main_v37_apply, val_main_v33_apply, val_main_v36_apply, val_main_v35_apply,
    val_main_v34_apply, val_main_v38_apply, val_main_cst_10_apply, val_main_cst_11_apply, v31_eq, v32_eq, v16_eq]
  simp only [Ideal.mulf_def, Ideal.addf_def, Ideal.subf_def, Ideal.ofBits_def, Ideal.ofBits_one_f32]
  unfold outv cS
  by_cases h : lab (ix1 r) = BitVec.ofNat 32 c.val
  · rw [if_pos h, if_pos h, one_sub_one, one_mul, zero_mul, add_zero]
  · rw [if_neg h, if_neg h, sub_zero, one_mul, zero_mul, zero_add]

/-- THE FIRST RESULT: the reference's scaled logits are the specification's. -/
theorem out_eq [Cert.ReferenceIdeal.Facts] (x : FVec Ideal S512x512 .f32) (lab : IVec S512 32) (w : FVec Ideal S50000x512 .f32) :
    val_main_v39 (F := Ideal) x lab w = outSpec x lab w := by
  funext j
  obtain ⟨r, c, rfl⟩ : ∃ (r : Fin 512) (c : Fin 50000), j = ix2 r c := ⟨j 0, j 1, eq_ix2 j⟩
  rw [v39_eq]
  rfl

end Cert.Arc.Ref

end
-- ==== Proof.RefReal.lean ====
/-
  Every entry of the specification's scaled logits is a real number when the inputs are: the clamped norms are reals
  bounded below by a positive constant, so the normalised rows, the cosine, the margin and the scaled logit are
  reals. The literals are reals because none of their words has the all-ones exponent.
-/
import proofs.«409471_j56487409877363_2_alg».proof.Proof.Spec
import Idealize.ShloMosaic.Lib.IdealHost

noncomputable section

namespace Cert.Arc.Ref

open Idealize.ShloMosaic Idealize.ShloMosaic.ValueIdx
open scoped BigOperators

/-- An extended real that is a real number. -/
def IsR (a : EReal) : Prop := ∃ r : ℝ, a = (r : EReal)

theorem IsR.coe (r : ℝ) : IsR (r : EReal) := ⟨r, rfl⟩
theorem IsR.add {a b : EReal} (ha : IsR a) (hb : IsR b) : IsR (a + b) := by
  obtain ⟨x, rfl⟩ := ha; obtain ⟨y, rfl⟩ := hb; exact ⟨x + y, (EReal.coe_add x y).symm⟩
theorem IsR.sub {a b : EReal} (ha : IsR a) (hb : IsR b) : IsR (a - b) := by
  obtain ⟨x, rfl⟩ := ha; obtain ⟨y, rfl⟩ := hb; exact ⟨x - y, (EReal.coe_sub x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.max {a b : EReal} (ha : IsR a) (hb : IsR b) : IsR (max a b) := by
  rcases max_choice a b with h | h <;> rw [h] <;> assumption
theorem IsR.min {a b : EReal} (ha : IsR a) (hb : IsR b) : IsR (min a b) := by
  rcases min_choice a b with h | h <;> rw [h] <;> assumption
theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The square root of a real that is not negative is a real. -/
theorem IsR.sqrt_of_nonneg {a : EReal} (h0 : 0 ≤ a) (ha : IsR a) : IsR (Ideal.sqrt a) := by
  obtain ⟨x, rfl⟩ := ha
  rw [Ideal.sqrt_coe, if_neg (not_lt.mpr (EReal.coe_nonneg.mp h0))]
  exact ⟨_, rfl⟩

/-- An f32 word whose exponent field is not all ones denotes a real. -/
theorem ofBits_isR (b : BitVec 32) (h : (b.extractLsb' 23 8).toNat ≠ 2 ^ 8 - 1) : IsR (Ideal.ofBits .f32 b) := by
  show IsR (Ideal.ieee 8 23 b)
  unfold Ideal.ieee
  simp only []
  rw [if_neg h]
  split
  · exact ⟨_, rfl⟩
  · exact ⟨_, rfl⟩

theorem cOneP_isR : IsR cOneP := ofBits_isR _ (by decide)
theorem cOne_isR : IsR cOne := ofBits_isR _ (by decide)
theorem cZero_isR : IsR cZero := ofBits_isR _ (by decide)
theorem cCosM_isR : IsR cCosM := ofBits_isR _ (by decide)
theorem cSinM_isR : IsR cSinM := ofBits_isR _ (by decide)
theorem cTh_isR : IsR cTh := ofBits_isR _ (by decide)
theorem cMM_isR : IsR cMM := ofBits_isR _ (by decide)
theorem cS_isR : IsR cS := ofBits_isR _ (by decide)
theorem c512_isR : IsR c512 := ofBits_isR _ (by decide)

/-- The norm's floor is a positive real. -/
theorem cEps_pos : ∃ e : ℝ, 0 < e ∧ cEps = (e : EReal) := by
  show ∃ e : ℝ, 0 < e ∧ Ideal.ieee 8 23 (0x2B8CBCCC#32) = (e : EReal)
  unfold Ideal.ieee
  simp only []
  rw [if_neg (by decide), if_neg (by decide)]
  refine ⟨_, ?_, rfl⟩
  rw [show ((0x2B8CBCCC#32 : BitVec 32).extractLsb' (8 + 23) 1 == 1#1) = false by decide]
  simp only [Bool.false_eq_true, if_false, one_mul]
  positivity

/-- The clamped norm of a row of reals is a positive real. -/
theorem nrm_pos (v : Fin 512 → EReal) (hv : ∀ k, IsR (v k)) : ∃ n : ℝ, 0 < n ∧ nrm v = (n : EReal) := by
  obtain ⟨e, he, hE⟩ := cEps_pos
  have hs : IsR (∑ k : Fin 512, v k * v k) := IsR.sum _ _ fun k _ => (hv k).mul (hv k)
  have h0 : (0 : EReal) ≤ ∑ k : Fin 512, v k * v k := Finset.sum_nonneg fun k _ => by
    obtain ⟨a, ha⟩ := hv k
    rw [ha, ← EReal.coe_mul]
    exact EReal.coe_nonneg.mpr (mul_self_nonneg a)
  obtain ⟨q, hq⟩ := IsR.sqrt_of_nonneg h0 hs
  unfold nrm
  rw [hq, hE]
  rcases le_total q e with h | h
  · rw [max_eq_right (EReal.coe_le_coe_iff.mpr h)]; exact ⟨e, he, rfl⟩
  · rw [max_eq_left (EReal.coe_le_coe_iff.mpr h)]; exact ⟨q, lt_of_lt_of_le he h, rfl⟩

/-- A real divided by a positive real is a real. -/
theorem IsR.div_pos {a : EReal} (ha : IsR a) {n : ℝ} (hn : 0 < n) : IsR (Ideal.div a (n : EReal)) := by
  rw [Ideal.div_coe (ne_of_gt hn)]
  exact ha.mul (IsR.coe _)

/-- The cosine of two rows of reals is a real. -/
theorem cosv_isR (x : SX.Idx → EReal) (w : SW.Idx → EReal) (hx : FiniteArr x) (hw : FiniteArr w)
    (r : Fin 512) (c : Fin 50000) : IsR (cosv x w r c) := by
  obtain ⟨n, hn, hN⟩ := nrm_pos (xrow x r) fun k => hx _
  obtain ⟨m, hm, hM⟩ := nrm_pos (wrow w c) fun k => hw _
  unfold cosv
  rw [hN, hM]
  exact IsR.sum _ _ fun k _ => (IsR.div_pos (hx _) hn).mul (IsR.div_pos (hw _) hm)

/-- The margin of a real is a real. -/
theorem phi_isR {v : EReal} (hv : IsR v) : IsR (phi v) := by
  unfold phi Scalar.select
  split
  · refine ((hv.mul cCosM_isR).sub ((IsR.sqrt_of_nonneg ?_ ?_).mul cSinM_isR))
    · refine le_min ?_ (le_max_of_le_left ?_)
      · show (0 : EReal) ≤ Ideal.ofBits .f32 0x3F800000#32
        rw [Ideal.ofBits_one_f32]; exact zero_le_one
      · show (0 : EReal) ≤ Ideal.ofBits .f32 0x00000000#32
        rw [Ideal.ofBits_zero_f32]
    · exact cOne_isR.min (cZero_isR.max (cOneP_isR.sub (hv.mul hv)))
  · exact hv.sub cMM_isR

/-- Every entry of the scaled logits is a real. -/
theorem outv_isR (x : SX.Idx → EReal) (lab : SL.Idx → BitVec 32) (w : SW.Idx → EReal) (hx : FiniteArr x)
    (hw : FiniteArr w) (r : Fin 512) (c : Fin 50000) : IsR (outv x lab w r c) := by
  unfold outv
  split
  · exact (phi_isR (cosv_isR x w hx hw r c)).mul cS_isR
  · exact (cosv_isR x w hx hw r c).mul cS_isR

end Cert.Arc.Ref

end
-- ==== Proof.SoftmaxLaws.lean ====
/-
  The real-analysis laws behind the two loss computations, over the extended reals.

    * a finite sum of reals commutes with the coercion into the extended reals;
    * a maximum of finitely many reals, folded from the bottom element, is a real;
    * the log-soft-max at one column does not depend on the shift subtracted before exponentiating;
    * the online soft-max: a running pair (m, l) with l = sum over the seen columns of exp (o c - m)
      is maintained by the tile update  m' = max m (max of the tile),  l' = exp (m - m') * l + sum exp (e - m'),
      where masked lanes hold the bottom element and so contribute exp ⊥ = 0; at the end m + log l is the
      log-sum-exp of the seen columns;
    * two partial log-sum-exps merge by  max a b + log (1 + exp (-|a - b|));
    * the log-sum-exp of a row of reals, written with the extended exp and log, is the real one.
-/
import Idealize.ShloMosaic.PureOps.Ideal
import Mathlib.Data.EReal.Basic
import Mathlib.Data.EReal.Operations
import Mathlib.Data.Finset.Fold
import Mathlib.Analysis.SpecialFunctions.Log.Basic
import Mathlib.Algebra.BigOperators.Group.Finset.Basic

noncomputable section

namespace Cert.Arc.Laws

open Idealize.ShloMosaic
open scoped BigOperators

/-- (L0) A finite sum of reals, coerced, is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with the maximum of two reals. -/
theorem coe_max (a b : ℝ) : ((max a b : ℝ) : EReal) = max (a : EReal) (b : EReal) :=
  EReal.coe_strictMono.monotone.map_max

/-- A sum of exponentials over a nonempty set is positive. -/
theorem sum_exp_pos {ι : Type*} (s : Finset ι) (hs : s.Nonempty) (g : ι → ℝ) :
    0 < ∑ c ∈ s, Real.exp (g c) :=
  Finset.sum_pos (fun c _ => Real.exp_pos _) hs

/-- Shifting every exponent by M shifts the logarithm of the sum by M. -/
theorem log_sum_exp_shift {ι : Type*} (s : Finset ι) (hs : s.Nonempty) (o : ι → ℝ) (M : ℝ) :
    Real.log (∑ c ∈ s, Real.exp (o c - M)) = Real.log (∑ c ∈ s, Real.exp (o c)) - M := by
  have h1 : (∑ c ∈ s, Real.exp (o c - M)) = (∑ c ∈ s, Real.exp (o c)) / Real.exp M := by
    rw [Finset.sum_div]
    exact Finset.sum_congr rfl (fun c _ => Real.exp_sub _ _)
  rw [h1, Real.log_div (sum_exp_pos s hs o).ne' (Real.exp_pos M).ne', Real.log_exp]

/-- The extended sum of extended exponentials of reals is the coerced real sum. -/
theorem sum_exp_coe {ι : Type*} (s : Finset ι) (g : ι → ℝ) :
    (∑ c ∈ s, Ideal.exp ((g c : ℝ) : EReal)) = ((∑ c ∈ s, Real.exp (g c) : ℝ) : EReal) := by
  rw [coe_sum]
  exact Finset.sum_congr rfl (fun c _ => Ideal.exp_coe _)

/-- The extended logarithm of a positive real. -/
theorem log_coe_pos (r : ℝ) (hr : 0 < r) : Ideal.log (r : EReal) = ((Real.log r : ℝ) : EReal) := by
  rw [Ideal.log_coe, if_neg (not_le.mpr hr)]

/-- (L5) The log-sum-exp of a row of reals. -/
theorem log_sum_exp_coe {n : ℕ} (hn : 0 < n) (o : Fin n → ℝ) :
    Ideal.log (∑ c : Fin n, Ideal.exp ((o c : ℝ) : EReal))
      = ((Real.log (∑ c : Fin n, Real.exp (o c)) : ℝ) : EReal) := by
  have hne : (Finset.univ : Finset (Fin n)).Nonempty := ⟨⟨0, hn⟩, Finset.mem_univ _⟩
  rw [sum_exp_coe, log_coe_pos _ (sum_exp_pos _ hne o)]

/-- (L2) The negated log-soft-max at column l: the shift M cancels. -/
theorem neg_logsoftmax_at {n : ℕ} (hn : 0 < n) (o : Fin n → ℝ) (l : Fin n) (M : ℝ) :
    -((((o l : ℝ) : EReal) - (M : EReal))
        - Ideal.log (∑ c : Fin n, Ideal.exp (((o c : ℝ) : EReal) - (M : EReal))))
      = Ideal.log (∑ c : Fin n, Ideal.exp ((o c : ℝ) : EReal)) - ((o l : ℝ) : EReal) := by
  have hne : (Finset.univ : Finset (Fin n)).Nonempty := ⟨⟨0, hn⟩, Finset.mem_univ _⟩
  have h1 : (∑ c : Fin n, Ideal.exp (((o c : ℝ) : EReal) - (M : EReal)))
      = ((∑ c : Fin n, Real.exp (o c - M) : ℝ) : EReal) := by
    rw [← sum_exp_coe]
    exact Finset.sum_congr rfl (fun c _ => by rw [← EReal.coe_sub])
  rw [h1, log_coe_pos _ (sum_exp_pos _ hne _), log_sum_exp_shift _ hne, log_sum_exp_coe hn,
    ← EReal.coe_sub, ← EReal.coe_sub, ← EReal.coe_neg, ← EReal.coe_sub]
  congr 1
  ring

/-- A maximum folded from the bottom element over entries none of which is the top element and one of which is
    not the bottom element is a real. -/
theorem fold_max_real_of {ι : Type*} (s : Finset ι) (g : ι → EReal) (htop : ∀ j ∈ s, g j ≠ ⊤)
    (hbot : ∃ j ∈ s, g j ≠ ⊥) : ∃ M : ℝ, s.fold max (⊥ : EReal) g = (M : EReal) := by
  have h1 : s.fold max (⊥ : EReal) g ≠ ⊤ := by
    rw [← lt_top_iff_ne_top, Finset.fold_max_lt]
    exact ⟨bot_lt_top, fun x hx => lt_top_iff_ne_top.mpr (htop x hx)⟩
  have h2 : s.fold max (⊥ : EReal) g ≠ ⊥ := by
    rw [← bot_lt_iff_ne_bot, Finset.lt_fold_max]
    obtain ⟨j, hj, hjb⟩ := hbot
    exact Or.inr ⟨j, hj, bot_lt_iff_ne_bot.mpr hjb⟩
  exact ⟨_, (EReal.coe_toReal h1 h2).symm⟩

/-- (L1) The maximum of finitely many reals, folded from the bottom element, is a real. -/
theorem fold_max_real {n : ℕ} (hn : 0 < n) (o : Fin n → ℝ) :
    ∃ M : ℝ, (Finset.univ : Finset (Fin n)).fold max (⊥ : EReal) (fun c => ((o c : ℝ) : EReal)) = (M : EReal) :=
  fold_max_real_of _ _ (fun j _ => EReal.coe_ne_top _) ⟨⟨0, hn⟩, Finset.mem_univ _, EReal.coe_ne_bot _⟩

/-- (L4) Two partial log-sum-exps merge by  max a b + log (1 + exp (-|a - b|)). -/
theorem logaddexp_merge (A B : ℝ) (hA : 0 < A) (hB : 0 < B) :
    max ((Real.log A : ℝ) : EReal) ((Real.log B : ℝ) : EReal)
      + Ideal.log1p (Ideal.exp (-(max (((Real.log A : ℝ) : EReal) - ((Real.log B : ℝ) : EReal))
          (-(((Real.log A : ℝ) : EReal) - ((Real.log B : ℝ) : EReal))))))
      = ((Real.log (A + B) : ℝ) : EReal) := by
  set a := Real.log A with ha
  set b := Real.log B with hb
  have hpos : 0 < 1 + Real.exp (-(max (a - b) (-(a - b)))) := by positivity
  rw [← EReal.coe_sub, ← EReal.coe_neg, ← coe_max a b, ← coe_max (a - b), ← EReal.coe_neg, Ideal.exp_coe,
    Ideal.log1p, ← EReal.coe_one, ← EReal.coe_add, log_coe_pos _ hpos, ← EReal.coe_add]
  congr 1
  have hAe : Real.exp a = A := Real.exp_log hA
  have hBe : Real.exp b = B := Real.exp_log hB
  rcases le_total b a with hab | hab
  · have h1 : max (a - b) (-(a - b)) = a - b := max_eq_left (by linarith)
    have h2 : 1 + Real.exp (-(a - b)) = (A + B) / A := by
      rw [neg_sub, Real.exp_sub, hAe, hBe]; field_simp
    rw [max_eq_left hab, h1, h2, Real.log_div (by positivity) hA.ne']
    ring
  · have h1 : max (a - b) (-(a - b)) = -(a - b) := max_eq_right (by linarith)
    have h2 : 1 + Real.exp (-(-(a - b))) = (A + B) / B := by
      rw [neg_neg, Real.exp_sub, hAe, hBe]; field_simp; ring
    rw [max_eq_right hab, h1, h2, Real.log_div (by positivity) hB.ne']
    ring

/-- (L3) The online soft-max invariant: no column seen yet and (m, l) = (⊥, 0), or m is a real and l is the sum
    over the seen columns of exp (o c - m). -/
def Inv {ι : Type*} [DecidableEq ι] (o : ι → ℝ) (S : Finset ι) (m l : EReal) : Prop :=
  (S = ∅ ∧ m = ⊥ ∧ l = 0) ∨
    (S.Nonempty ∧ ∃ mr : ℝ, m = (mr : EReal) ∧ l = ((∑ c ∈ S, Real.exp (o c - mr) : ℝ) : EReal))

theorem inv_init {ι : Type*} [DecidableEq ι] (o : ι → ℝ) : Inv o ∅ ⊥ 0 :=
  Or.inl ⟨rfl, rfl, rfl⟩

/-- The tile's contribution: masked lanes give exp ⊥ = 0, valid lanes give exp (o (col j) - M); the valid lanes'
    columns being distinct, the sum over lanes is the sum over the tile's columns. -/
theorem tile_sum {ι : Type*} [DecidableEq ι] (o : ι → ℝ) {K : ℕ} (valid : Fin K → Prop) [DecidablePred valid]
    (col : Fin K → ι) (hinj : ∀ j j', valid j → valid j' → col j = col j' → j = j')
    (e : Fin K → EReal) (he : ∀ j, e j = if valid j then ((o (col j) : ℝ) : EReal) else ⊥) (M : ℝ) :
    (∑ j : Fin K, Ideal.exp (e j - (M : EReal)))
      = ((∑ c ∈ (Finset.univ.filter valid).image col, Real.exp (o c - M) : ℝ) : EReal) := by
  have h1 : ∀ j : Fin K, Ideal.exp (e j - (M : EReal))
      = if valid j then ((Real.exp (o (col j) - M) : ℝ) : EReal) else 0 := by
    intro j
    rw [he j]
    by_cases hv : valid j
    · rw [if_pos hv, if_pos hv, ← EReal.coe_sub, Ideal.exp_coe]
    · rw [if_neg hv, if_neg hv, EReal.bot_sub, Ideal.exp_bot]
  rw [Finset.sum_congr rfl (fun j _ => h1 j), ← Finset.sum_filter, ← coe_sum, Finset.sum_image]
  intro j hj j' hj' hc
  exact hinj j j' (Finset.mem_filter.mp hj).2 (Finset.mem_filter.mp hj').2 hc

theorem inv_step {ι : Type*} [DecidableEq ι] (o : ι → ℝ) (S : Finset ι) (m l : EReal) (h : Inv o S m l)
    {K : ℕ} (valid : Fin K → Prop) [DecidablePred valid] (col : Fin K → ι)
    (hinj : ∀ j j', valid j → valid j' → col j = col j' → j = j') (hnew : ∀ j, valid j → col j ∉ S)
    (hne : ∃ j, valid j)
    (e : Fin K → EReal) (he : ∀ j, e j = if valid j then ((o (col j) : ℝ) : EReal) else ⊥) :
    Inv o (S ∪ (Finset.univ.filter valid).image col)
      (max m ((Finset.univ : Finset (Fin K)).fold max (⊥ : EReal) e))
      (Ideal.exp (m - max m ((Finset.univ : Finset (Fin K)).fold max (⊥ : EReal) e)) * l
        + ∑ j : Fin K, Ideal.exp (e j - max m ((Finset.univ : Finset (Fin K)).fold max (⊥ : EReal) e))) := by
  obtain ⟨j0, hj0⟩ := hne
  -- the tile's maximum is a real
  obtain ⟨Mx, hMx⟩ : ∃ Mx : ℝ, (Finset.univ : Finset (Fin K)).fold max (⊥ : EReal) e = (Mx : EReal) := by
    refine fold_max_real_of _ _ (fun j _ => ?_) ⟨j0, Finset.mem_univ _, ?_⟩
    · rw [he j]; split_ifs
      · exact EReal.coe_ne_top _
      · exact bot_ne_top
    · rw [he j0, if_pos hj0]; exact EReal.coe_ne_bot _
  rw [hMx]
  have hTne : ((Finset.univ.filter valid).image col).Nonempty :=
    ⟨col j0, Finset.mem_image.mpr ⟨j0, Finset.mem_filter.mpr ⟨Finset.mem_univ _, hj0⟩, rfl⟩⟩
  have hdisj : Disjoint S ((Finset.univ.filter valid).image col) := by
    rw [Finset.disjoint_right]
    intro c hc
    obtain ⟨j, hj, rfl⟩ := Finset.mem_image.mp hc
    exact hnew j (Finset.mem_filter.mp hj).2
  rcases h with ⟨hS, hm, hl⟩ | ⟨hS, mr, hm, hl⟩
  · -- nothing seen before: the new maximum is the tile's, the old sum contributes 0
    refine Or.inr ⟨hTne.mono Finset.subset_union_right, Mx, ?_, ?_⟩
    · rw [hm, max_eq_right bot_le]
    · rw [hm, hl, max_eq_right bot_le, mul_zero, zero_add, tile_sum o valid col hinj e he Mx, hS,
        Finset.empty_union]
  · -- some columns seen: rescale the old sum to the new maximum and add the tile's
    refine Or.inr ⟨hS.mono Finset.subset_union_left, max mr Mx, ?_, ?_⟩
    · rw [hm, coe_max]
    · rw [hm, hl, ← coe_max, tile_sum o valid col hinj e he (max mr Mx), ← EReal.coe_sub, Ideal.exp_coe,
        ← EReal.coe_mul, ← EReal.coe_add, Finset.sum_union hdisj]
      congr 2
      rw [Finset.mul_sum]
      refine Finset.sum_congr rfl (fun c _ => ?_)
      rw [← Real.exp_add]
      congr 1
      ring

/-- At the end m + log l is the log-sum-exp of the seen columns. -/
theorem inv_lse {ι : Type*} [DecidableEq ι] (o : ι → ℝ) (S : Finset ι) (hS : S.Nonempty) (m l : EReal)
    (h : Inv o S m l) :
    m + Ideal.log l = ((Real.log (∑ c ∈ S, Real.exp (o c)) : ℝ) : EReal) := by
  rcases h with ⟨hE, _, _⟩ | ⟨_, mr, hm, hl⟩
  · exact absurd hE hS.ne_empty
  · rw [hm, hl, log_coe_pos _ (sum_exp_pos S hS _), log_sum_exp_shift S hS, ← EReal.coe_add]
    congr 1
    ring

end Cert.Arc.Laws

end
-- ==== Proof.LibGatherRows.lean ====
import Idealize.ShloMosaic.PureOps.ShapeOps
import Idealize.ShloMosaic.Lib.ValueIdx

/-! A row-wise take: a gather whose operand [R, C] and start indices [R, P, 1] share their first axis as a batching axis,
    and whose one-component start index names the operand's column. Result element (r, p) is the operand's row r at
    the column idx[r, p, 0], read signed and clamped into [0, C - 1]. -/

namespace Cert.GatherRows

open Idealize.ShloMosaic Idealize.ShloMosaic.ValueIdx

variable {α : Type} {R C P w : Nat}

/-- THE ROW-WISE TAKE READ AT (r, p): the operand's row r at the column idx[r, p, 0], read signed and clamped into
    [0, C - 1]. The row axis is a batching axis (start 0, batching coordinate the result's row, no offset); the column
    axis is collapsed (the clamped start index, no batching coordinate, no offset). -/
theorem gather_rows_apply (hC : 0 < C) (d : GatherDims ⟨2, ![R, C]⟩ ⟨3, ![R, P, 1]⟩ ⟨2, ![R, P]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![R, C]⟩ : Shape).Idx → α) (idx : IVec ⟨3, ![R, P, 1]⟩ w) (r : Fin R) (p : Fin P) :
    Host.gather d x idx (ix2 r p)
      = x (ix2 r ⟨min (idx (ix3 r p (0 : Fin 1))).toInt.toNat (C - 1), by omega⟩) := by
  obtain ⟨od, cs, ob, sb, sim, iv, ss, wf⟩ := d
  simp only at h1 h2 h3 h4 h5 h6 h7
  subst h1 h2 h3 h4 h5 h6 h7
  unfold Host.gather
  congr 1
  funext a
  refine Fin.ext ?_
  have m00 : (0 : Fin 2) ∈ ([0] : List (Fin 2)) := List.mem_singleton.mpr rfl
  have m11 : (1 : Fin 2) ∈ ([1] : List (Fin 2)) := List.mem_singleton.mpr rfl
  have n10 : (1 : Fin 2) ∉ ([0] : List (Fin 2)) := by decide
  match a with
  | ⟨0, _⟩ =>
    show GatherDims.start _ (ix2 r p) idx 0 + GatherDims.batchCoord _ (ix2 r p) 0 + GatherDims.offCoord _ (ix2 r p) 0 = r.val
    rw [GatherDims.start_batching _ _ _ _ m00,
      GatherDims.offCoord_eq_zero _ _ _ (fun h => ((GatherDims.mem_sKept _ _).mp h).2 m00)]
    unfold GatherDims.batchCoord
    rw [dif_pos m00]
    simp only [Nat.zero_add, Nat.add_zero]
    rfl
  | ⟨1, _⟩ =>
    show GatherDims.start _ (ix2 r p) idx 1 + GatherDims.batchCoord _ (ix2 r p) 1 + GatherDims.offCoord _ (ix2 r p) 1 = _
    rw [GatherDims.batchCoord_eq_zero _ _ _ n10,
      GatherDims.offCoord_eq_zero _ _ _ (fun h => ((GatherDims.mem_sKept _ _).mp h).1 m11)]
    simp only [Nat.add_zero]
    unfold GatherDims.start
    rw [dif_pos m11]
    have hsi : ∀ c, GatherDims.siIdx (s := ⟨2, ![R, C]⟩) (si := ⟨3, ![R, P, 1]⟩) (t := ⟨2, ![R, P]⟩)
        ⟨[], [1], [0], [0], [1], 2, ![1, 1], wf⟩ (ix2 r p) c = ix3 r p (0 : Fin 1) := by
      intro c
      funext b; refine Fin.ext ?_
      match b with
      | ⟨0, _⟩ => rfl
      | ⟨1, _⟩ => rfl
      | ⟨2, _⟩ => have := c.isLt; simp only [List.length_singleton] at this; show c.val = 0; omega
    rw [hsi]
    rfl

/-- The row-wise take read at (r, p) when the start index idx[r, p, 0], read signed, is a column's number: the
    operand's entry at row r and that column. -/
theorem gather_rows_apply_of_lt (d : GatherDims ⟨2, ![R, C]⟩ ⟨3, ![R, P, 1]⟩ ⟨2, ![R, P]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![R, C]⟩ : Shape).Idx → α) (idx : IVec ⟨3, ![R, P, 1]⟩ w) (r : Fin R) (p : Fin P)
    (h0 : 0 ≤ (idx (ix3 r p (0 : Fin 1))).toInt) (hlt : (idx (ix3 r p (0 : Fin 1))).toInt < (C : Int)) :
    Host.gather d x idx (ix2 r p) = x (ix2 r ⟨(idx (ix3 r p (0 : Fin 1))).toInt.toNat, by omega⟩) := by
  have hC : 0 < C := by omega
  rw [gather_rows_apply hC d h1 h2 h3 h4 h5 h6 h7 x idx r p]
  congr 2
  apply Fin.ext
  show min (idx (ix3 r p (0 : Fin 1))).toInt.toNat (C - 1) = (idx (ix3 r p (0 : Fin 1))).toInt.toNat
  omega

end Cert.GatherRows
-- ==== Proof.LibMaskAll.lean ====
/- Masks that are true everywhere.  A `jnp.take` in fill mode selects, entry by entry, between the gathered value and a
   fill, by a mask that says the index was in range; when every index is in range the mask is 1 everywhere and the
   selection is the gathered array.  The facts below are the generic half of that: a reduction by `and` of an array
   of ones is one, a selection by an all-ones (all-zeros) mask is its first (second) branch, and what the three signed
   comparisons answer for a 32-bit word known to lie in `[0, N)`. -/
import Idealize.ShloMosaic.Lib.ReduceAll
import Idealize.ShloMosaic.PureOps.Reduce

namespace Idealize.ShloMosaic

namespace IntOp

/-- A left fold by `and` from 1 over words that are all 1 is 1. -/
theorem foldl_andi_of_all_one {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all_one f l fun n hn => h n (List.mem_cons_of_mem _ hn)

/-- A comparison word is 0 or 1. -/
theorem cmpi_eq_zero_of_ne_one {w : Nat} (p : CmpIPredicate) (x y : BitVec w) (h : cmpi p x y ≠ 1#1) : cmpi p x y = 0#1 := by
  generalize cmpi p x y = c at h
  revert c; decide

end IntOp

namespace Host

variable {s t u : Shape} {axes : List (Fin s.rank)}

/-- A `stablehlo.reduce` by `and`, from an initial value of ones, of an array of ones is one at every result index. -/
theorem reduce_andi_of_all_one (x : s.Idx → BitVec 1) (init : u.Idx → BitVec 1) (h : s.ReducesTo axes t) (hu : 0 < u.numel)
    (j : t.Idx) (hinit : ∀ k, init k = 1#1) (hx : ∀ i, x i = 1#1) : Host.reduce IntOp.andi x init h hu j = 1#1 := by
  rw [Host.reduce_eq_foldl, hinit]
  exact IntOp.foldl_andi_of_all_one x _ fun n _ => hx n

end Host

/-- A selection by a mask that is 1 everywhere is its first branch. -/
theorem select_of_all_one {s : Shape} {α : Type} (c : IVec s 1) (a b : s.Idx → α) (hc : ∀ i, c i = 1#1) : select c a b = a := by
  funext i
  show Scalar.select (c i) (a i) (b i) = a i
  rw [hc i]; rfl

/-- A selection by a mask that is 1 nowhere is its second branch. -/
theorem select_of_all_not_one {s : Shape} {α : Type} (c : IVec s 1) (a b : s.Idx → α) (hc : ∀ i, c i ≠ 1#1) : select c a b = b := by
  funext i
  show Scalar.select (c i) (a i) (b i) = b i
  unfold Scalar.select
  exact if_neg (hc i)

end Idealize.ShloMosaic
-- ==== Proof.RefLoss.lean ====
/-
  The reference program's second result is the specification's mean cross-entropy, under the precondition (every
  float input a real, every label a class).

  Per row r: the label is in range, so take_along_axis's wrap leaves the label unchanged, its in-range mask is one
  and its gather reads the log-soft-max at the label's column; every scaled logit is a real, so the row maximum is a
  real shift M, and the negated log-soft-max at the label, shifted by any real M, is the log-sum-exp of the row
  minus the logit at the label. The mean is the sum over the rows divided by 512.
-/
import proofs.«409471_j56487409877363_2_alg».proof.Proof.RefOut
import proofs.«409471_j56487409877363_2_alg».proof.Proof.RefReal
import proofs.«409471_j56487409877363_2_alg».proof.Proof.SoftmaxLaws
import proofs.«409471_j56487409877363_2_alg».proof.Proof.LibGatherRows
import proofs.«409471_j56487409877363_2_alg».proof.Proof.LibMaskAll

noncomputable section

namespace Cert.Arc.Ref

open Cert.ReferenceIdeal Cert.ReferenceIdeal.Gen Cert.ReferenceIdeal.ReadP Idealize.ShloMosaic Idealize.ShloMosaic.ValueIdx
open scoped BigOperators

/-! ### The label words -/

/-- A word below 50000 reads the same signed and unsigned. -/
theorem toInt_of_lt {l : BitVec 32} (h : l.toNat < 50000) : l.toInt = (l.toNat : Int) :=
  BitVec.toInt_eq_toNat_of_lt (by omega)

/-- A class label is not negative … -/
theorem slt_zero {l : BitVec 32} (h : l.toNat < 50000) : IntOp.cmpi .slt l 0#32 = 0#1 := by
  show BitVec.ofBool (l.slt 0#32) = 0#1
  have e : l.slt 0#32 = false := by
    rw [BitVec.slt_eq_decide, toInt_of_lt h, show (0#32 : BitVec 32).toInt = 0 by decide]
    exact decide_eq_false (by omega)
  rw [e]; rfl

/-- … it is at least zero … -/
theorem sge_zero {l : BitVec 32} (h : l.toNat < 50000) : IntOp.cmpi .sge l 0#32 = 1#1 := by
  show BitVec.ofBool ((0#32 : BitVec 32).sle l) = 1#1
  have e : (0#32 : BitVec 32).sle l = true := by
    rw [BitVec.sle_eq_decide, toInt_of_lt h, show (0#32 : BitVec 32).toInt = 0 by decide]
    exact decide_eq_true (by omega)
  rw [e]; rfl

/-- … and at most 49999. -/
theorem sle_last {l : BitVec 32} (h : l.toNat < 50000) : IntOp.cmpi .sle l 49999#32 = 1#1 := by
  show BitVec.ofBool (l.sle 49999#32) = 1#1
  have e : l.sle 49999#32 = true := by
    rw [BitVec.sle_eq_decide, toInt_of_lt h, show (49999#32 : BitVec 32).toInt = 49999 by decide]
    exact decide_eq_true (by omega)
  rw [e]; rfl

/-- take_along_axis's wrapped index is the label itself, at every index. -/
theorem idx_word (lab : IVec S512 32) (hl : LabelsInRange lab) (i : S512x1x1.Idx) :
    val_main_call4_v5 (F := Ideal) lab i = lab (idx_main_v41 (idx_main_call4_v5 i)) := by
  rw [val_main_call4_v5_apply, val_main_call4_v4_apply, val_main_call4_v1_apply, val_main_v41_apply,
    val_main_call4_v0_apply, val_main_call4_c_apply, slt_zero (hl _)]
  rfl

/-- Its in-range mask is one everywhere. -/
theorem mask_one (lab : IVec S512 32) (hl : LabelsInRange lab) (j : S512x1.Idx) :
    val_main_call4_v12 (F := Ideal) lab j = 1#1 := by
  unfold val_main_call4_v12
  refine Host.reduce_andi_of_all_one _ _ _ _ j (fun k => rfl) (fun i => ?_)
  rw [val_main_call4_v11_apply, val_main_call4_v7_apply, val_main_call4_v10_apply, idx_word lab hl,
    val_main_call4_v6_apply, val_main_call4_c_2_apply, val_main_call4_v9_apply, val_main_call4_v8_apply,
    val_main_call4_c_1_apply, sge_zero (hl _), sle_last (hl _)]
  rfl

/-- Its gather reads row r of the log-soft-max at the label's column. -/
theorem gather_eq (x : FVec Ideal S512x512 .f32) (lab : IVec S512 32) (w : FVec Ideal S50000x512 .f32)
    (hl : LabelsInRange lab) (r : Fin 512) :
    val_main_call4_v13 (F := Ideal) x lab w (ix2 r (0 : Fin 1))
      = val_main_v40 (F := Ideal) x lab w (ix2 r (labCol lab r)) := by
  have hw : val_main_call4_v5 (F := Ideal) lab (ix3 r (0 : Fin 1) (0 : Fin 1)) = lab (ix1 r) := by
    rw [idx_word lab hl]
    congr 1
    funext a
    match a with
    | ⟨0, _⟩ => exact Fin.ext (by simp)
  have h50 := hl (ix1 r)
  unfold val_main_call4_v13
  rw [Cert.GatherRows.gather_rows_apply_of_lt gather_S512x50000_S512x1x1_S512x1_n_1_0_0_1_2_11 rfl rfl rfl rfl rfl rfl rfl
    _ _ r (0 : Fin 1) (by rw [hw, toInt_of_lt h50]; omega) (by rw [hw, toInt_of_lt h50]; omega)]
  congr 2
  unfold labCol
  rw [dif_pos h50]
  refine Fin.ext ?_
  show (val_main_call4_v5 (F := Ideal) lab (ix3 r (0 : Fin 1) (0 : Fin 1))).toInt.toNat = (lab (ix1 r)).toNat
  rw [hw, toInt_of_lt h50]
  rfl

/-! ### The rows -/

/-- The reduced index of row r with column c inserted is (r, c). -/
theorem lift_eq (h : S512x50000.Reduces [1] S512) (r : Fin 512) (c : Fin (S512x50000.size 1)) :
    h.lift (ix1 r) c = ix2 r (c : Fin 50000) := by
  funext a
  refine Fin.ext ?_
  match a with
  | ⟨0, _⟩ => rfl
  | ⟨1, _⟩ => rfl

/-- The word of minus infinity is the bottom element. -/
theorem ofBits_neg_inf : Ideal.ofBits .f32 0xFF800000#32 = (⊥ : EReal) := by simp [Ideal.ofBits, Ideal.ieee]

/-- log_softmax's shift, the row maximum, is a real. -/
theorem rowmax_isR (x : FVec Ideal S512x512 .f32) (lab : IVec S512 32) (w : FVec Ideal S50000x512 .f32)
    (hx : FiniteArr x) (hw : FiniteArr w) (r : Fin 512) :
    IsR (val_main_call3_v2 (F := Ideal) x lab w (ix1 r)) := by
  have h : S512x50000.Reduces [1] S512 := by decide
  choose o ho using fun c => outv_isR x lab w hx hw r c
  obtain ⟨M, hM⟩ := Laws.fold_max_real (n := 50000) (by norm_num) o
  have e : val_main_call3_v0 (F := Ideal) x lab w (ix1 r) = (M : EReal) := by
    unfold val_main_call3_v0
    rw [Host.reduce_eq_fold_single FloatOps.maximumf _ _ reducesTo_S512x50000_S512_d1 h h_S_ (ix1 r), ← hM]
    have e1 : (val_main_v39 (F := Ideal) x lab w ∘ h.lift (ix1 r)) = fun c => ((o c : ℝ) : EReal) := by
      funext c
      exact (congrArg (val_main_v39 (F := Ideal) x lab w) (lift_eq h r c)).trans ((v39_eq x lab w r c).trans (ho c))
    rw [e1, val_main_call3_cst_apply, Ideal.ofBits_def, ofBits_neg_inf]
    rfl
  rw [val_main_call3_v2_apply, e, val_main_call3_v1_apply, val_main_call3_cst_0_apply, Ideal.ofBits_def, ofBits_neg_inf,
    Ideal.maximumf_def, max_eq_right bot_le]
  exact ⟨M, rfl⟩

/-- Row r of log_softmax: the logit minus a real shift minus the log of the shifted exponentials' sum. -/
theorem v40_eq (x : FVec Ideal S512x512 .f32) (lab : IVec S512 32) (w : FVec Ideal S50000x512 .f32)
    (hx : FiniteArr x) (hw : FiniteArr w) (r : Fin 512) (o : Fin 50000 → ℝ)
    (ho : ∀ c, outv x lab w r c = ((o c : ℝ) : EReal)) :
    ∃ M : ℝ, ∀ c : Fin 50000, val_main_v40 (F := Ideal) x lab w (ix2 r c)
      = (((o c : ℝ) : EReal) - (M : EReal))
          - Ideal.log (∑ k : Fin 50000, Ideal.exp (((o k : ℝ) : EReal) - (M : EReal))) := by
  obtain ⟨M, hM⟩ := rowmax_isR x lab w hx hw r
  refine ⟨M, fun c => ?_⟩
  have e4 : ∀ k : Fin 50000, val_main_call3_v4 (F := Ideal) x lab w (ix2 r k) = (M : EReal) := fun k => by
    have ei : idx_main_call3_v3 (idx_main_call3_v4 (ix2 r k)) = ix1 r :=
      funext fun a => by match a with | ⟨0, _⟩ => rfl
    rw [val_main_call3_v4_apply, val_main_call3_v3_apply, ei, hM]
  have e5 : ∀ k : Fin 50000, val_main_call3_v5 (F := Ideal) x lab w (ix2 r k)
      = ((o k : ℝ) : EReal) - (M : EReal) := fun k => by
    rw [val_main_call3_v5_apply, e4, v39_eq, ho]; rfl
  have e7 : ∀ k : Fin 50000, idx_main_call3_v7 (idx_main_call3_v8 (idx_main_call3_v10 (ix2 r c))) k = ix2 r k :=
    fun k => funext fun a => Fin.ext (by match a with | ⟨0, _⟩ => rfl | ⟨1, _⟩ => rfl)
  rw [val_main_v40_apply, e5, val_main_call3_v10_apply, val_main_call3_v9_apply, val_main_call3_v8_apply,
    val_main_call3_v7_apply, val_main_call3_cst_1_apply]
  simp only [e7, val_main_call3_v6_apply, e5]
  simp only [Ideal.ofBits_def, Ideal.ofBits_zero_f32, zero_add, Ideal.subf_def, Ideal.hostUnary_log_def,
    Ideal.hostUnary_exp_def]

/-- Row r's term of the reference's sum is the specification's cross-entropy of the row. -/
theorem row_eq (x : FVec Ideal S512x512 .f32) (lab : IVec S512 32) (w : FVec Ideal S50000x512 .f32)
    (hx : FiniteArr x) (hl : LabelsInRange lab) (hw : FiniteArr w) (r : Fin 512) :
    val_main_v44 (F := Ideal) x lab w (ix1 r) = lossRow x lab w r := by
  choose o ho using fun c => outv_isR x lab w hx hw r c
  obtain ⟨M, hM⟩ := v40_eq x lab w hx hw r o ho
  have e43 : idx_main_v43 (ix1 r) = ix2 r (0 : Fin 1) :=
    funext fun a => Fin.ext (by match a with | ⟨0, _⟩ => exact Nat.div_one _ | ⟨1, _⟩ => rfl)
  rw [val_main_v44_apply, val_main_v43_apply, e43, val_main_v42_apply, mask_one lab hl, select_one,
    gather_eq x lab w hl, hM, Ideal.hostNegf_def, Ideal.negf_def,
    Laws.neg_logsoftmax_at (by norm_num) o (labCol lab r) M]
  unfold lossRow
  simp only [ho]

/-- A rank-1 index set is its coordinate's range. -/
def idxEquiv1 {n : Nat} : (⟨1, ![n]⟩ : Shape).Idx ≃ Fin n where
  toFun i := i 0
  invFun := ix1
  left_inv i := (eq_ix1 i).symm
  right_inv _ := rfl

/-- THE SECOND RESULT: the reference's loss is the specification's mean cross-entropy. -/
theorem loss_eq [Cert.ReferenceIdeal.Facts] (x : FVec Ideal S512x512 .f32) (lab : IVec S512 32) (w : FVec Ideal S50000x512 .f32)
    (hx : FiniteArr x) (hl : LabelsInRange lab) (hw : FiniteArr w) :
    val_main_v46 (F := Ideal) x lab w = fun _ => lossSpec x lab w := by
  funext i
  rw [val_main_v46_apply, val_main_v45_apply, val_main_cst_12_apply, val_main_cst_13_apply, Ideal.hostDivf_def,
    Ideal.ofBits_def, Ideal.ofBits_def, Ideal.ofBits_zero_f32, zero_add]
  unfold lossSpec c512
  refine congrArg (fun s => Ideal.div s (Ideal.ofBits .f32 0x44000000#32)) ?_
  refine Fintype.sum_equiv idxEquiv1 _ _ fun j => ?_
  conv_lhs => rw [eq_ix1 j]
  exact row_eq x lab w hx hl hw (j 0)

end Cert.Arc.Ref

end
-- ==== Proof.RefValue.lean ====
/-
  The reference program computes the specification: its first result is the specification's scaled logits
  (`Cert.Arc.Ref.out_eq`, no hypothesis) and, when every float input is a real and every label a class, its second
  result is the specification's mean cross-entropy (`Cert.Arc.Ref.loss_eq`). The two proofs live in the two modules
  imported here.
-/
import proofs.«409471_j56487409877363_2_alg».proof.Proof.RefOut
import proofs.«409471_j56487409877363_2_alg».proof.Proof.RefLoss
-- ==== Proof.PreFacts.lean ====
/-
  The printed precondition, read back. The precondition is the conjunction

      all (|logits| < +inf)  and  all (|weight| < +inf)  and  all (0 <= labels and labels < 50000)

  printed as a chain of element-wise comparisons, reductions by "and" over all axes and binary "and"s, and the claim's
  hypothesis says the chain's one result word is 1. Over the extended reals |a| = max a (-a) and +inf = top, so
  |a| < +inf says a is neither top nor bottom: a is a real number. A 32-bit word that is signed-nonnegative and
  signed-below 50000 is, as a natural number, below 50000. Hence: every logit and every weight entry is a real number,
  and every label names a class.
-/
import proofs.«409471_j56487409877363_2_alg».proof.Pre_finite_inputs
import proofs.«409471_j56487409877363_2_alg».proof.Proof.Gen.Pre_finite_inputs
import proofs.«409471_j56487409877363_2_alg».proof.Proof.Spec
import Idealize.ShloMosaic.Lib.ReduceAll
import Idealize.ShloMosaic.Lib.WordArith
import Idealize.ShloMosaic.PureOps.Ideal.Laws

noncomputable section

namespace Cert.Arc

open Idealize.ShloMosaic Idealize.ShloMosaic.ValueIdx

/-- The scalar result shape has one index. -/
instance subsingleton_S_Idx : Subsingleton Cert.Pre_finite_inputs.S_.Idx := ⟨fun a b => funext fun d => d.elim0⟩

/-- The f32 word 0x7F800000 denotes +infinity. -/
theorem ofBits_inf : Ideal.ofBits .f32 0x7F800000#32 = (⊤ : EReal) := by simp [Ideal.ofBits, Ideal.ieee]

/-- An extended real whose absolute value max a (-a) is strictly below +infinity is a real number. -/
theorem real_of_abs_lt_inf (a : Ideal .f32)
    (h : FloatOps.cmpf .olt (FloatOps.hostAbsf a) (FloatOps.ofBits (F := Ideal) .f32 0x7F800000#32) = 1#1) :
    ∃ r : ℝ, a = (r : EReal) := by
  have h' : Ideal.cmp .olt (max (a : EReal) (-(a : EReal))) (Ideal.ofBits .f32 0x7F800000#32) = 1#1 := h
  rw [ofBits_inf] at h'
  induction a using EReal.rec with
  | bot => exact absurd h' (by simp [Ideal.cmp])
  | coe r => exact ⟨r, rfl⟩
  | top => exact absurd h' (by simp [Ideal.cmp])

/-- A 32-bit word at least 0 and below 50000 as signed integers is below 50000 as a natural number. -/
theorem toNat_lt_of_signed_range (v : BitVec 32) (h0 : IntOp.cmpi .sge v 0#32 = 1#1)
    (h1 : IntOp.cmpi .slt v 50000#32 = 1#1) : v.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  have hc := BitVec.toInt_eq_toNat_cond v
  have hl := v.isLt
  split at hc <;> omega

/-- The precondition decoded: the logits and the weights are arrays of real numbers and every label is a class. -/
theorem pre_facts [Cert.Pre_finite_inputs.Facts]
    (x : FVec Ideal Cert.Pre_finite_inputs.S512x512 .f32) (lab : IVec Cert.Pre_finite_inputs.S512 32)
    (w : FVec Ideal Cert.Pre_finite_inputs.S50000x512 .f32)
    (h : Cert.Pre_finite_inputs.fn (F := Ideal) x lab w = (fun _ => 1#1)) :
    Cert.Arc.FiniteArr x ∧ Cert.Arc.LabelsInRange lab ∧ Cert.Arc.FiniteArr w := by
  have e := congrFun h ix0
  dsimp only [Cert.Pre_finite_inputs.fn] at e
  obtain ⟨e12, e3⟩ := IntOp.andi_eq_one.1 e
  obtain ⟨e1, e2⟩ := IntOp.andi_eq_one.1 e12
  refine ⟨fun i => ?_, fun i => ?_, fun i => ?_⟩
  · exact real_of_abs_lt_inf (x i) (Host.reduce_andi_all _ _ _ _ _ e1 i)
  · have hi := Host.reduce_andi_all _ _ _ _ _ e3 i
    obtain ⟨ha, hb⟩ := IntOp.andi_eq_one.1 hi
    exact toNat_lt_of_signed_range (lab i) ha hb
  · exact real_of_abs_lt_inf (w i) (Host.reduce_andi_all _ _ _ _ _ e2 i)

end Cert.Arc

end
-- ==== Proof.KState.lean ====
/-
  One grid point of the kernel as a function. The kernel keeps four scratch arrays across the ten class tiles a core
  visits: the normalised logits, and per batch row the running maximum, the running sum of exponentials and the
  running true-label logit. At a core's first tile they are reset (maximum -inf, sums 0, the logits normalised); at
  every tile the cosine tile is formed, the margin applied at the label's column, the tile scaled and stored, and the
  three running quantities updated by the online soft-max recurrence; at a core's last tile the row-wise
  log-sum-exp  m + log l  and the true-label logit are stored to the two per-core results.
  Everything here is stated over the generated payload terms (the body's arithmetic, one pure term per store).
-/
import proofs.«409471_j56487409877363_2_alg».proof.Proof.Gen.KernelIdeal.Skeleton

noncomputable section

namespace Cert.KernelIdeal.Hand

open Cert.KernelIdeal Cert.KernelIdeal.Gen Idealize.ShloMosaic Idealize.SL.Sem

variable {F : FTy → Type} [FloatOps F] [Named F]

/-- The four scratch arrays: normalised logits, running maximum, running sum, running true-label logit. -/
structure Scr (F : FTy → Type) [FloatOps F] where
  xn : Vec F S512x512 .f32
  m : Vec F S512x1 .f32
  l : Vec F S512x1 .f32
  lv : Vec F S512x1 .f32

/-- A core's first tile: the tile coordinate is 0 (the body's first conditional, as the kernel computes it). -/
abbrev condFirst (i : grid0.Coords) : Prop :=
  (Scalar.cmpi .ne (Scalar.extui (Scalar.cmpi .eq (BitVec.ofNat 32 (i 1).val) 0#32)) 0#32) = 1#1
/-- A core's last tile: the tile coordinate is 9 (the body's second conditional). -/
abbrev condLast (i : grid0.Coords) : Prop := k0_cond2 i = 1#1

/-- The constant one the margin's clip uses. -/
abbrev oneF : F .f32 := Scalar.ofBits .f32 0x3F800000#32

/-- The scratch after the reset at a core's first tile: logits normalised, maximum -inf, sums zero. -/
def scrReset (x : Vec F S512x512 .f32) : Scr F := ⟨k0_pay8 x, k0_pay5, k0_pay6, k0_pay7⟩

/-- The scaled logits tile the point stores: cosine, margin at the label's column, times the scale. -/
def tileOut (i : grid0.Coords) (xn : Vec F S512x512 .f32) (lab : Vec F S512x1 .i32) (w : Vec F S2560x512 .f32) : FVec F S512x2560 .f32 :=
  k0_pay15 (k0_pay9 xn w) (k0_pay12 i lab) (k0_pay13 i xn w lab) oneF (k0_pay14 i xn w lab)

/-- The running maximum after the tile. -/
def mNew (i : grid0.Coords) (xn : Vec F S512x512 .f32) (lab : Vec F S512x1 .i32) (w : Vec F S2560x512 .f32) (m : Vec F S512x1 .f32) : FVec F S512x1 .f32 :=
  k0_pay17 (k0_pay9 xn w) (k0_pay11 i) (k0_pay12 i lab) (k0_pay13 i xn w lab) oneF (k0_pay14 i xn w lab) m

/-- The running sum of exponentials after the tile. -/
def lNew (i : grid0.Coords) (xn : Vec F S512x512 .f32) (lab : Vec F S512x1 .i32) (w : Vec F S2560x512 .f32) (m l : Vec F S512x1 .f32) : FVec F S512x1 .f32 :=
  k0_pay18 (k0_pay9 xn w) (k0_pay11 i) (k0_pay12 i lab) (k0_pay13 i xn w lab) oneF (k0_pay14 i xn w lab) m m l

/-- The running true-label logit after the tile. -/
def lvNew (i : grid0.Coords) (xn : Vec F S512x512 .f32) (lab : Vec F S512x1 .i32) (w : Vec F S2560x512 .f32) (lv : Vec F S512x1 .f32) : FVec F S512x1 .f32 :=
  k0_pay1 (k0_pay12 i lab) (tileOut i xn lab w) lv

/-- The scratch after the tile's arithmetic, from the scratch the arithmetic found (after the reset, at a first tile). -/
def scrNext (i : grid0.Coords) (lab : Vec F S512x1 .i32) (w : Vec F S2560x512 .f32) (s : Scr F) : Scr F :=
  ⟨s.xn, k0_pay2 (mNew i s.xn lab w s.m), lNew i s.xn lab w s.m s.l, lvNew i s.xn lab w s.lv⟩

/-- What a core's last tile stores to the two per-core results: the log-sum-exp  m + log l,  and the true-label logit. -/
def lseOut (s : Scr F) : FVec F S1x512x1 .f32 := k0_pay3 s.m s.l
def lvOut (s : Scr F) : FVec F S1x512x1 .f32 := k0_pay4 s.lv

end Cert.KernelIdeal.Hand

end
-- ==== Proof.KData.lean ====
/-
  The proof data of the kernel's one pipeline, at the extended reals.
  The grid's twenty points are numbered  t = 10 * core + tile.  The scratch after point t is defined by recursion on t:
  the point's transition (KState.lean) applied to the scratch the point's arithmetic finds — the reset scratch at a
  core's first tile, else what point t - 1 left. The weight block a point reads is its rows inside the array; the last
  tile's block overhangs the array by 1200 rows, which hold words nothing names, and the transition does not read
  them (KRead.lean, scrNext_congr): here they are filled with zero.
  After the body at point t the staging buffers hold: the three inputs' blocks; the scaled logits tile; and (at a
  core's last tile, where they are written back) the log-sum-exp and the true-label logit of the new scratch.
-/
import proofs.«409471_j56487409877363_2_alg».proof.Proof.KState
import proofs.«409471_j56487409877363_2_alg».proof.Proof.Gen.KernelIdeal.Frame
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The logits and the labels as a point finds them (each window's one block is its whole array). -/
abbrev xBlk (c : Dev nD) (t : Fin cfg0.N) : Vec Ideal S512x512 .f32 := iblk m c 0 t
abbrev labBlk (c : Dev nD) (t : Fin cfg0.N) : Vec Ideal S512x1 .i32 := iblk m c 1 t

/-- The zero filler for the rows of a weight block past the array's end. -/
abbrev zfill : Vec Ideal S2560x512 .f32 := fun _ => (0 : EReal)

/-- The weight block at point `t`: the array's rows on the block's part inside the array, `d` on the rest. -/
def wBlk (c : Dev nD) (t : Fin cfg0.N) (d : Vec Ideal S2560x512 .f32) : Vec Ideal S2560x512 .f32 :=
  win0_2.fill (grid0.coords t) d (iblk m c 2 t)

/-- The scratch after point `n`. -/
def scrAt (c : Dev nD) : (n : ℕ) → n < cfg0.N → Scr Ideal
  | 0, hn => scrNext (grid0.coords ⟨0, hn⟩) (labBlk m c ⟨0, hn⟩) (wBlk m c ⟨0, hn⟩ zfill) (scrReset (xBlk m c ⟨0, hn⟩))
  | n + 1, hn =>
    scrNext (grid0.coords ⟨n + 1, hn⟩) (labBlk m c ⟨n + 1, hn⟩) (wBlk m c ⟨n + 1, hn⟩ zfill)
      (if (n + 1) % 10 = 0 then scrReset (xBlk m c ⟨n + 1, hn⟩) else scrAt c n (Nat.lt_of_succ_lt hn))

/-- The scratch the arithmetic of point `t` finds: reset at a core's first tile, else what the point before left. -/
def scrIn (c : Dev nD) (t : Fin cfg0.N) : Scr Ideal :=
  if t.val % 10 = 0 then scrReset (xBlk m c t) else scrAt m c (t.val - 1) (Nat.lt_of_le_of_lt (Nat.sub_le _ _) t.isLt)

/-- One step of the recursion. -/
theorem scrAt_eq (c : Dev nD) (t : Fin cfg0.N) :
    scrAt m c t.val t.isLt = scrNext (grid0.coords t) (labBlk m c t) (wBlk m c t zfill) (scrIn m c t) := by
  obtain ⟨n, hn⟩ := t
  cases n with
  | zero => rfl
  | succ n =>
    unfold scrIn
    show scrAt m c (n + 1) hn = _
    rw [scrAt]
    by_cases h : (n + 1) % 10 = 0
    · rw [if_pos h, if_pos h]
    · rw [if_neg h, if_neg h]; rfl

/-- The four scratch operands as whole memrefs. -/
abbrev scXn : Memref sig .tc .vmem S512x512 .f32 := Memref.whole cc0_scratch0
abbrev scM : Memref sig .tc .vmem S512x1 .f32 := Memref.whole cc0_scratch1
abbrev scL : Memref sig .tc .vmem S512x1 .f32 := Memref.whole cc0_scratch2
abbrev scLv : Memref sig .tc .vmem S512x1 .f32 := Memref.whole cc0_scratch3

/-- The region invariant before position `n`: before the first point the scratch holds anything; afterwards each
    scratch buffer holds what the point before left; the generator register at some state throughout. -/
def PhiS (c : Dev nD) : (n : ℕ) → n ≤ cfg0.N → sProp 𝕄
  | 0, _ => Pipeline.ΦA spec0 c
  | n + 1, hn =>
    iprop(iprop(owns (c : Thread nD τ) scXn fullShare (scrAt m c n hn).xn ∗ owns (c : Thread nD τ) scM fullShare (scrAt m c n hn).m
        ∗ owns (c : Thread nD τ) scL fullShare (scrAt m c n hn).l ∗ owns (c : Thread nD τ) scLv fullShare (scrAt m c n hn).lv)
      ∗ (∃ r, prngReg c r))

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wBlk m c t zfill
    | ⟨3, _⟩ => tileOut (grid0.coords t) (scrIn m c t).xn (labBlk m c t) (wBlk m c t zfill)
    | ⟨4, _⟩ => lseOut (scrAt m c t.val t.isLt)
    | ⟨5, _⟩ => lvOut (scrAt m c t.val t.isLt)
    | ⟨_ + 6, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wBlk m c t zfill := by dsimp only [dats]
theorem after0_3 (c : Dev nD) (t : Fin cfg0.N) :
    (dats m 0 c).after 3 t = tileOut (grid0.coords t) (scrIn m c t).xn (labBlk m c t) (wBlk m c t zfill) := by dsimp only [dats]
theorem after0_4 (c : Dev nD) (t : Fin cfg0.N) : (dats m 0 c).after 4 t = lseOut (scrAt m c t.val t.isLt) := by dsimp only [dats]
theorem after0_5 (c : Dev nD) (t : Fin cfg0.N) : (dats m 0 c).after 5 t = lvOut (scrAt m c t.val t.isLt) := by dsimp only [dats]

end Cert.KernelIdeal.Hand

end
-- ==== Proof.KRuns.lean ====
/-
  The kernel body run once, in each of the three situations a grid point can be in: a core's first class tile (the
  scratch is reset before the tile's arithmetic), a middle tile, and a core's last tile (the two per-core results are
  stored after it). In each the body, started with every staging and scratch buffer it is passed held whole at known
  contents, runs to its end without fault and leaves: the three inputs as they were; the logits tile's buffer at the
  scaled tile; the four scratch buffers at the online soft-max update of what the arithmetic found; and the two
  per-core result buffers untouched, or, at a last tile, at the log-sum-exp and the true-label logit.
-/
import proofs.«409471_j56487409877363_2_alg».proof.Proof.KState
import proofs.«409471_j56487409877363_2_alg».proof.Proof.Gen.KernelIdeal.Launch
import proofs.«409471_j56487409877363_2_alg».proof.Proof.Gen.KernelIdeal.Points
import Idealize.ShloMosaic.Lib.Pipeline.FrameBody
import Idealize.ShloMosaic.Lib.Ring
import Idealize.ShloMosaic.Lib.WholeRead
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## Whole-buffer loads and stores

Every access of the body is through the rectangle that is all of its buffer. A load of a buffer held at the raw
contents that read `X` then reads `X`; and after a store, whatever was stored before it, the buffer reads the
payload, and so does a later load. -/

section Whole

variable {sig' : RefSig} {Val : EltTy → Type} {κ : Kind} {sp : Space} {S : Shape} {e : EltTy}

/-- A load of all of a whole buffer held at the raw contents that read `X` reads `X`. -/
private theorem readAt_all_unread {m : Memref sig' κ sp S e} (h : m.IsWhole) {off : Fin S.rank → ℕ} (hz : off = fun _ => 0)
    (inb : ∀ a, off a + S.size a ≤ S.size a) (X : S.Idx → Val e) :
    View.readAt Val m.view (Rect.unit off S.size inb).toLoadRect (h.unread X) = X := by
  funext y
  rw [h.readAt_unread]
  exact congrFun (View.ld_unit_zero hz inb X) y

/-- After a store of all of the buffer, whatever was stored before, the buffer reads the payload. -/
private theorem read_writes_all [∀ e, Nonempty (Val e)] (v : View sig' κ sp S e) (f : v.ty.Contents Val) {off : Fin S.rank → ℕ}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hz inb y⟩),
    View.canon_cons_unit_zero hz inb w L]

end Whole

/-- The offsets of every access: zero on both axes, and on all three of a per-core result. -/
private theorem zeros2 : (![0, 0] : Fin 2 → ℕ) = fun _ => 0 := funext fun a => by fin_cases a <;> rfl
private theorem zeros3 : (![0, 0, 0] : Fin 3 → ℕ) = fun _ => 0 := funext fun a => by fin_cases a <;> rfl

/-! ## The payloads at what the loads read

The body's stores are the generated payload terms at the values its loads return. Each load returns the contents the
buffer is held at (or the payload stored just before), so each store's payload is the transition of `KState` at those
contents. -/

section Payloads

variable {i : grid0.Coords} {a8 xn : Vec F S512x512 .f32} {a3 lab : Vec F S512x1 .i32} {a4 w : Vec F S2560x512 .f32}
  {a9 a9' m a10 l a11 lv : Vec F S512x1 .f32}

private theorem tileOut_at (h8 : a8 = xn) (h3 : a3 = lab) (h4 : a4 = w) :
    k0_pay15 (k0_pay9 a8 a4) (k0_pay12 i a3) (k0_pay13 i a8 a4 a3) oneF (k0_pay14 i a8 a4 a3) = tileOut i xn lab w := by
  subst h8 h3 h4; rfl

private theorem mNew_at (h8 : a8 = xn) (h3 : a3 = lab) (h4 : a4 = w) (h9 : a9 = m) :
    k0_pay2 (k0_pay17 (k0_pay9 a8 a4) (k0_pay11 i) (k0_pay12 i a3) (k0_pay13 i a8 a4 a3) oneF (k0_pay14 i a8 a4 a3) a9)
      = k0_pay2 (mNew i xn lab w m) := by
  subst h8 h3 h4 h9; rfl

private theorem lNew_at (h8 : a8 = xn) (h3 : a3 = lab) (h4 : a4 = w) (h9 : a9 = m) (h9' : a9' = m) (h10 : a10 = l) :
    k0_pay18 (k0_pay9 a8 a4) (k0_pay11 i) (k0_pay12 i a3) (k0_pay13 i a8 a4 a3) oneF (k0_pay14 i a8 a4 a3) a9 a9' a10
      = lNew i xn lab w m l := by
  subst h8 h3 h4 h9 h9' h10; rfl

private theorem lvNew_at (h8 : a8 = xn) (h3 : a3 = lab) (h4 : a4 = w) (h11 : a11 = lv) :
    k0_pay1 (k0_pay12 i a3) (k0_pay15 (k0_pay9 a8 a4) (k0_pay12 i a3) (k0_pay13 i a8 a4 a3) oneF (k0_pay14 i a8 a4 a3)) a11
      = lvNew i xn lab w lv := by
  subst h8 h3 h4 h11; rfl

private theorem lseOut_at {t : Scr F} {a b : Vec F S512x1 .f32} (ha : a = t.m) (hb : b = t.l) : k0_pay3 a b = lseOut t := by
  subst ha hb; rfl

private theorem lvOut_at {t : Scr F} {a : Vec F S512x1 .f32} (ha : a = t.lv) : k0_pay4 a = lvOut t := by
  subst ha; rfl

end Payloads

/-- A core's first tile: the reset, then the tile's arithmetic on the reset scratch; the per-core results untouched. -/
theorem runFirst (c : Dev nD) (i : grid0.Coords) (arg2 : Memref sig .tc .vmem S512x512 .f32) (harg2 : arg2.IsWhole) (arg3 : Memref sig .tc .vmem S512x1 .i32) (harg3 : arg3.IsWhole) (arg4 : Memref sig .tc .vmem S2560x512 .f32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : condFirst i) (hc1 : ¬condLast i)
    (x : Vec F S512x512 .f32) (lab : Vec F S512x1 .i32) (w : Vec F S2560x512 .f32)
    (o3 : Vec F S512x2560 .f32) (o4 o5 : Vec F S1x512x1 .f32) (s : Scr F) (E : Set ℕ) (K : PUnit → sProp 𝕄) :
    iprop(owns (c : Thread nD τ) arg2 fullShare x ∗ owns (c : Thread nD τ) arg3 fullShare lab ∗ owns (c : Thread nD τ) arg4 fullShare w
          ∗ owns (c : Thread nD τ) arg5 fullShare o3 ∗ owns (c : Thread nD τ) arg6 fullShare o4 ∗ owns (c : Thread nD τ) arg7 fullShare o5
          ∗ owns (c : Thread nD τ) arg8 fullShare s.xn ∗ owns (c : Thread nD τ) arg9 fullShare s.m ∗ owns (c : Thread nD τ) arg10 fullShare s.l ∗ owns (c : Thread nD τ) arg11 fullShare s.lv
          ∗ (iprop(owns (c : Thread nD τ) arg2 fullShare x ∗ owns (c : Thread nD τ) arg3 fullShare lab ∗ owns (c : Thread nD τ) arg4 fullShare w
              ∗ owns (c : Thread nD τ) arg5 fullShare (tileOut i (scrReset x).xn lab w) ∗ owns (c : Thread nD τ) arg6 fullShare o4 ∗ owns (c : Thread nD τ) arg7 fullShare o5
              ∗ owns (c : Thread nD τ) arg8 fullShare (scrNext i lab w (scrReset x)).xn ∗ owns (c : Thread nD τ) arg9 fullShare (scrNext i lab w (scrReset x)).m
              ∗ owns (c : Thread nD τ) arg10 fullShare (scrNext i lab w (scrReset x)).l ∗ owns (c : Thread nD τ) arg11 fullShare (scrNext i lab w (scrReset x)).lv) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
  -- the body is its sequence of memory operations over the payloads; each buffer's raw contents are those that read
  -- the contents it is held at
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  -- the run: the reset taken, the per-core stores skipped
  sl_exec (disch := first | exact hc0 | exact hc1)
  sl_step
  iapply Hk
  -- what the loads read: the inputs' contents, and of the scratch the reset just stored
  have hr2 : View.readAt (Elt F) arg2.view (Rect.unit (s := S512x512) ![0, 0] S512x512.size inb_S512x512_S512x512_0_0).toLoadRect (harg2.unread x) = x :=
    readAt_all_unread harg2 zeros2 _ _
  have hr3 : View.readAt (Elt F) arg3.view (Rect.unit (s := S512x1) ![0, 0] S512x1.size inb_S512x1_S512x1_0_0).toLoadRect (harg3.unread lab) = lab :=
    readAt_all_unread harg3 zeros2 _ _
  have hr4 : View.readAt (Elt F) arg4.view (Rect.unit (s := S2560x512) ![0, 0] S2560x512.size inb_S2560x512_S2560x512_0_0).toLoadRect (harg4.unread w) = w :=
    readAt_all_unread harg4 zeros2 _ _
  have hc8 : _ = (scrReset x).xn :=
    (View.readCov_unit_zero (Val := Elt F) (S := S512x512) arg8.view zeros2 inb_S512x512_S512x512_0_0 _).trans (congrArg k0_pay8 hr2)
  have hc9 : _ = (scrReset x).m := View.readCov_unit_zero (Val := Elt F) (S := S512x1) arg9.view zeros2 inb_S512x1_S512x1_0_0 (k0_pay5 (F := F))
  have hc10 : _ = (scrReset x).l := View.readCov_unit_zero (Val := Elt F) (S := S512x1) arg10.view zeros2 inb_S512x1_S512x1_0_0 (k0_pay6 (F := F))
  have hc11 : _ = (scrReset x).lv := View.readCov_unit_zero (Val := Elt F) (S := S512x1) arg11.view zeros2 inb_S512x1_S512x1_0_0 (k0_pay7 (F := F))
  -- each buffer handed back: an untouched one at what it held, a stored one at the last payload stored into it
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    on_goal 2 => iexact H5
    ipureintro
    exact (read_writes_all (S := S512x2560) _ _ zeros2 _ _ _).trans (tileOut_at hc8 hr3 hr4)
  isplitl [H6]
  · iexists _; isplitr; · ipureintro; exact harg6.read_unread _
    iexact H6
  isplitl [H7]
  · iexists _; isplitr; · ipureintro; exact harg7.read_unread _
    iexact H7
  isplitl [H8]
  · iexists _; isplitr
    on_goal 2 => iexact H8
    ipureintro
    exact (read_writes_all (S := S512x512) _ _ zeros2 _ _ _).trans (congrArg k0_pay8 hr2)
  isplitl [H9]
  · iexists _; isplitr
    on_goal 2 => iexact H9
    ipureintro
    exact (read_writes_all (S := S512x1) _ _ zeros2 _ _ _).trans (mNew_at hc8 hr3 hr4 hc9)
  isplitl [H10]
  · iexists _; isplitr
    on_goal 2 => iexact H10
    ipureintro
    exact (read_writes_all (S := S512x1) _ _ zeros2 _ _ _).trans (lNew_at hc8 hr3 hr4 hc9 hc9 hc10)
  iexists _; isplitr
  on_goal 2 => iexact H11
  ipureintro
  exact (read_writes_all (S := S512x1) _ _ zeros2 _ _ _).trans (lvNew_at hc8 hr3 hr4 hc11)

/-- A middle tile: the tile's arithmetic on the scratch as found; the per-core results untouched. -/
theorem runMiddle (c : Dev nD) (i : grid0.Coords) (arg2 : Memref sig .tc .vmem S512x512 .f32) (harg2 : arg2.IsWhole) (arg3 : Memref sig .tc .vmem S512x1 .i32) (harg3 : arg3.IsWhole) (arg4 : Memref sig .tc .vmem S2560x512 .f32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬condFirst i) (hc1 : ¬condLast i)
    (x : Vec F S512x512 .f32) (lab : Vec F S512x1 .i32) (w : Vec F S2560x512 .f32)
    (o3 : Vec F S512x2560 .f32) (o4 o5 : Vec F S1x512x1 .f32) (s : Scr F) (E : Set ℕ) (K : PUnit → sProp 𝕄) :
    iprop(owns (c : Thread nD τ) arg2 fullShare x ∗ owns (c : Thread nD τ) arg3 fullShare lab ∗ owns (c : Thread nD τ) arg4 fullShare w
          ∗ owns (c : Thread nD τ) arg5 fullShare o3 ∗ owns (c : Thread nD τ) arg6 fullShare o4 ∗ owns (c : Thread nD τ) arg7 fullShare o5
          ∗ owns (c : Thread nD τ) arg8 fullShare s.xn ∗ owns (c : Thread nD τ) arg9 fullShare s.m ∗ owns (c : Thread nD τ) arg10 fullShare s.l ∗ owns (c : Thread nD τ) arg11 fullShare s.lv
          ∗ (iprop(owns (c : Thread nD τ) arg2 fullShare x ∗ owns (c : Thread nD τ) arg3 fullShare lab ∗ owns (c : Thread nD τ) arg4 fullShare w
              ∗ owns (c : Thread nD τ) arg5 fullShare (tileOut i (s).xn lab w) ∗ owns (c : Thread nD τ) arg6 fullShare o4 ∗ owns (c : Thread nD τ) arg7 fullShare o5
              ∗ owns (c : Thread nD τ) arg8 fullShare (scrNext i lab w (s)).xn ∗ owns (c : Thread nD τ) arg9 fullShare (scrNext i lab w (s)).m
              ∗ owns (c : Thread nD τ) arg10 fullShare (scrNext i lab w (s)).l ∗ owns (c : Thread nD τ) arg11 fullShare (scrNext i lab w (s)).lv) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
  -- the body is its sequence of memory operations over the payloads; each buffer's raw contents are those that read
  -- the contents it is held at
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  -- the run: the reset skipped, the per-core stores skipped
  sl_exec (disch := first | exact hc0 | exact hc1)
  sl_step
  iapply Hk
  -- what the loads read: the contents each buffer is held at
  have hr3 : View.readAt (Elt F) arg3.view (Rect.unit (s := S512x1) ![0, 0] S512x1.size inb_S512x1_S512x1_0_0).toLoadRect (harg3.unread lab) = lab :=
    readAt_all_unread harg3 zeros2 _ _
  have hr4 : View.readAt (Elt F) arg4.view (Rect.unit (s := S2560x512) ![0, 0] S2560x512.size inb_S2560x512_S2560x512_0_0).toLoadRect (harg4.unread w) = w :=
    readAt_all_unread harg4 zeros2 _ _
  have hr8 : View.readAt (Elt F) arg8.view (Rect.unit (s := S512x512) ![0, 0] S512x512.size inb_S512x512_S512x512_0_0).toLoadRect (harg8.unread s.xn) = s.xn :=
    readAt_all_unread harg8 zeros2 _ _
  have hr9 : View.readAt (Elt F) arg9.view (Rect.unit (s := S512x1) ![0, 0] S512x1.size inb_S512x1_S512x1_0_0).toLoadRect (harg9.unread s.m) = s.m :=
    readAt_all_unread harg9 zeros2 _ _
  have hr10 : View.readAt (Elt F) arg10.view (Rect.unit (s := S512x1) ![0, 0] S512x1.size inb_S512x1_S512x1_0_0).toLoadRect (harg10.unread s.l) = s.l :=
    readAt_all_unread harg10 zeros2 _ _
  have hr11 : View.readAt (Elt F) arg11.view (Rect.unit (s := S512x1) ![0, 0] S512x1.size inb_S512x1_S512x1_0_0).toLoadRect (harg11.unread s.lv) = s.lv :=
    readAt_all_unread harg11 zeros2 _ _
  -- each buffer handed back: an untouched one at what it held, a stored one at the last payload stored into it
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    on_goal 2 => iexact H5
    ipureintro
    exact (read_writes_all (S := S512x2560) _ _ zeros2 _ _ _).trans (tileOut_at hr8 hr3 hr4)
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    on_goal 2 => iexact H9
    ipureintro
    exact (read_writes_all (S := S512x1) _ _ zeros2 _ _ _).trans (mNew_at hr8 hr3 hr4 hr9)
  isplitl [H10]
  · iexists _; isplitr
    on_goal 2 => iexact H10
    ipureintro
    exact (read_writes_all (S := S512x1) _ _ zeros2 _ _ _).trans (lNew_at hr8 hr3 hr4 hr9 hr9 hr10)
  iexists _; isplitr
  on_goal 2 => iexact H11
  ipureintro
  exact (read_writes_all (S := S512x1) _ _ zeros2 _ _ _).trans (lvNew_at hr8 hr3 hr4 hr11)

/-- A core's last tile: the tile's arithmetic on the scratch as found, then the log-sum-exp and the true-label logit stored to the per-core results. -/
theorem runLast (c : Dev nD) (i : grid0.Coords) (arg2 : Memref sig .tc .vmem S512x512 .f32) (harg2 : arg2.IsWhole) (arg3 : Memref sig .tc .vmem S512x1 .i32) (harg3 : arg3.IsWhole) (arg4 : Memref sig .tc .vmem S2560x512 .f32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬condFirst i) (hc1 : condLast i)
    (x : Vec F S512x512 .f32) (lab : Vec F S512x1 .i32) (w : Vec F S2560x512 .f32)
    (o3 : Vec F S512x2560 .f32) (o4 o5 : Vec F S1x512x1 .f32) (s : Scr F) (E : Set ℕ) (K : PUnit → sProp 𝕄) :
    iprop(owns (c : Thread nD τ) arg2 fullShare x ∗ owns (c : Thread nD τ) arg3 fullShare lab ∗ owns (c : Thread nD τ) arg4 fullShare w
          ∗ owns (c : Thread nD τ) arg5 fullShare o3 ∗ owns (c : Thread nD τ) arg6 fullShare o4 ∗ owns (c : Thread nD τ) arg7 fullShare o5
          ∗ owns (c : Thread nD τ) arg8 fullShare s.xn ∗ owns (c : Thread nD τ) arg9 fullShare s.m ∗ owns (c : Thread nD τ) arg10 fullShare s.l ∗ owns (c : Thread nD τ) arg11 fullShare s.lv
          ∗ (iprop(owns (c : Thread nD τ) arg2 fullShare x ∗ owns (c : Thread nD τ) arg3 fullShare lab ∗ owns (c : Thread nD τ) arg4 fullShare w
              ∗ owns (c : Thread nD τ) arg5 fullShare (tileOut i (s).xn lab w) ∗ owns (c : Thread nD τ) arg6 fullShare (lseOut (scrNext i lab w s)) ∗ owns (c : Thread nD τ) arg7 fullShare (lvOut (scrNext i lab w s))
              ∗ owns (c : Thread nD τ) arg8 fullShare (scrNext i lab w (s)).xn ∗ owns (c : Thread nD τ) arg9 fullShare (scrNext i lab w (s)).m
              ∗ owns (c : Thread nD τ) arg10 fullShare (scrNext i lab w (s)).l ∗ owns (c : Thread nD τ) arg11 fullShare (scrNext i lab w (s)).lv) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
  -- the body is its sequence of memory operations over the payloads; each buffer's raw contents are those that read
  -- the contents it is held at
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  -- the run: the reset skipped, the per-core stores taken
  sl_exec (disch := first | exact hc0 | exact hc1)
  sl_step
  iapply Hk
  -- what the loads read: the contents each buffer is held at, and, for the per-core results, the scratch just updated
  have hr3 : View.readAt (Elt F) arg3.view (Rect.unit (s := S512x1) ![0, 0] S512x1.size inb_S512x1_S512x1_0_0).toLoadRect (harg3.unread lab) = lab :=
    readAt_all_unread harg3 zeros2 _ _
  have hr4 : View.readAt (Elt F) arg4.view (Rect.unit (s := S2560x512) ![0, 0] S2560x512.size inb_S2560x512_S2560x512_0_0).toLoadRect (harg4.unread w) = w :=
    readAt_all_unread harg4 zeros2 _ _
  have hr8 : View.readAt (Elt F) arg8.view (Rect.unit (s := S512x512) ![0, 0] S512x512.size inb_S512x512_S512x512_0_0).toLoadRect (harg8.unread s.xn) = s.xn :=
    readAt_all_unread harg8 zeros2 _ _
  have hr9 : View.readAt (Elt F) arg9.view (Rect.unit (s := S512x1) ![0, 0] S512x1.size inb_S512x1_S512x1_0_0).toLoadRect (harg9.unread s.m) = s.m :=
    readAt_all_unread harg9 zeros2 _ _
  have hr10 : View.readAt (Elt F) arg10.view (Rect.unit (s := S512x1) ![0, 0] S512x1.size inb_S512x1_S512x1_0_0).toLoadRect (harg10.unread s.l) = s.l :=
    readAt_all_unread harg10 zeros2 _ _
  have hr11 : View.readAt (Elt F) arg11.view (Rect.unit (s := S512x1) ![0, 0] S512x1.size inb_S512x1_S512x1_0_0).toLoadRect (harg11.unread s.lv) = s.lv :=
    readAt_all_unread harg11 zeros2 _ _
  have hv90 : _ = (scrNext i lab w s).m :=
    (View.readCov_unit_zero (Val := Elt F) (S := S512x1) arg9.view zeros2 inb_S512x1_S512x1_0_0 _).trans (mNew_at hr8 hr3 hr4 hr9)
  have hv91 : _ = (scrNext i lab w s).l :=
    (View.readCov_unit_zero (Val := Elt F) (S := S512x1) arg10.view zeros2 inb_S512x1_S512x1_0_0 _).trans (lNew_at hr8 hr3 hr4 hr9 hr9 hr10)
  have hv97 : _ = (scrNext i lab w s).lv :=
    (View.readCov_unit_zero (Val := Elt F) (S := S512x1) arg11.view zeros2 inb_S512x1_S512x1_0_0 _).trans (lvNew_at hr8 hr3 hr4 hr11)
  -- each buffer handed back: an untouched one at what it held, a stored one at the last payload stored into it
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    on_goal 2 => iexact H5
    ipureintro
    exact (read_writes_all (S := S512x2560) _ _ zeros2 _ _ _).trans (tileOut_at hr8 hr3 hr4)
  isplitl [H6]
  · iexists _; isplitr
    on_goal 2 => iexact H6
    ipureintro
    exact (read_writes_all (S := S1x512x1) _ _ zeros3 _ _ _).trans (lseOut_at hv90 hv91)
  isplitl [H7]
  · iexists _; isplitr
    on_goal 2 => iexact H7
    ipureintro
    exact (read_writes_all (S := S1x512x1) _ _ zeros3 _ _ _).trans (lvOut_at hv97)
  isplitl [H8]
  · iexists _; isplitr; · ipureintro; exact harg8.read_unread _
    iexact H8
  isplitl [H9]
  · iexists _; isplitr
    on_goal 2 => iexact H9
    ipureintro
    exact (read_writes_all (S := S512x1) _ _ zeros2 _ _ _).trans (mNew_at hr8 hr3 hr4 hr9)
  isplitl [H10]
  · iexists _; isplitr
    on_goal 2 => iexact H10
    ipureintro
    exact (read_writes_all (S := S512x1) _ _ zeros2 _ _ _).trans (lNew_at hr8 hr3 hr4 hr9 hr9 hr10)
  iexists _; isplitr
  on_goal 2 => iexact H11
  ipureintro
  exact (read_writes_all (S := S512x1) _ _ zeros2 _ _ _).trans (lvNew_at hr8 hr3 hr4 hr11)

end Cert.KernelIdeal.Hand

end
-- ==== Proof.KRead.lean ====
/-
  One grid point's arithmetic read at an index, over the extended reals.
  A point (core a, tile b) works on the class columns  (10 a + b) * 2560 + j,  j < 2560  (its weight block's rows);
  a column is valid when it is below 50000. For a batch row r:
    the stored tile's entry at a valid column is the scaled logit: the margin of the cosine if the column is the row's
      label, the cosine otherwise, times the scale, the cosine taken against the block's row divided by its clamped norm;
    the new running maximum is the maximum of the old one and the tile's valid entries (an invalid lane holds -inf);
    the new running sum is  exp (m - m') * l  plus the sum over the lanes of  exp (entry - m');
    the new true-label logit adds the tile's entry at the label's column, if the tile has it.
-/
import proofs.«409471_j56487409877363_2_alg».proof.Proof.KState
import proofs.«409471_j56487409877363_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Hand

open Cert.KernelIdeal Cert.KernelIdeal.Gen Idealize.ShloMosaic Idealize.ShloMosaic.ValueIdx Idealize.SL.Sem
open scoped BigOperators

/-- The tile a grid point works on, and the class column its lane `j` holds. -/
def tileNo (i : grid0.Coords) : ℕ := (i 0).val * 10 + (i 1).val
def colOf (i : grid0.Coords) (j : Fin 2560) : ℕ := tileNo i * 2560 + j.val

/-- Row `j` of a weight block. -/
def brow (wb : Vec Ideal S2560x512 .f32) (j : Fin 2560) : Fin 512 → EReal := fun k => wb (ix2 j k)

/-- The cosine of normalised logits row `r` against the block's row `j` divided by its clamped norm. -/
def cosT (xn : Vec Ideal S512x512 .f32) (wb : Vec Ideal S2560x512 .f32) (r : Fin 512) (j : Fin 2560) : EReal :=
  ∑ k : Fin 512, xn (ix2 r k) * Ideal.div (brow wb j k) (Cert.Arc.nrm (brow wb j))

/-! ## Layout operations of the keep-dims forms, read at an index -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A lane sum of an `[a, b]` array at row `p` is the sum over the row. -/
theorem laneSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction (F := Ideal) .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v ?_
  exact funext fun ax => Fin.ext (by match ax with | ⟨0, _⟩ => rfl | ⟨1, _⟩ => rfl)

/-! ## The cosine tile -/

theorem lhs_pay9_0 (i : S512x2560.Idx) (q : dot_S512x512_S2560x512_S512x2560_1_1_0_0_n_n.contr.Idx) :
    (dot_S512x512_S2560x512_S512x2560_1_1_0_0_n_n.lhsIdx i q 0).val = (i 0).val := by
  unfold DotDims.lhsIdx
  rw [dif_neg (show ¬(0 : Fin S512x512.rank) ∈ dot_S512x512_S2560x512_S512x2560_1_1_0_0_n_n.lhsBatch by decide), dif_pos (show (0 : Fin S512x512.rank) ∈ dot_S512x512_S2560x512_S512x2560_1_1_0_0_n_n.lhsNonContracting by decide)]
  rfl
theorem lhs_pay9_1 (i : S512x2560.Idx) (q : dot_S512x512_S2560x512_S512x2560_1_1_0_0_n_n.contr.Idx) :
    (dot_S512x512_S2560x512_S512x2560_1_1_0_0_n_n.lhsIdx i q 1).val = (q ⟨0, by decide⟩).val :=
  dot_S512x512_S2560x512_S512x2560_1_1_0_0_n_n.lhsIdx_val_of_single rfl i q
theorem rhs_pay9_0 (i : S512x2560.Idx) (q : dot_S512x512_S2560x512_S512x2560_1_1_0_0_n_n.contr.Idx) :
    (dot_S512x512_S2560x512_S512x2560_1_1_0_0_n_n.rhsIdx i q 0).val = (i 1).val := by
  unfold DotDims.rhsIdx
  rw [dif_neg (show ¬(0 : Fin S2560x512.rank) ∈ dot_S512x512_S2560x512_S512x2560_1_1_0_0_n_n.rhsBatch by decide), dif_pos (show (0 : Fin S2560x512.rank) ∈ dot_S512x512_S2560x512_S512x2560_1_1_0_0_n_n.rhsNonContracting by decide)]
  rfl
theorem rhs_pay9_1 (i : S512x2560.Idx) (q : dot_S512x512_S2560x512_S512x2560_1_1_0_0_n_n.contr.Idx) :
    (dot_S512x512_S2560x512_S512x2560_1_1_0_0_n_n.rhsIdx i q 1).val = (q ⟨0, by decide⟩).val :=
  dot_S512x512_S2560x512_S512x2560_1_1_0_0_n_n.rhsIdx_val_of_single rfl i q

/-- The product of a `[512, 512]` and a `[2560, 512]` array contracting the second axis of both, into the zero
    accumulator, at `(r, j)`: the inner product of row `r` and row `j`. -/
theorem matmul_rows_apply (a : FVec Ideal S512x512 .f32) (b : FVec Ideal S2560x512 .f32) (r : Fin 512) (j : Fin 2560) :
    matmul (F := Ideal) dot_S512x512_S2560x512_S512x2560_1_1_0_0_n_n (some .fp32) a b (constant S512x2560 .f32 0x00000000#32) (ix2 r j)
      = ∑ k : Fin 512, a (ix2 r k) * b (ix2 j k) := by
  refine (Ideal.matmul_constant_zero_apply dot_S512x512_S2560x512_S512x2560_1_1_0_0_n_n (some .fp32) a b (ix2 r j)).trans ?_
  rw [← Equiv.sum_comp (contrEquiv1 dot_S512x512_S2560x512_S512x2560_1_1_0_0_n_n 512 rfl rfl).symm]
  refine Finset.sum_congr rfl fun k _ => ?_
  have hk := contrEquiv1_symm_val dot_S512x512_S2560x512_S512x2560_1_1_0_0_n_n 512 rfl rfl k
  have el : dot_S512x512_S2560x512_S512x2560_1_1_0_0_n_n.lhsIdx (ix2 r j) ((contrEquiv1 dot_S512x512_S2560x512_S512x2560_1_1_0_0_n_n 512 rfl rfl).symm k) = ix2 r k := funext fun ax => Fin.ext (by
    match ax with
    | ⟨0, _⟩ => exact lhs_pay9_0 _ _
    | ⟨1, _⟩ => exact (lhs_pay9_1 _ _).trans hk)
  have er : dot_S512x512_S2560x512_S512x2560_1_1_0_0_n_n.rhsIdx (ix2 r j) ((contrEquiv1 dot_S512x512_S2560x512_S512x2560_1_1_0_0_n_n 512 rfl rfl).symm k) = ix2 j k := funext fun ax => Fin.ext (by
    match ax with
    | ⟨0, _⟩ => exact rhs_pay9_0 _ _
    | ⟨1, _⟩ => exact (rhs_pay9_1 _ _).trans hk)
  rw [el, er]

/-- The weight block divided by its rows' clamped norms, at `(j, k)`. -/
theorem wnorm_apply (wb : Vec Ideal S2560x512 .f32) (j : Fin 2560) (k : Fin 512) :
    divf wb (broadcastTo S2560x512 (maximumf (sqrt (shapeCast S2560x1
        (multiReduction (F := Ideal) .add [1] S2560 (mulf wb wb) 0x00000000#32 reduces_S2560x512_S2560 (.inl rfl) rfl) shapeCasts_S2560_S2560x1))
        (broadcast S2560x1 (Scalar.ofBits .f32 0x2B8CBCCC#32))) broadcasts_S2560x1_S2560x512) (ix2 j k)
      = Ideal.div (brow wb j k) (Cert.Arc.nrm (brow wb j)) := by
  refine (divf_apply _ _ _).trans ?_
  refine congrArg (Ideal.div (wb (ix2 j k))) ?_
  refine (broadcastTo_a1_ab_apply _ broadcasts_S2560x1_S2560x512 j k).trans ?_
  refine (maximumf_apply _ _ _).trans ?_
  unfold Cert.Arc.nrm Cert.Arc.cEps
  refine congrArg (fun t => max (Ideal.sqrt t) (Ideal.ofBits .f32 0x2B8CBCCC#32)) ?_
  refine (shapeCast_a_a1_apply _ shapeCasts_S2560_S2560x1 j 0).trans ?_
  exact laneSum_apply (mulf wb wb) reduces_S2560x512_S2560 (.inl rfl) rfl j

/-- The cosine tile at `(r, j)`. -/
theorem pay9_apply (xn : Vec Ideal S512x512 .f32) (wb : Vec Ideal S2560x512 .f32) (r : Fin 512) (j : Fin 2560) :
    k0_pay9 (F := Ideal) xn wb (ix2 r j) = cosT xn wb r j := by
  unfold k0_pay9 cosT
  refine (matmul_rows_apply xn _ r j).trans ?_
  exact Finset.sum_congr rfl fun k _ => congrArg (xn (ix2 r k) * ·) (wnorm_apply wb j k)

/-! ## The column word, the validity word and the one-hot word -/

theorem tileNo_lt (i : grid0.Coords) : tileNo i < 20 := by
  have h0 : (i 0).val < 2 := (i 0).isLt
  have h1 : (i 1).val < 10 := (i 1).isLt
  unfold tileNo; omega

theorem colOf_lt (i : grid0.Coords) (j : Fin 2560) : colOf i j < 51200 := by
  have := tileNo_lt i
  have := j.isLt
  unfold colOf; omega

/-- A tile's lanes hold distinct columns. -/
theorem colOf_inj (i : grid0.Coords) {j j' : Fin 2560} (h : colOf i j = colOf i j') : j = j' := by
  unfold colOf at h; exact Fin.ext (by omega)

/-- The column word a lane holds: `(10 a + b) * 2560 + j`, no wrap. -/
theorem colWord_eq (i : grid0.Coords) (r : Fin 512) (j : Fin 2560) :
    k0_pay10 i (ix2 r j) = BitVec.ofNat 32 (colOf i j) := by
  unfold k0_pay10 colOf tileNo
  show IntOp.addi (Scalar.muli (Scalar.addi (Scalar.muli (BitVec.ofNat 32 (i 0).val) 10#32) (BitVec.ofNat 32 (i 1).val)) 2560#32)
      (iota .tc S512x2560 32 [1] iota_S512x2560_d1_w32 (ix2 r j)) = _
  rw [iota_single_apply]
  show (BitVec.ofNat 32 (i 0).val * 10#32 + BitVec.ofNat 32 (i 1).val) * 2560#32 + BitVec.ofNat 32 j.val = _
  simp only [BitVec.ofNat_add, BitVec.ofNat_mul]

/-- Two column words of a tile are equal only for equal columns. -/
theorem colWord_inj (i : grid0.Coords) {j j' : Fin 2560}
    (h : BitVec.ofNat 32 (colOf i j) = BitVec.ofNat 32 (colOf i j')) : j = j' := by
  have h1 := colOf_lt i j
  have h2 := colOf_lt i j'
  have := congrArg BitVec.toNat h
  simp only [BitVec.toNat_ofNat] at this
  exact colOf_inj i (by omega)

/-- The validity word of a lane is set exactly when its column is a class. -/
theorem valid_iff (i : grid0.Coords) (r : Fin 512) (j : Fin 2560) :
    k0_pay11 i (ix2 r j) = 1#1 ↔ colOf i j < 50000 := by
  unfold k0_pay11
  show IntOp.cmpi .slt (k0_pay10 i (ix2 r j)) 50000#32 = 1#1 ↔ _
  rw [colWord_eq]
  have hc := colOf_lt i j
  unfold IntOp.cmpi
  exact StableHlo.Predicate.slt_ofNat_iff (colOf i j) 50000 (by omega) (by norm_num)

theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- The one-hot word of a lane is set exactly when the row's label is the lane's column and the column is a class. -/
theorem onehot_iff (i : grid0.Coords) (lab : Vec Ideal S512x1 .i32) (r : Fin 512) (j : Fin 2560) :
    k0_pay12 (F := Ideal) i lab (ix2 r j) = 1#1 ↔ lab (ix2 r 0) = BitVec.ofNat 32 (colOf i j) ∧ colOf i j < 50000 := by
  unfold k0_pay12
  show IntOp.andi (IntOp.cmpi .eq (k0_pay10 i (ix2 r j))
      (broadcastTo S512x2560 (shapeCast S512x1 lab shapeCasts_S512x1_S512x1) broadcasts_S512x1_S512x2560 (ix2 r j)))
      (k0_pay11 i (ix2 r j)) = 1#1 ↔ _
  rw [andi_eq_one_iff, valid_iff, StableHlo.Predicate.cmpi_eq_iff, colWord_eq, broadcastTo_a1_ab_apply, shapeCast_self]
  exact and_congr_left' eq_comm

/-! ## The label cosine, the margin and the stored tile -/

/-- The label cosine of row `r`: the lane sum of the cosine tile under the one-hot word. -/
theorem pay13_apply (i : grid0.Coords) (xn : Vec Ideal S512x512 .f32) (wb : Vec Ideal S2560x512 .f32) (lab : Vec Ideal S512x1 .i32)
    (r : Fin 512) (u : Fin 1) :
    k0_pay13 (F := Ideal) i xn wb lab (ix2 r u)
      = ∑ j : Fin 2560, Scalar.select (k0_pay12 (F := Ideal) i lab (ix2 r j)) (cosT xn wb r j) 0 := by
  unfold k0_pay13
  refine (shapeCast_a_a1_apply _ shapeCasts_S512_S512x1 r u).trans ?_
  refine (laneSum_apply _ reduces_S512x2560_S512 (.inl rfl) rfl r).trans ?_
  refine Finset.sum_congr rfl fun j _ => ?_
  refine (select_apply _ _ _ _).trans ?_
  rw [pay9_apply]
  show Scalar.select _ _ (Ideal.ofBits .f32 0x00000000#32) = _
  rw [Ideal.ofBits_zero_f32]

/-- If the row's label is the class column of lane `j`, the label cosine is the cosine at that lane. -/
theorem pay13_label (i : grid0.Coords) (xn : Vec Ideal S512x512 .f32) (wb : Vec Ideal S2560x512 .f32) (lab : Vec Ideal S512x1 .i32)
    (r : Fin 512) (j : Fin 2560) (hl : lab (ix2 r 0) = BitVec.ofNat 32 (colOf i j)) (hv : colOf i j < 50000) :
    k0_pay13 (F := Ideal) i xn wb lab (ix2 r 0) = cosT xn wb r j := by
  rw [pay13_apply]
  refine (Finset.sum_eq_single j (fun j' _ hne => ?_) (fun h => absurd (Finset.mem_univ j) h)).trans ?_
  · have h0 : k0_pay12 (F := Ideal) i lab (ix2 r j') = 0#1 :=
      eq_zero_of_ne_one fun h => hne (colWord_inj i (((onehot_iff i lab r j').1 h).1.symm.trans hl))
    rw [h0, select_zero]
  · rw [(onehot_iff i lab r j).2 ⟨hl, hv⟩, select_one]

/-- The clipped radicand of the margin at row `r`. -/
theorem pay14_apply (i : grid0.Coords) (xn : Vec Ideal S512x512 .f32) (wb : Vec Ideal S2560x512 .f32) (lab : Vec Ideal S512x1 .i32)
    (r : Fin 512) (u : Fin 1) :
    k0_pay14 (F := Ideal) i xn wb lab (ix2 r u)
      = max Cert.Arc.cZero (Cert.Arc.cOneP - k0_pay13 (F := Ideal) i xn wb lab (ix2 r u) * k0_pay13 (F := Ideal) i xn wb lab (ix2 r u)) := rfl

/-- The stored tile at `(r, j)` over any cosine tile, one-hot word, label cosine and radicand. -/
theorem pay15_apply (v14 : FVec Ideal S512x2560 .f32) (v27 : IVec S512x2560 1) (v31 v36 : FVec Ideal S512x1 .f32) (r : Fin 512) (j : Fin 2560) :
    k0_pay15 (F := Ideal) v14 v27 v31 oneF v36 (ix2 r j)
      = Scalar.select (v27 (ix2 r j))
          (Scalar.select (Ideal.cmp .ogt (v31 (ix2 r 0)) Cert.Arc.cTh)
            (v31 (ix2 r 0) * Cert.Arc.cCosM - Ideal.sqrt (min Cert.Arc.cOne (v36 (ix2 r 0))) * Cert.Arc.cSinM)
            (v31 (ix2 r 0) - Cert.Arc.cMM))
          (v14 (ix2 r j)) * Cert.Arc.cS := by
  unfold k0_pay15
  refine (mulf_apply _ _ _).trans ?_
  refine congrArg (· * Cert.Arc.cS) ?_
  refine (select_apply _ _ _ _).trans ?_
  refine congrArg (fun t => Scalar.select (v27 (ix2 r j)) t (v14 (ix2 r j))) ?_
  refine (broadcastTo_a1_ab_apply _ broadcasts_S512x1_S512x2560 r j).trans ?_
  refine (congrFun (shapeCast_self _ shapeCasts_S512x1_S512x1) _).trans ?_
  rfl

/-- The stored tile at a valid column: the scaled logit. -/
theorem tileOut_apply (i : grid0.Coords) (xn : Vec Ideal S512x512 .f32) (lab : Vec Ideal S512x1 .i32) (wb : Vec Ideal S2560x512 .f32)
    (r : Fin 512) (j : Fin 2560) (hv : colOf i j < 50000) :
    tileOut (F := Ideal) i xn lab wb (ix2 r j)
      = (if lab (ix2 r 0) = BitVec.ofNat 32 (colOf i j) then Cert.Arc.phi (cosT xn wb r j) else cosT xn wb r j) * Cert.Arc.cS := by
  unfold tileOut
  refine (pay15_apply _ _ _ _ r j).trans ?_
  by_cases hl : lab (ix2 r 0) = BitVec.ofNat 32 (colOf i j)
  · rw [if_pos hl, (onehot_iff i lab r j).2 ⟨hl, hv⟩, select_one, pay14_apply, pay13_label i xn wb lab r j hl hv]
    rfl
  · have h0 : k0_pay12 (F := Ideal) i lab (ix2 r j) = 0#1 :=
      eq_zero_of_ne_one fun h => hl ((onehot_iff i lab r j).1 h).1
    rw [if_neg hl, h0, select_zero, pay9_apply]

/-- A lane of the tile as the soft-max sees it: the stored entry at a valid column, -inf at an invalid one. -/
def maskedE (i : grid0.Coords) (xn : Vec Ideal S512x512 .f32) (lab : Vec Ideal S512x1 .i32) (wb : Vec Ideal S2560x512 .f32)
    (r : Fin 512) (j : Fin 2560) : EReal :=
  if colOf i j < 50000 then tileOut (F := Ideal) i xn lab wb (ix2 r j) else ⊥

end Cert.KernelIdeal.Hand

end
-- ==== Proof.KBlocks.lean ====
/-
  The blocks the pipeline hands the kernel at point  t = 10 * core + tile,  read off the argument arrays:
  the logits block is the whole logits array; the labels block is the label vector as a column; the weight block's
  row j is the weight array's row  2560 t + j  when that is below 50000 (the block's part inside the array).
  The point's tile number is t; it is a core's first tile when t is 0 modulo 10 and its last when t is 9 modulo 10.
-/
import proofs.«409471_j56487409877363_2_alg».proof.Proof.KData
import proofs.«409471_j56487409877363_2_alg».proof.Proof.KRead
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The three argument arrays on core `c`. -/
abbrev argX (c : Dev nD) : FVec Ideal S512x512 .f32 := m ((c.tc : Thread nD τ).loc main_arg0)
abbrev argLab (c : Dev nD) : IVec S512 32 := m ((c.tc : Thread nD τ).loc main_arg1)
abbrev argW (c : Dev nD) : FVec Ideal S50000x512 .f32 := m ((c.tc : Thread nD τ).loc main_arg2)

/-- The point's tile number is the point. -/
theorem tileNo_coords (t : Fin cfg0.N) : tileNo (grid0.coords t) = t.val :=
  (by decide +kernel : ∀ t : Fin grid0.N, tileNo (grid0.coords t) = t.val) t

/-- A core's first tile: t is 0 modulo 10; its last: t is 9 modulo 10. -/
theorem condFirst_iff (t : Fin cfg0.N) : condFirst (grid0.coords t) ↔ t.val % 10 = 0 :=
  (by decide +kernel : ∀ t : Fin grid0.N, condFirst (grid0.coords t) ↔ t.val % 10 = 0) t
theorem condLast_iff (t : Fin cfg0.N) : condLast (grid0.coords t) ↔ t.val % 10 = 9 :=
  (by decide +kernel : ∀ t : Fin grid0.N, condLast (grid0.coords t) ↔ t.val % 10 = 9) t

/-- The index map of the logits window is constantly block (0, 0). -/
theorem blkIdx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The logits block is the logits array. -/
theorem xBlk_apply (c : Dev nD) (t : Fin cfg0.N) (r k : Fin 512) : xBlk m c t (ix2 r k) = argX m c (ix2 r k) := by
  show V m c main_arg0 (((cfg0.win 0).blk t).view.emb (ix2 r k)) = _
  rw [V_main_arg0]
  refine congrArg _ ?_
  obtain ⟨e0, e1⟩ := blkIdx0 t
  funext a; apply Fin.ext
  match a with
  | ⟨0, _⟩ => show win0_0.index t (0 : Fin 2) * 512 + 1 * r.val = r.val; omega
  | ⟨1, _⟩ => show win0_0.index t (1 : Fin 2) * 512 + 1 * k.val = k.val; omega

/-- The index map of the labels window is constantly block (0, 0). -/
theorem blkIdx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The labels block is the label vector as a column (the host reshapes it before the region). -/
theorem labBlk_apply (c : Dev nD) (t : Fin cfg0.N) (r : Fin 512) : labBlk m c t (ix2 r 0) = argLab m c (ix1 r) := by
  show V m c main_call0_v0 (((cfg0.win 1).blk t).view.emb (ix2 r 0)) = _
  have e : (V m c main_call0_v0 : S512x1.Idx → BitVec 32)
      = shapeCast S512x1 (m ((c.tc : Thread nD τ).loc main_arg1)) shapeCasts_S512_S512x1 := by
    dsimp only [V, V0]
    simp only [hostOps0, List.flatten_cons, List.flatten_nil, List.append_nil]
    after_results
    rfl
  obtain ⟨e0, e1⟩ := blkIdx1 t
  refine (congrFun e _).trans ?_
  refine shapeCast_apply _ _ _ (ix1 r) ?_
  rw [Shape.rowMajor_val_one, Shape.rowMajor_val_two]
  show r.val = (win0_1.index t (0 : Fin 2) * 512 + 1 * r.val) * 1 + (win0_1.index t (1 : Fin 2) * 1 + 1 * 0)
  omega

/-- The weight window at point `t`: block (t, 0); the part of it inside the array is  min 2560 (50000 - 2560 t)  rows,
    all 512 columns. -/
theorem blkIdx2 : ∀ t : Fin cfg0.N, win0_2.index t (0 : Fin 2) = t.val ∧ win0_2.index t (1 : Fin 2) = 0
    ∧ win0_2.xsize (grid0.coords t) (0 : Fin 2) = min 2560 (50000 - 2560 * t.val)
    ∧ win0_2.xsize (grid0.coords t) (1 : Fin 2) = 512 :=
  (by decide +kernel : ∀ t : Fin grid0.N, win0_2.index t (0 : Fin 2) = t.val ∧ win0_2.index t (1 : Fin 2) = 0
    ∧ win0_2.xsize (grid0.coords t) (0 : Fin 2) = min 2560 (50000 - 2560 * t.val)
    ∧ win0_2.xsize (grid0.coords t) (1 : Fin 2) = 512)

/-- The weight block's row `j` at point `t` is the weight array's row  2560 t + j,  when that row exists. -/
theorem wBlk_apply (c : Dev nD) (t : Fin cfg0.N) (d : Vec Ideal S2560x512 .f32) (j : Fin 2560) (k : Fin 512)
    (hv : t.val * 2560 + j.val < 50000) :
    wBlk m c t d (ix2 j k) = argW m c (ix2 ⟨t.val * 2560 + j.val, hv⟩ k) := by
  obtain ⟨e0, e1, e2, e3⟩ := blkIdx2 t
  have hm : win0_2.moved (grid0.coords t) (ix2 j k) = true := by
    rw [Pipeline.Window.moved_iff]
    intro a
    match a with
    | ⟨0, _⟩ => show j.val < win0_2.xsize (grid0.coords t) (0 : Fin 2); have := j.isLt; omega
    | ⟨1, _⟩ => show k.val < win0_2.xsize (grid0.coords t) (1 : Fin 2); have := k.isLt; omega
  unfold wBlk Pipeline.Window.fill
  rw [dif_pos hm]
  show V m c main_arg2 (((cfg0.win 2).blk t).view.emb _) = _
  rw [V_main_arg2]
  refine congrArg _ ?_
  funext a; apply Fin.ext
  match a with
  | ⟨0, _⟩ => show win0_2.index t (0 : Fin 2) * 2560 + 1 * j.val = t.val * 2560 + j.val; omega
  | ⟨1, _⟩ => show win0_2.index t (1 : Fin 2) * 512 + 1 * k.val = k.val; omega

/-- Two fillers give weight blocks that agree on the rows at valid columns (those are inside the array). -/
theorem wBlk_agree (c : Dev nD) (t : Fin cfg0.N) (d d' : Vec Ideal S2560x512 .f32) (j : Fin 2560) (k : Fin 512)
    (hv : colOf (grid0.coords t) j < 50000) : wBlk m c t d (ix2 j k) = wBlk m c t d' (ix2 j k) := by
  have hv' : t.val * 2560 + j.val < 50000 := by
    have h := tileNo_coords t
    unfold colOf at hv
    rw [h] at hv
    exact hv
  rw [wBlk_apply m c t d j k hv', wBlk_apply m c t d' j k hv']

end Cert.KernelIdeal.Hand

end
-- ==== Proof.KReadUpd.lean ====
/-
  One batch row's running quantities after a tile, read at the row, over the extended reals: the new running maximum
  is the maximum of the old one and the tile's lanes (an invalid lane holds -inf); the new running sum is
  exp (m - m') * l  plus the sum over the lanes of  exp (lane - m');  the new true-label logit adds the tile's entry
  at the label's column when the tile has it. The reset scratch is the logits divided by their rows' clamped norms,
  maximum -inf, sums zero; the per-core results are  m + log l  and the true-label logit.
-/
import proofs.«409471_j56487409877363_2_alg».proof.Proof.KRead
import Idealize.ShloMosaic.PureOps.Ideal.Laws
import Idealize.ShloMosaic.Lib.ValueIdx
import Idealize.ShloMosaic.Lib.ValueLayout
import Idealize.ShloMosaic.Lib.Pipeline.Value
import Idealize.ShloMosaic.PureOps.IdealRules
import Idealize.ShloMosaic.Lib.WordArith
import Idealize.ShloMosaic.Lib.Affine

noncomputable section

namespace Cert.KernelIdeal.Hand

open Cert.KernelIdeal Cert.KernelIdeal.Gen Idealize.ShloMosaic Idealize.ShloMosaic.ValueIdx Idealize.SL.Sem
open scoped BigOperators

/-! ## Layout steps read at an index -/

/-- A vector of `a` entries cast to an `[a, 1]` column reads, at `(i, u)`, the vector at `i`. -/
theorem upd_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem upd_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 words of -infinity and zero, over the extended reals. -/
theorem upd_ofBits_neg_inf : Ideal.ofBits .f32 0xFF800000#32 = (⊥ : EReal) := by simp [Ideal.ofBits, Ideal.ieee]
theorem upd_ofBits_zero : Ideal.ofBits .f32 0x00000000#32 = (0 : EReal) := by simp [Ideal.ofBits, Ideal.ieee]

/-- The mask fill constant is -infinity over the extended reals. -/
theorem upd_neg_big : Named.named (F := Ideal) κ "neg_big" (φ := .f32) 0xFF333332#32 = (⊥ : EReal) :=
  IdealRules.named_const.ideal_named_scalar _ _ _ _ rfl

/-- Pointwise exponential, square root and logarithm read at an index. -/
theorem upd_exp_apply {s : Shape} {φ : FTy} (a : FVec Ideal s φ) (i : s.Idx) : exp a i = Ideal.exp (a i) := rfl
theorem upd_sqrt_apply {s : Shape} {φ : FTy} (a : FVec Ideal s φ) (i : s.Idx) : sqrt a i = Ideal.sqrt (a i) := rfl
theorem upd_log_apply {s : Shape} {φ : FTy} (a : FVec Ideal s φ) (i : s.Idx) : log a i = Ideal.log (a i) := rfl

/-! ## The column word and the two masks at a lane -/

/-- A reduction over the second axis of a rank-2 array puts lane `j` back into row `r`. -/
theorem upd_lift_row {a n : ℕ} (h : (⟨2, ![a, n]⟩ : Shape).Reduces [1] ⟨1, ![a]⟩) (r : Fin a) (j : Fin n) : h.lift (ix1 r) j = ix2 r j := by
  funext d
  apply Fin.ext
  match d with
  | ⟨0, _⟩ => rfl
  | ⟨1, _⟩ => rfl

/-- The column word of lane `j` at grid point `i` is the column's number. -/
theorem upd_pay10_word (i : grid0.Coords) (r : Fin 512) (j : Fin 2560) :
    k0_pay10 i (ix2 r j) = BitVec.ofNat 32 (((i 0).val * 10 + (i 1).val) * 2560 + j.val) := by
  show (BitVec.ofNat 32 (i 0).val * 10#32 + BitVec.ofNat 32 (i 1).val) * 2560#32 + BitVec.ofNat 32 (0 * 2560 + j.val)
    = BitVec.ofNat 32 (((i 0).val * 10 + (i 1).val) * 2560 + j.val)
  simp only [BitVec.ofNat_add, BitVec.ofNat_mul, Nat.zero_mul, Nat.zero_add]

/-- Every column a grid point works on is below 51200. -/
theorem upd_col_lt (i : grid0.Coords) (j : Fin 2560) : ((i 0).val * 10 + (i 1).val) * 2560 + j.val < 51200 := by
  have h0 : (i 0).val < 2 := (i 0).isLt
  have h1 : (i 1).val < 10 := (i 1).isLt
  have hj := j.isLt
  omega

/-- The validity bit of a lane says its column is below 50000. -/
theorem upd_pay11_word (i : grid0.Coords) (r : Fin 512) (j : Fin 2560) :
    k0_pay11 i (ix2 r j) = 1#1 ↔ ((i 0).val * 10 + (i 1).val) * 2560 + j.val < 50000 := by
  show IntOp.cmpi .slt (k0_pay10 i (ix2 r j)) 50000#32 = 1#1 ↔ _
  rw [upd_pay10_word, IntOp.cmpi_slt, WordArith.toInt_ofNat_small _ (by have := upd_col_lt i j; omega)]
  have e : (50000#32 : BitVec 32).toInt = 50000 := by decide
  rw [e]
  omega

/-- The label-hit bit of a lane: the row's label is the lane's column and the column is valid. -/
theorem upd_pay12_word (i : grid0.Coords) (lab : Vec Ideal S512x1 .i32) (r : Fin 512) (j : Fin 2560) :
    k0_pay12 (F := Ideal) i lab (ix2 r j) = 1#1
      ↔ (lab (ix2 r 0) = BitVec.ofNat 32 (((i 0).val * 10 + (i 1).val) * 2560 + j.val)
          ∧ ((i 0).val * 10 + (i 1).val) * 2560 + j.val < 50000) := by
  unfold k0_pay12
  show IntOp.andi (IntOp.cmpi .eq (k0_pay10 i (ix2 r j)) (broadcastTo S512x2560 (shapeCast S512x1 lab _) _ (ix2 r j)))
      (k0_pay11 i (ix2 r j)) = 1#1 ↔ _
  rw [IntOp.andi_eq_one, IntOp.cmpi_eq, upd_pay11_word, upd_broadcastTo_a1_ab_apply, shapeCast_self, upd_pay10_word]
  constructor <;> rintro ⟨h1, h2⟩ <;> exact ⟨h1.symm, h2⟩

/-- A lane as the soft-max sees it: the stored entry at a valid column, -infinity at an invalid one. -/
theorem upd_pay16_word (i : grid0.Coords) (v14 : FVec Ideal S512x2560 .f32) (v27 : IVec S512x2560 1) (v31 : FVec Ideal S512x1 .f32)
    (c : Ideal .f32) (v36 : FVec Ideal S512x1 .f32) (r : Fin 512) (j : Fin 2560) :
    k0_pay16 (F := Ideal) v14 (k0_pay11 i) v27 v31 c v36 (ix2 r j)
      = if ((i 0).val * 10 + (i 1).val) * 2560 + j.val < 50000 then k0_pay15 (F := Ideal) v14 v27 v31 c v36 (ix2 r j) else ⊥ := by
  unfold k0_pay16
  show Scalar.select (k0_pay11 i (ix2 r j)) (k0_pay15 (F := Ideal) v14 v27 v31 c v36 (ix2 r j))
      (Named.named (F := Ideal) κ "neg_big" (φ := .f32) 0xFF333332#32) = _
  rw [upd_neg_big]
  by_cases h : ((i 0).val * 10 + (i 1).val) * 2560 + j.val < 50000
  · rw [if_pos h, (upd_pay11_word i r j).2 h, select_one]
  · rw [if_neg h, eq_zero_of_ne_one (mt (upd_pay11_word i r j).1 h), select_zero]

/-- The exponential of a lane minus a broadcast column, read at the lane. -/
theorem upd_lane_exp (i : grid0.Coords) (v14 : FVec Ideal S512x2560 .f32) (v27 : IVec S512x2560 1) (v31 : FVec Ideal S512x1 .f32)
    (c : Ideal .f32) (v36 : FVec Ideal S512x1 .f32) (mN : FVec Ideal S512x1 .f32) (h : S512x1.Broadcasts S512x2560)
    (r : Fin 512) (j : Fin 2560) :
    exp (subf (k0_pay16 (F := Ideal) v14 (k0_pay11 i) v27 v31 c v36) (broadcastTo S512x2560 mN h)) (ix2 r j)
      = Ideal.exp ((if ((i 0).val * 10 + (i 1).val) * 2560 + j.val < 50000 then k0_pay15 (F := Ideal) v14 v27 v31 c v36 (ix2 r j) else ⊥)
          - mN (ix2 r 0)) := by
  rw [upd_exp_apply, subf_apply, upd_broadcastTo_a1_ab_apply, upd_pay16_word]

/-- Two folds of max over the same lanes agree when their starts and their entries do. -/
theorem upd_fold_max_congr {n : ℕ} (b b' : EReal) (f g : Fin n → EReal) (hb : b = b') (hf : ∀ j, f j = g j) :
    (Finset.univ : Finset (Fin n)).fold max b f = (Finset.univ : Finset (Fin n)).fold max b' g := by
  rw [hb, funext hf]

/-! ## The column word and the masks, in terms of the lane's column -/

theorem upd_pay10_apply (i : grid0.Coords) (r : Fin 512) (j : Fin 2560) :
    k0_pay10 i (ix2 r j) = BitVec.ofNat 32 (colOf i j) := upd_pay10_word i r j
theorem upd_colOf_lt (i : grid0.Coords) (j : Fin 2560) : colOf i j < 51200 := upd_col_lt i j
theorem upd_pay11_apply (i : grid0.Coords) (r : Fin 512) (j : Fin 2560) :
    k0_pay11 i (ix2 r j) = 1#1 ↔ colOf i j < 50000 := upd_pay11_word i r j
theorem upd_pay12_apply (i : grid0.Coords) (lab : Vec Ideal S512x1 .i32) (r : Fin 512) (j : Fin 2560) :
    k0_pay12 (F := Ideal) i lab (ix2 r j) = 1#1 ↔ (lab (ix2 r 0) = BitVec.ofNat 32 (colOf i j) ∧ colOf i j < 50000) :=
  upd_pay12_word i lab r j
theorem upd_pay16_apply (i : grid0.Coords) (v14 : FVec Ideal S512x2560 .f32) (v27 : IVec S512x2560 1) (v31 : FVec Ideal S512x1 .f32)
    (c : Ideal .f32) (v36 : FVec Ideal S512x1 .f32) (r : Fin 512) (j : Fin 2560) :
    k0_pay16 (F := Ideal) v14 (k0_pay11 i) v27 v31 c v36 (ix2 r j)
      = if colOf i j < 50000 then k0_pay15 (F := Ideal) v14 v27 v31 c v36 (ix2 r j) else ⊥ := upd_pay16_word i v14 v27 v31 c v36 r j

/-! ## The running quantities after a tile -/

theorem mNew_apply (i : grid0.Coords) (xn : Vec Ideal S512x512 .f32) (lab : Vec Ideal S512x1 .i32) (wb : Vec Ideal S2560x512 .f32)
    (m : Vec Ideal S512x1 .f32) (r : Fin 512) :
    mNew (F := Ideal) i xn lab wb m (ix2 r 0)
      = max (m (ix2 r 0)) ((Finset.univ : Finset (Fin 2560)).fold max (⊥ : EReal) (fun j => maskedE i xn lab wb r j)) := by
  unfold mNew k0_pay17
  rw [maximumf_apply]
  refine congrArg (max (m (ix2 r 0))) ((upd_shapeCast_a_a1_apply _ _ r 0).trans
    ((Ideal.multiReduction_maximumf_single _ _ _ _ _ (ix1 r)).trans ?_))
  refine upd_fold_max_congr _ _ _ _ upd_ofBits_neg_inf fun j => ?_
  refine (congrArg _ (upd_lift_row _ r j)).trans ((upd_pay16_apply i _ _ _ _ _ r j).trans ?_)
  rfl

theorem lNew_apply (i : grid0.Coords) (xn : Vec Ideal S512x512 .f32) (lab : Vec Ideal S512x1 .i32) (wb : Vec Ideal S2560x512 .f32)
    (m l : Vec Ideal S512x1 .f32) (r : Fin 512) :
    lNew (F := Ideal) i xn lab wb m l (ix2 r 0)
      = Ideal.exp (m (ix2 r 0) - mNew (F := Ideal) i xn lab wb m (ix2 r 0)) * l (ix2 r 0)
        + ∑ j : Fin 2560, Ideal.exp (maskedE i xn lab wb r j - mNew (F := Ideal) i xn lab wb m (ix2 r 0)) := by
  unfold lNew k0_pay18
  rw [shapeCast_self, addf_apply, mulf_apply, upd_exp_apply, subf_apply]
  refine congrArg (fun t : EReal => _ + t) ((upd_shapeCast_a_a1_apply _ _ r 0).trans
    ((Ideal.multiReduction_add_single _ _ _ _ _ (ix1 r)).trans ?_))
  exact Finset.sum_congr rfl fun j _ =>
    (congrArg _ (upd_lift_row _ r j)).trans ((upd_lane_exp i _ _ _ _ _ _ _ r j).trans rfl)

theorem lvNew_apply (i : grid0.Coords) (xn : Vec Ideal S512x512 .f32) (lab : Vec Ideal S512x1 .i32) (wb : Vec Ideal S2560x512 .f32)
    (lv : Vec Ideal S512x1 .f32) (r : Fin 512) :
    lvNew (F := Ideal) i xn lab wb lv (ix2 r 0)
      = lv (ix2 r 0) + ∑ j : Fin 2560,
          (if lab (ix2 r 0) = BitVec.ofNat 32 (colOf i j) ∧ colOf i j < 50000 then tileOut (F := Ideal) i xn lab wb (ix2 r j) else 0) := by
  unfold lvNew k0_pay1
  rw [shapeCast_self, addf_apply]
  refine congrArg (fun t => lv (ix2 r 0) + t) ((upd_shapeCast_a_a1_apply _ _ r 0).trans
    ((Ideal.multiReduction_add_single _ _ _ _ _ (ix1 r)).trans ?_))
  refine Finset.sum_congr rfl fun j _ => ?_
  refine (congrArg _ (upd_lift_row _ r j)).trans ?_
  show Scalar.select (k0_pay12 (F := Ideal) i lab (ix2 r j)) (tileOut (F := Ideal) i xn lab wb (ix2 r j)) (Ideal.ofBits .f32 0x00000000#32) = _
  rw [upd_ofBits_zero]
  by_cases h : lab (ix2 r 0) = BitVec.ofNat 32 (colOf i j) ∧ colOf i j < 50000
  · rw [if_pos h, (upd_pay12_apply i lab r j).2 h, select_one]
  · rw [if_neg h, eq_zero_of_ne_one (mt (upd_pay12_apply i lab r j).1 h), select_zero]

/-- The stored running maximum is the new maximum (a cast of shape onto itself). -/
theorem scrNext_m (i : grid0.Coords) (lab : Vec Ideal S512x1 .i32) (wb : Vec Ideal S2560x512 .f32) (s : Scr Ideal) :
    (scrNext (F := Ideal) i lab wb s).m = mNew (F := Ideal) i s.xn lab wb s.m := by
  show k0_pay2 (F := Ideal) (mNew (F := Ideal) i s.xn lab wb s.m) = _
  unfold k0_pay2
  exact shapeCast_self _ _

/-- The reset scratch: the logits divided by their rows' clamped norms; maximum -inf; sums zero. -/
theorem scrReset_xn (x : Vec Ideal S512x512 .f32) (r k : Fin 512) :
    (scrReset (F := Ideal) x).xn (ix2 r k) = Ideal.div (x (ix2 r k)) (Cert.Arc.nrm fun k' => x (ix2 r k')) := by
  show k0_pay8 (F := Ideal) x (ix2 r k) = _
  unfold k0_pay8
  rw [shapeCast_self, divf_apply, upd_broadcastTo_a1_ab_apply, maximumf_apply, upd_sqrt_apply, broadcast_apply]
  refine congrArg (fun t : EReal => Ideal.div (x (ix2 r k)) (max (Ideal.sqrt t) _)) ((upd_shapeCast_a_a1_apply _ _ r 0).trans
    ((Ideal.multiReduction_add_single _ _ _ _ _ (ix1 r)).trans ?_))
  exact Finset.sum_congr rfl fun k' _ => congrArg (fun ix => x ix * x ix) (upd_lift_row _ r k')
theorem scrReset_m (x : Vec Ideal S512x512 .f32) (r : Fin 512) : (scrReset (F := Ideal) x).m (ix2 r 0) = ⊥ := by
  show k0_pay5 (F := Ideal) (ix2 r 0) = ⊥
  unfold k0_pay5
  rw [shapeCast_self]
  exact upd_ofBits_neg_inf
theorem scrReset_l (x : Vec Ideal S512x512 .f32) (r : Fin 512) : (scrReset (F := Ideal) x).l (ix2 r 0) = 0 := by
  show k0_pay6 (F := Ideal) (ix2 r 0) = 0
  unfold k0_pay6
  rw [shapeCast_self]
  exact upd_ofBits_zero
theorem scrReset_lv (x : Vec Ideal S512x512 .f32) (r : Fin 512) : (scrReset (F := Ideal) x).lv (ix2 r 0) = 0 := by
  show k0_pay7 (F := Ideal) (ix2 r 0) = 0
  unfold k0_pay7
  rw [shapeCast_self]
  exact upd_ofBits_zero

/-- The two per-core results at row `r`: the log-sum-exp  m + log l,  and the true-label logit. -/
theorem lseOut_apply (s : Scr Ideal) (r : Fin 512) :
    lseOut (F := Ideal) s (ix3 0 r 0) = s.m (ix2 r 0) + Ideal.log (s.l (ix2 r 0)) := by
  show k0_pay3 (F := Ideal) s.m s.l (ix3 0 r 0) = _
  unfold k0_pay3
  exact shapeCast_ab_1ab_apply _ _ 0 r 0
theorem lvOut_apply (s : Scr Ideal) (r : Fin 512) : lvOut (F := Ideal) s (ix3 0 r 0) = s.lv (ix2 r 0) := by
  show k0_pay4 (F := Ideal) s.lv (ix3 0 r 0) = _
  unfold k0_pay4
  exact shapeCast_ab_1ab_apply _ _ 0 r 0

end Cert.KernelIdeal.Hand

end
-- ==== Proof.KReadCongr.lean ====
/-
  The transition of one grid point reads only the weight block's rows at valid class columns: two blocks that agree
  there give the same new scratch and the same stored tile at the valid columns. (The last tile's block overhangs the
  weight array; its rows past the array's end hold words nothing names, and this is why they do not matter.)
-/
import proofs.«409471_j56487409877363_2_alg».proof.Proof.KRead
import proofs.«409471_j56487409877363_2_alg».proof.Proof.KReadUpd
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx Idealize.SL.Sem
open scoped BigOperators

/-- A select under a condition word reads its first operand only where the word is set. -/
theorem select_congr_on {α : Type} {s : Shape} (c : IVec s 1) (a a' z : s.Idx → α)
    (h : ∀ idx, c idx = 1#1 → a idx = a' idx) : select c a z = select c a' z := by
  funext idx
  show Scalar.select (c idx) (a idx) (z idx) = Scalar.select (c idx) (a' idx) (z idx)
  by_cases hc : c idx = 1#1
  · rw [hc, select_one, select_one]; exact h idx hc
  · rw [eq_zero_of_ne_one hc, select_zero, select_zero]

section Congr
variable (i : grid0.Coords) (xn : Vec Ideal S512x512 .f32) (lab : Vec Ideal S512x1 .i32) (wb wb' : Vec Ideal S2560x512 .f32)
  (h : ∀ (j : Fin 2560) (k : Fin 512), colOf i j < 50000 → wb (ix2 j k) = wb' (ix2 j k))
include h

/-- The cosine at a valid lane reads only that lane's row of the block. -/
theorem cosT_congr (r : Fin 512) (j : Fin 2560) (hv : colOf i j < 50000) : cosT xn wb r j = cosT xn wb' r j := by
  have hb : brow wb j = brow wb' j := funext fun k => h j k hv
  unfold cosT; rw [hb]

/-- The cosine tile under the one-hot word does not see the invalid rows. -/
theorem selOnehot_pay9_congr (z : FVec Ideal S512x2560 .f32) :
    select (k0_pay12 (F := Ideal) i lab) (k0_pay9 (F := Ideal) xn wb) z = select (k0_pay12 (F := Ideal) i lab) (k0_pay9 (F := Ideal) xn wb') z := by
  refine select_congr_on _ _ _ _ fun idx hc => ?_
  obtain ⟨r, j, rfl⟩ : ∃ (r : Fin 512) (j : Fin 2560), idx = ix2 r j := ⟨idx 0, idx 1, eq_ix2 idx⟩
  rw [pay9_apply, pay9_apply]
  exact cosT_congr i xn wb wb' h r j ((onehot_iff i lab r j).1 hc).2

theorem pay13_congr : k0_pay13 (F := Ideal) i xn wb lab = k0_pay13 (F := Ideal) i xn wb' lab := by
  unfold k0_pay13
  exact congrArg (fun t => shapeCast S512x1 (multiReduction (F := Ideal) .add [1] S512 t 0x00000000#32 reduces_S512x2560_S512 (.inl rfl) rfl) shapeCasts_S512_S512x1)
    (selOnehot_pay9_congr i xn lab wb wb' h _)

theorem pay14_congr : k0_pay14 (F := Ideal) i xn wb lab = k0_pay14 (F := Ideal) i xn wb' lab := by
  unfold k0_pay14
  rw [pay13_congr i xn lab wb wb' h]

/-- The stored tile at a valid column reads only the block's valid rows. -/
theorem tileOut_congr' (r : Fin 512) (j : Fin 2560) (hv : colOf i j < 50000) :
    tileOut (F := Ideal) i xn lab wb (ix2 r j) = tileOut (F := Ideal) i xn lab wb' (ix2 r j) := by
  rw [tileOut_apply i xn lab wb r j hv, tileOut_apply i xn lab wb' r j hv, cosT_congr i xn wb wb' h r j hv]

/-- The tile as the soft-max sees it (invalid lanes filled) is the same vector for the two blocks. -/
theorem pay16_congr :
    k0_pay16 (F := Ideal) (k0_pay9 xn wb) (k0_pay11 i) (k0_pay12 i lab) (k0_pay13 i xn wb lab) oneF (k0_pay14 i xn wb lab)
      = k0_pay16 (F := Ideal) (k0_pay9 xn wb') (k0_pay11 i) (k0_pay12 i lab) (k0_pay13 i xn wb' lab) oneF (k0_pay14 i xn wb' lab) := by
  unfold k0_pay16
  refine select_congr_on _ _ _ _ fun idx hc => ?_
  obtain ⟨r, j, rfl⟩ : ∃ (r : Fin 512) (j : Fin 2560), idx = ix2 r j := ⟨idx 0, idx 1, eq_ix2 idx⟩
  exact tileOut_congr' i xn lab wb wb' h r j ((valid_iff i r j).1 hc)

theorem mNew_congr (m : Vec Ideal S512x1 .f32) : mNew (F := Ideal) i xn lab wb m = mNew (F := Ideal) i xn lab wb' m := by
  unfold mNew k0_pay17
  rw [pay16_congr i xn lab wb wb' h]

theorem lNew_congr (m l : Vec Ideal S512x1 .f32) : lNew (F := Ideal) i xn lab wb m l = lNew (F := Ideal) i xn lab wb' m l := by
  unfold lNew k0_pay18 k0_pay17
  rw [pay16_congr i xn lab wb wb' h]

theorem lvNew_congr (lv : Vec Ideal S512x1 .f32) : lvNew (F := Ideal) i xn lab wb lv = lvNew (F := Ideal) i xn lab wb' lv := by
  unfold lvNew k0_pay1
  have hs : ∀ z : FVec Ideal S512x2560 .f32,
      select (k0_pay12 (F := Ideal) i lab) (tileOut (F := Ideal) i xn lab wb) z = select (k0_pay12 (F := Ideal) i lab) (tileOut (F := Ideal) i xn lab wb') z := fun z => by
    refine select_congr_on _ _ _ _ fun idx hc => ?_
    obtain ⟨r, j, rfl⟩ : ∃ (r : Fin 512) (j : Fin 2560), idx = ix2 r j := ⟨idx 0, idx 1, eq_ix2 idx⟩
    exact tileOut_congr' i xn lab wb wb' h r j ((onehot_iff i lab r j).1 hc).2
  exact congrArg (fun t => shapeCast S512x1 (addf lv (shapeCast S512x1
    (multiReduction (F := Ideal) .add [1] S512 t 0x00000000#32 reduces_S512x2560_S512 (.inl rfl) rfl) shapeCasts_S512_S512x1)) shapeCasts_S512x1_S512x1) (hs _)

end Congr

/-- What the transition reads of the weight block: only its rows at valid columns. Two blocks that agree on those
    rows give the same new scratch, and the same stored tile at the valid columns. -/
theorem scrNext_congr (i : grid0.Coords) (lab : Vec Ideal S512x1 .i32) (wb wb' : Vec Ideal S2560x512 .f32) (s : Scr Ideal)
    (h : ∀ (j : Fin 2560) (k : Fin 512), colOf i j < 50000 → wb (ix2 j k) = wb' (ix2 j k)) :
    scrNext (F := Ideal) i lab wb s = scrNext (F := Ideal) i lab wb' s := by
  unfold scrNext
  rw [mNew_congr i s.xn lab wb wb' h, lNew_congr i s.xn lab wb wb' h, lvNew_congr i s.xn lab wb wb' h]
theorem tileOut_congr (i : grid0.Coords) (xn : Vec Ideal S512x512 .f32) (lab : Vec Ideal S512x1 .i32) (wb wb' : Vec Ideal S2560x512 .f32)
    (h : ∀ (j : Fin 2560) (k : Fin 512), colOf i j < 50000 → wb (ix2 j k) = wb' (ix2 j k))
    (r : Fin 512) (j : Fin 2560) (hv : colOf i j < 50000) :
    tileOut (F := Ideal) i xn lab wb (ix2 r j) = tileOut (F := Ideal) i xn lab wb' (ix2 r j) :=
  tileOut_congr' i xn lab wb wb' h r j hv

end Cert.KernelIdeal.Hand

end
-- ==== Proof.KFrame.lean ====
/-
  The idealized kernel runs: at the extended reals, from any memory, every weakly fair execution of its @main
  terminates without fault, and ends with every array of the pipeline at what the proof data (KData.lean) computes —
  an input as it was, an output overwritten block by block by what the body left at each write-back — and every other
  buffer as the host lines after the region leave it.
  The body obligation, point by point: the point is a core's first tile, a middle tile or its last; in each the body's
  run (KRuns.lean) applies to the blocks the pipeline hands over and to the scratch the invariant holds; the weight
  block's rows past the array's end hold unnamed words, which the transition does not read (KReadCongr.lean).
-/
import proofs.«409471_j56487409877363_2_alg».proof.Proof.KData
import proofs.«409471_j56487409877363_2_alg».proof.Proof.KRuns
import proofs.«409471_j56487409877363_2_alg».proof.Proof.KBlocks
import proofs.«409471_j56487409877363_2_alg».proof.Proof.KReadCongr

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The staging memrefs and the invariant, position by position -/

/-- Each window's current staging memref at point `t`, as the pipeline passes it to the body, and its wholeness. -/
abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2560x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2560 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x1 .f32 := win0_5.stage (cfg0.slots t 5)
abbrev hs5 (t : Fin cfg0.N) : (ms5 t).IsWhole := hstage0_5 ((cfg0.slots t 5).cast nbuf0_5)

/-- The four scratch buffers held whole at the scratch `s`. -/
def scrOwn (c : Dev nD) (s : Scr Ideal) : sProp 𝕄 :=
  iprop(owns (c : Thread nD τ) scXn fullShare s.xn ∗ owns (c : Thread nD τ) scM fullShare s.m
    ∗ owns (c : Thread nD τ) scL fullShare s.l ∗ owns (c : Thread nD τ) scLv fullShare s.lv)

/-- What the launch hands the region, with the scratch operands as memrefs owned at some contents. -/
theorem PhiA0_eq (c : Dev nD) :
    (Pipeline.ΦA spec0 c : sProp 𝕄)
      = iprop(iprop((∃ d, owns (c : Thread nD τ) scXn fullShare d) ∗ (∃ d, owns (c : Thread nD τ) scM fullShare d)
          ∗ (∃ d, owns (c : Thread nD τ) scL fullShare d) ∗ (∃ d, owns (c : Thread nD τ) scLv fullShare d)) ∗ (∃ r, prngReg c r)) := by
  unfold Pipeline.ΦA; rw [scopedRest0_eq]; simp only [scXn, scM, scL, scLv, owns_whole]; try rfl

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(scrOwn c (scrAt m c n hn) ∗ (∃ r, prngReg c r)) := rfl

/-- Before a point that is not the first: the scratch at what the point before left. -/
theorem PhiS_pos (c : Dev nD) (n : ℕ) (h : n ≤ cfg0.N) (hz : n ≠ 0) :
    PhiS m c n h = iprop(scrOwn c (scrAt m c (n - 1) (by omega)) ∗ (∃ r, prngReg c r)) := by
  cases n with
  | zero => exact absurd rfl hz
  | succ n => rfl

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- The invariant after point `t`: the scratch at what the point leaves. -/
theorem Phi_succ (c : Dev nD) (t : Fin cfg0.N) :
    (dats m 0 c).Φ t.succ = iprop(scrOwn c (scrAt m c t.val t.isLt) ∗ (∃ r, prngReg c r)) := by
  rw [show (dats m 0 c).Φ t.succ = PhiS m c (t.val + 1) t.isLt from rfl, PhiS_succ]

/-- Before a point that is not a core's first tile the scratch holds what the point's arithmetic finds. -/
theorem Phi_castSucc_in (c : Dev nD) (t : Fin cfg0.N) (h0 : ¬t.val % 10 = 0) :
    (dats m 0 c).Φ t.castSucc = iprop(scrOwn c (scrIn m c t) ∗ (∃ r, prngReg c r)) := by
  have hz : t.val ≠ 0 := fun h => h0 (by rw [h])
  rw [PhiS_castSucc m c t, PhiS_pos m c _ _ hz]; unfold scrIn; rw [if_neg h0]

/-- Before any point the scratch buffers are held at some contents. -/
theorem Phi_any (c : Dev nD) (t : Fin cfg0.N) :
    (dats m 0 c).Φ t.castSucc ⊢ iprop(∃ s : Scr Ideal, iprop(owns (c : Thread nD τ) scXn fullShare s.xn ∗ owns (c : Thread nD τ) scM fullShare s.m
        ∗ owns (c : Thread nD τ) scL fullShare s.l ∗ owns (c : Thread nD τ) scLv fullShare s.lv) ∗ (∃ r, prngReg c r)) := by
  rw [PhiS_castSucc m c t]
  by_cases hz : t.val = 0
  · rw [PhiS_zero m c _ _ hz, PhiA0_eq]
    iintro ⟨⟨⟨%a, HX⟩, ⟨%b, HM⟩, ⟨%e, HL⟩, ⟨%f, HLv⟩⟩, Hg⟩
    iexists (⟨a, b, e, f⟩ : Scr Ideal)
    isplitl [HX HM HL HLv]
    · isplitl [HX]; · iexact HX
      isplitl [HM]; · iexact HM
      isplitl [HL]; · iexact HL
      iexact HLv
    iexact Hg
  · rw [PhiS_pos m c _ _ hz]; unfold scrOwn
    iintro ⟨HS, Hg⟩
    iexists (scrAt m c (t.val - 1) (by omega))
    isplitl [HS]; · iexact HS
    iexact Hg

/-! ## What the body finds in the windows' buffers and what it hands back -/

/-- The logits' and the labels' buffers hold their blocks at every point. -/
theorem before_0 (c : Dev nD) (t : Fin cfg0.N) (d) : (dats m 0 c).before 0 t d = iblk m c 0 t :=
  before0_0_of m (dats m 0 c) (A_eq m c 0) (after0_0 m c) t d
theorem before_1 (c : Dev nD) (t : Fin cfg0.N) (d) : (dats m 0 c).before 1 t d = iblk m c 1 t :=
  before0_1_of m (dats m 0 c) (A_eq m c 1) (after0_1 m c) t d

/-- The weight block's buffer, fetched at every point, holds the block on its part inside the array and, past the
    array's end, what it held. -/
theorem before_2 (c : Dev nD) (t : Fin cfg0.N) (d) : (dats m 0 c).before 2 t d = wBlk m c t d := by
  unfold Dat.before; rw [if_pos (fetch0_2 t)]; unfold Dat.fetched Dat.blockOf wBlk iblk; rw [A_eq]; try rfl

/-- The inputs' buffers are handed back as found: the logits and the labels at their blocks, -/
theorem leaves_0 (c : Dev nD) (t : Fin cfg0.N) :
    (dats m 0 c).leaves 0 t = owns (c : Thread nD τ) (ms0 t) fullShare (iblk m c 0 t) := by
  rw [← after0_0 m c t]
theorem leaves_1 (c : Dev nD) (t : Fin cfg0.N) :
    (dats m 0 c).leaves 1 t = owns (c : Thread nD τ) (ms1 t) fullShare (iblk m c 1 t) := by
  rw [← after0_1 m c t]

/-- the weight block at the block on its part inside the array, anything past it, -/
theorem leaves_2 (c : Dev nD) (t : Fin cfg0.N) :
    (dats m 0 c).leaves 2 t = iprop(∃ d, owns (c : Thread nD τ) (ms2 t) fullShare (wBlk m c t d)) := by
  have h : win0_2.cut (grid0.coords t) ((dats m 0 c).after 2 t) = iblk m c 2 t := by
    rw [after0_2]; exact win0_2.cut_fill _ _ _
  unfold wBlk; rw [← h]; rfl

/-- and the logits tile is stated on its columns inside the array. -/
theorem leaves_3 (c : Dev nD) (t : Fin cfg0.N) :
    (dats m 0 c).leaves 3 t = iprop(∃ d, owns (c : Thread nD τ) (ms3 t) fullShare
      (win0_3.fill (grid0.coords t) d (win0_3.cut (grid0.coords t)
        (tileOut (grid0.coords t) (scrIn m c t).xn (labBlk m c t) (wBlk m c t zfill))))) := by
  rw [← after0_3 m c t]; rfl

/-- The per-core results are idle except at a core's last tile, and written back only there. -/
theorem idle_4 (t : Fin cfg0.N) (h : ¬condLast (grid0.coords t)) : cfg0.idle 4 (grid0.coords t) = true := by
  show (!(k0_cond2 (grid0.coords t) == 1#1)) = true
  rw [Bool.not_eq_true', beq_eq_false_iff_ne]; exact h
theorem idle_5 (t : Fin cfg0.N) (h : ¬condLast (grid0.coords t)) : cfg0.idle 5 (grid0.coords t) = true := by
  show (!(k0_cond2 (grid0.coords t) == 1#1)) = true
  rw [Bool.not_eq_true', beq_eq_false_iff_ne]; exact h
theorem live_4 (t : Fin cfg0.N) (h : condLast (grid0.coords t)) : cfg0.idle 4 (grid0.coords t) = false := by
  show (!(k0_cond2 (grid0.coords t) == 1#1)) = false
  rw [Bool.not_eq_false', beq_iff_eq]; exact h
theorem live_5 (t : Fin cfg0.N) (h : condLast (grid0.coords t)) : cfg0.idle 5 (grid0.coords t) = false := by
  show (!(k0_cond2 (grid0.coords t) == 1#1)) = false
  rw [Bool.not_eq_false', beq_iff_eq]; exact h

theorem leaves_4_idle (c : Dev nD) (t : Fin cfg0.N) (h : ¬condLast (grid0.coords t)) (h9 : ¬t.val % 10 = 9) :
    (dats m 0 c).leaves 4 t = iprop(∃ d, owns (c : Thread nD τ) (ms4 t) fullShare ((dats m 0 c).before 4 t d)) :=
  Dat.leaves_idle (dats m 0 c) 4 t (idle_4 t h) (Bool.eq_false_iff.mpr fun hf => h9 ((flush0_4 t).mp hf))
theorem leaves_5_idle (c : Dev nD) (t : Fin cfg0.N) (h : ¬condLast (grid0.coords t)) (h9 : ¬t.val % 10 = 9) :
    (dats m 0 c).leaves 5 t = iprop(∃ d, owns (c : Thread nD τ) (ms5 t) fullShare ((dats m 0 c).before 5 t d)) :=
  Dat.leaves_idle (dats m 0 c) 5 t (idle_5 t h) (Bool.eq_false_iff.mpr fun hf => h9 ((flush0_5 t).mp hf))
theorem leaves_4_live (c : Dev nD) (t : Fin cfg0.N) (h : condLast (grid0.coords t)) :
    (dats m 0 c).leaves 4 t = owns (c : Thread nD τ) (ms4 t) fullShare (lseOut (scrAt m c t.val t.isLt)) := by
  rw [← after0_4 m c t]; unfold Dat.leaves; rw [live_4 t h]
theorem leaves_5_live (c : Dev nD) (t : Fin cfg0.N) (h : condLast (grid0.coords t)) :
    (dats m 0 c).leaves 5 t = owns (c : Thread nD τ) (ms5 t) fullShare (lvOut (scrAt m c t.val t.isLt)) := by
  rw [← after0_5 m c t]; unfold Dat.leaves; rw [live_5 t h]

/-! ## The filler past the array's end does not matter -/

/-- The logits tile's columns the write-back moves are inside the array: valid class columns. -/
theorem clip_3 : ∀ t : Fin cfg0.N, tileNo (grid0.coords t) * 2560 + win0_3.xsize (grid0.coords t) ⟨1, by decide⟩ ≤ 50000 :=
  (by decide +kernel : ∀ t : Fin grid0.N, tileNo (grid0.coords t) * 2560 + win0_3.xsize (grid0.coords t) ⟨1, by decide⟩ ≤ 50000)

/-- The scratch a point leaves, whatever filled the weight block past the array's end. -/
theorem scr_step (c : Dev nD) (t : Fin cfg0.N) (d : Vec Ideal S2560x512 .f32) :
    scrNext (grid0.coords t) (labBlk m c t) (wBlk m c t d) (scrIn m c t) = scrAt m c t.val t.isLt := by
  rw [scrAt_eq]
  exact scrNext_congr _ _ _ _ _ fun j k hv => wBlk_agree m c t d zfill j k hv

/-- The stored tile on the columns its write-back moves, whatever filled the weight block past the array's end. -/
theorem cut_tile (c : Dev nD) (t : Fin cfg0.N) (xn : Vec Ideal S512x512 .f32) (lab : Vec Ideal S512x1 .i32)
    (d : Vec Ideal S2560x512 .f32) :
    win0_3.cut (grid0.coords t) (tileOut (F := Ideal) (grid0.coords t) xn lab (wBlk m c t d))
      = win0_3.cut (grid0.coords t) (tileOut (F := Ideal) (grid0.coords t) xn lab (wBlk m c t zfill)) := by
  funext j
  obtain ⟨p, q, hpq, hq⟩ : ∃ (p : Fin 512) (q : Fin 2560),
      (win0_3.xinj (grid0.coords t) j : (⟨2, ![512, 2560]⟩ : Shape).Idx) = ix2 p q
        ∧ q.val < win0_3.xsize (grid0.coords t) ⟨1, (by decide : 1 < 2)⟩ :=
    ⟨_, _, eq_ix2 _, (j ⟨1, (by decide : 1 < 2)⟩).isLt⟩
  have hv : colOf (grid0.coords t) q < 50000 := by
    have h2 := clip_3 t
    unfold colOf; omega
  show tileOut (F := Ideal) (grid0.coords t) xn lab (wBlk m c t d) (win0_3.xinj (grid0.coords t) j)
    = tileOut (F := Ideal) (grid0.coords t) xn lab (wBlk m c t zfill) (win0_3.xinj (grid0.coords t) j)
  rw [hpq]
  exact tileOut_congr _ xn lab _ _ (fun j' k hv' => wBlk_agree m c t d zfill j' k hv') p q hv

/-! ## The body obligation -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

set_option maxHeartbeats 1600000 in
/-- The body at a middle tile: the scratch is what the point before left; the per-core results pass through. -/
theorem sound_middle (c : Dev nD) (t : Fin cfg0.N) (h0 : ¬t.val % 10 = 0) (h9 : ¬t.val % 10 = 9) :
    bodyPre m c t ⊢ wp frame (wpE (defs₀ (F := Ideal)) Variants.none c none) Set.univ (bodyAt0 t) (fun _ => bodyPost m c t) := by
  have hc0 : ¬condFirst (grid0.coords t) := fun h => h0 ((condFirst_iff t).mp h)
  have hc1 : ¬condLast (grid0.coords t) := fun h => h9 ((condLast_iff t).mp h)
  have hS := scr_step m c t
  have hT := cut_tile m c t (scrIn m c t).xn (labBlk m c t)
  unfold bodyPre bodyPost bodyAt0
  simp only [before_0, before_1, before_2]
  rw [show (dats m 0 c).owesAt () t.succ = (dats m 0 c).owesAt () t.castSucc from rfl]
  rw [Phi_succ m c t, Phi_castSucc_in m c t h0]
  rw [leaves_0, leaves_1, leaves_2, leaves_3, leaves_4_idle m c t hc1 h9, leaves_5_idle m c t hc1 h9]
  unfold scrOwn
  iintro ⟨⟨⟨HX, HM, HL, HLv⟩, Hg⟩, Ho, ⟨%d0, H0⟩, ⟨%d1, H1⟩, ⟨%d2, H2⟩, ⟨%d3, H3⟩, ⟨%d4, H4⟩, ⟨%d5, H5⟩⟩
  iapply (runMiddle (F := Ideal) c (grid0.coords t) (ms0 t) (hs0 t) (ms1 t) (hs1 t) (ms2 t) (hs2 t) (ms3 t) (hs3 t) (ms4 t) (hs4 t) (ms5 t) (hs5 t)
    scXn (Memref.isWhole_whole _) scM (Memref.isWhole_whole _) scL (Memref.isWhole_whole _) scLv (Memref.isWhole_whole _) hc0 hc1
    (xBlk m c t) (labBlk m c t) (wBlk m c t d2) ((dats m 0 c).before 3 t d3) ((dats m 0 c).before 4 t d4) ((dats m 0 c).before 5 t d5)
    (scrIn m c t) Set.univ _)
  isplitl [H0]; · iexact H0
  isplitl [H1]; · iexact H1
  isplitl [H2]; · iexact H2
  isplitl [H3]; · iexact H3
  isplitl [H4]; · iexact H4
  isplitl [H5]; · iexact H5
  isplitl [HX]; · iexact HX
  isplitl [HM]; · iexact HM
  isplitl [HL]; · iexact HL
  isplitl [HLv]; · iexact HLv
  iintro ⟨H0, H1, H2, H3, H4, H5, HX, HM, HL, HLv⟩
  rw [hS d2]
  isplitl [HX HM HL HLv Hg]
  · isplitl [HX HM HL HLv]
    · isplitl [HX]; · iexact HX
      isplitl [HM]; · iexact HM
      isplitl [HL]; · iexact HL
      iexact HLv
    iexact Hg
  isplitl [Ho]; · iexact Ho
  isplitl [H0]; · iexact H0
  isplitl [H1]; · iexact H1
  isplitl [H2]; · iexists d2; iexact H2
  isplitl [H3]
  · iexists (tileOut (grid0.coords t) (scrIn m c t).xn (labBlk m c t) (wBlk m c t d2))
    rw [← hT d2, Window.fill_cut]; iexact H3
  isplitl [H4]; · iexists d4; iexact H4
  iexists d5; iexact H5

set_option maxHeartbeats 1600000 in
/-- The body at a core's last tile: as at a middle tile, and the per-core results are stored. -/
theorem sound_last (c : Dev nD) (t : Fin cfg0.N) (h0 : ¬t.val % 10 = 0) (h9 : t.val % 10 = 9) :
    bodyPre m c t ⊢ wp frame (wpE (defs₀ (F := Ideal)) Variants.none c none) Set.univ (bodyAt0 t) (fun _ => bodyPost m c t) := by
  have hc0 : ¬condFirst (grid0.coords t) := fun h => h0 ((condFirst_iff t).mp h)
  have hc1 : condLast (grid0.coords t) := (condLast_iff t).mpr h9
  have hS := scr_step m c t
  have hT := cut_tile m c t (scrIn m c t).xn (labBlk m c t)
  unfold bodyPre bodyPost bodyAt0
  simp only [before_0, before_1, before_2]
  rw [show (dats m 0 c).owesAt () t.succ = (dats m 0 c).owesAt () t.castSucc from rfl]
  rw [Phi_succ m c t, Phi_castSucc_in m c t h0]
  rw [leaves_0, leaves_1, leaves_2, leaves_3, leaves_4_live m c t hc1, leaves_5_live m c t hc1]
  unfold scrOwn
  iintro ⟨⟨⟨HX, HM, HL, HLv⟩, Hg⟩, Ho, ⟨%d0, H0⟩, ⟨%d1, H1⟩, ⟨%d2, H2⟩, ⟨%d3, H3⟩, ⟨%d4, H4⟩, ⟨%d5, H5⟩⟩
  iapply (runLast (F := Ideal) c (grid0.coords t) (ms0 t) (hs0 t) (ms1 t) (hs1 t) (ms2 t) (hs2 t) (ms3 t) (hs3 t) (ms4 t) (hs4 t) (ms5 t) (hs5 t)
    scXn (Memref.isWhole_whole _) scM (Memref.isWhole_whole _) scL (Memref.isWhole_whole _) scLv (Memref.isWhole_whole _) hc0 hc1
    (xBlk m c t) (labBlk m c t) (wBlk m c t d2) ((dats m 0 c).before 3 t d3) ((dats m 0 c).before 4 t d4) ((dats m 0 c).before 5 t d5)
    (scrIn m c t) Set.univ _)
  isplitl [H0]; · iexact H0
  isplitl [H1]; · iexact H1
  isplitl [H2]; · iexact H2
  isplitl [H3]; · iexact H3
  isplitl [H4]; · iexact H4
  isplitl [H5]; · iexact H5
  isplitl [HX]; · iexact HX
  isplitl [HM]; · iexact HM
  isplitl [HL]; · iexact HL
  isplitl [HLv]; · iexact HLv
  iintro ⟨H0, H1, H2, H3, H4, H5, HX, HM, HL, HLv⟩
  rw [hS d2]
  isplitl [HX HM HL HLv Hg]
  · isplitl [HX HM HL HLv]
    · isplitl [HX]; · iexact HX
      isplitl [HM]; · iexact HM
      isplitl [HL]; · iexact HL
      iexact HLv
    iexact Hg
  isplitl [Ho]; · iexact Ho
  isplitl [H0]; · iexact H0
  isplitl [H1]; · iexact H1
  isplitl [H2]; · iexists d2; iexact H2
  isplitl [H3]
  · iexists (tileOut (grid0.coords t) (scrIn m c t).xn (labBlk m c t) (wBlk m c t d2))
    rw [← hT d2, Window.fill_cut]; iexact H3
  isplitl [H4]; · iexact H4
  iexact H5

set_option maxHeartbeats 1600000 in
/-- The body at a core's first tile: the scratch holds anything and is reset; the per-core results pass through. -/
theorem sound_first (c : Dev nD) (t : Fin cfg0.N) (h0 : t.val % 10 = 0) (h9 : ¬t.val % 10 = 9) :
    bodyPre m c t ⊢ wp frame (wpE (defs₀ (F := Ideal)) Variants.none c none) Set.univ (bodyAt0 t) (fun _ => bodyPost m c t) := by
  have hc0 : condFirst (grid0.coords t) := (condFirst_iff t).mpr h0
  have hc1 : ¬condLast (grid0.coords t) := fun h => h9 ((condLast_iff t).mp h)
  have hin : scrIn m c t = scrReset (xBlk m c t) := by unfold scrIn; rw [if_pos h0]
  have hS := scr_step m c t
  have hT := cut_tile m c t (scrIn m c t).xn (labBlk m c t)
  rw [hin] at hS hT
  unfold bodyPre bodyPost bodyAt0
  simp only [before_0, before_1, before_2]
  rw [show (dats m 0 c).owesAt () t.succ = (dats m 0 c).owesAt () t.castSucc from rfl]
  rw [Phi_succ m c t]
  rw [leaves_0, leaves_1, leaves_2, leaves_3, leaves_4_idle m c t hc1 h9, leaves_5_idle m c t hc1 h9, hin]
  unfold scrOwn
  iintro ⟨HP, Ho, ⟨%d0, H0⟩, ⟨%d1, H1⟩, ⟨%d2, H2⟩, ⟨%d3, H3⟩, ⟨%d4, H4⟩, ⟨%d5, H5⟩⟩
  icases (Phi_any m c t) $$ HP with ⟨%s, ⟨HX, HM, HL, HLv⟩, Hg⟩
  iapply (runFirst (F := Ideal) c (grid0.coords t) (ms0 t) (hs0 t) (ms1 t) (hs1 t) (ms2 t) (hs2 t) (ms3 t) (hs3 t) (ms4 t) (hs4 t) (ms5 t) (hs5 t)
    scXn (Memref.isWhole_whole _) scM (Memref.isWhole_whole _) scL (Memref.isWhole_whole _) scLv (Memref.isWhole_whole _) hc0 hc1
    (xBlk m c t) (labBlk m c t) (wBlk m c t d2) ((dats m 0 c).before 3 t d3) ((dats m 0 c).before 4 t d4) ((dats m 0 c).before 5 t d5)
    s Set.univ _)
  isplitl [H0]; · iexact H0
  isplitl [H1]; · iexact H1
  isplitl [H2]; · iexact H2
  isplitl [H3]; · iexact H3
  isplitl [H4]; · iexact H4
  isplitl [H5]; · iexact H5
  isplitl [HX]; · iexact HX
  isplitl [HM]; · iexact HM
  isplitl [HL]; · iexact HL
  isplitl [HLv]; · iexact HLv
  iintro ⟨H0, H1, H2, H3, H4, H5, HX, HM, HL, HLv⟩
  rw [hS d2]
  isplitl [HX HM HL HLv Hg]
  · isplitl [HX HM HL HLv]
    · isplitl [HX]; · iexact HX
      isplitl [HM]; · iexact HM
      isplitl [HL]; · iexact HL
      iexact HLv
    iexact Hg
  isplitl [Ho]; · iexact Ho
  isplitl [H0]; · iexact H0
  isplitl [H1]; · iexact H1
  isplitl [H2]; · iexists d2; iexact H2
  isplitl [H3]
  · iexists (tileOut (grid0.coords t) (scrReset (xBlk m c t)).xn (labBlk m c t) (wBlk m c t d2))
    rw [← hT d2, Window.fill_cut]; iexact H3
  isplitl [H4]; · iexists d4; iexact H4
  iexists d5; iexact H5

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 10 = 0
  · exact sound_first m c t h0 (by omega)
  · by_cases h9 : t.val % 10 = 9
    · exact sound_last m c t h0 h9
    · exact sound_middle m c t h0 h9

/-- The library's body obligation, at every point (the loose windows stated on the part their transfers move). -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the scratch's named contents are forgotten. -/
theorem hout (c : Dev nD) : (dats m 0 c).Φ (Fin.last cfg0.N) ⊢ Pipeline.ΦA spec0 c := by
  have hN : cfg0.N = 20 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  unfold scrOwn
  iintro ⟨⟨HX, HM, HL, HLv⟩, Hg⟩
  isplitl [HX HM HL HLv]
  · isplitl [HX]; · iexists _; iexact HX
    isplitl [HM]; · iexists _; iexact HM
    isplitl [HL]; · iexists _; iexact HL
    iexists _; iexact HLv
  iexact Hg

/-! ## The run -/

set_option backward.isDefEq.respectTransparency.types false in
/-- The run of the idealized kernel's @main to the frame post over the proof data. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post: the three argument arrays end as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KStateBits.lean ====
/-
  One grid point of the kernel as a function. The kernel keeps four scratch arrays across the ten class tiles a core
  visits: the normalised logits, and per batch row the running maximum, the running sum of exponentials and the
  running true-label logit. At a core's first tile they are reset (maximum -inf, sums 0, the logits normalised); at
  every tile the cosine tile is formed, the margin applied at the label's column, the tile scaled and stored, and the
  three running quantities updated by the online soft-max recurrence; at a core's last tile the row-wise
  log-sum-exp  m + log l  and the true-label logit are stored to the two per-core results.
  Everything here is stated over the generated payload terms (the body's arithmetic, one pure term per store).
-/
import proofs.«409471_j56487409877363_2_alg».proof.Proof.Gen.Kernel.Skeleton

noncomputable section

namespace Cert.Kernel.Hand

open Cert.Kernel Cert.Kernel.Gen Idealize.ShloMosaic Idealize.SL.Sem

variable {F : FTy → Type} [FloatOps F]

/-- The four scratch arrays: normalised logits, running maximum, running sum, running true-label logit. -/
structure Scr (F : FTy → Type) [FloatOps F] where
  xn : Vec F S512x512 .f32
  m : Vec F S512x1 .f32
  l : Vec F S512x1 .f32
  lv : Vec F S512x1 .f32

/-- A core's first tile: the tile coordinate is 0 (the body's first conditional, as the kernel computes it). -/
abbrev condFirst (i : grid0.Coords) : Prop :=
  (Scalar.cmpi .ne (Scalar.extui (Scalar.cmpi .eq (BitVec.ofNat 32 (i 1).val) 0#32)) 0#32) = 1#1
/-- A core's last tile: the tile coordinate is 9 (the body's second conditional). -/
abbrev condLast (i : grid0.Coords) : Prop := k0_cond2 i = 1#1

/-- The constant one the margin's clip uses. -/
abbrev oneF : F .f32 := Scalar.ofBits .f32 0x3F800000#32

/-- The scratch after the reset at a core's first tile: logits normalised, maximum -inf, sums zero. -/
def scrReset (x : Vec F S512x512 .f32) : Scr F := ⟨k0_pay8 x, k0_pay5, k0_pay6, k0_pay7⟩

/-- The scaled logits tile the point stores: cosine, margin at the label's column, times the scale. -/
def tileOut (i : grid0.Coords) (xn : Vec F S512x512 .f32) (lab : Vec F S512x1 .i32) (w : Vec F S2560x512 .f32) : FVec F S512x2560 .f32 :=
  k0_pay15 (k0_pay9 xn w) (k0_pay12 i lab) (k0_pay13 i xn w lab) oneF (k0_pay14 i xn w lab)

/-- The running maximum after the tile. -/
def mNew (i : grid0.Coords) (xn : Vec F S512x512 .f32) (lab : Vec F S512x1 .i32) (w : Vec F S2560x512 .f32) (m : Vec F S512x1 .f32) : FVec F S512x1 .f32 :=
  k0_pay17 (k0_pay9 xn w) (k0_pay11 i) (k0_pay12 i lab) (k0_pay13 i xn w lab) oneF (k0_pay14 i xn w lab) m

/-- The running sum of exponentials after the tile. -/
def lNew (i : grid0.Coords) (xn : Vec F S512x512 .f32) (lab : Vec F S512x1 .i32) (w : Vec F S2560x512 .f32) (m l : Vec F S512x1 .f32) : FVec F S512x1 .f32 :=
  k0_pay18 (k0_pay9 xn w) (k0_pay11 i) (k0_pay12 i lab) (k0_pay13 i xn w lab) oneF (k0_pay14 i xn w lab) m m l

/-- The running true-label logit after the tile. -/
def lvNew (i : grid0.Coords) (xn : Vec F S512x512 .f32) (lab : Vec F S512x1 .i32) (w : Vec F S2560x512 .f32) (lv : Vec F S512x1 .f32) : FVec F S512x1 .f32 :=
  k0_pay1 (k0_pay12 i lab) (tileOut i xn lab w) lv

/-- The scratch after the tile's arithmetic, from the scratch the arithmetic found (after the reset, at a first tile). -/
def scrNext (i : grid0.Coords) (lab : Vec F S512x1 .i32) (w : Vec F S2560x512 .f32) (s : Scr F) : Scr F :=
  ⟨s.xn, k0_pay2 (mNew i s.xn lab w s.m), lNew i s.xn lab w s.m s.l, lvNew i s.xn lab w s.lv⟩

/-- What a core's last tile stores to the two per-core results: the log-sum-exp  m + log l,  and the true-label logit. -/
def lseOut (s : Scr F) : FVec F S1x512x1 .f32 := k0_pay3 s.m s.l
def lvOut (s : Scr F) : FVec F S1x512x1 .f32 := k0_pay4 s.lv

end Cert.Kernel.Hand

end
-- ==== Proof.KRunsBits.lean ====
/-
  The kernel body run once, in each of the three situations a grid point can be in: a core's first class tile (the
  scratch is reset before the tile's arithmetic), a middle tile, and a core's last tile (the two per-core results are
  stored after it). In each the body, started with every staging and scratch buffer it is passed held whole at known
  contents, runs to its end without fault and leaves: the three inputs as they were; the logits tile's buffer at the
  scaled tile; the four scratch buffers at the online soft-max update of what the arithmetic found; and the two
  per-core result buffers untouched, or, at a last tile, at the log-sum-exp and the true-label logit.
-/
import proofs.«409471_j56487409877363_2_alg».proof.Proof.KStateBits
import proofs.«409471_j56487409877363_2_alg».proof.Proof.Gen.Kernel.Launch
import proofs.«409471_j56487409877363_2_alg».proof.Proof.Gen.Kernel.Points
import Idealize.ShloMosaic.Lib.Pipeline.FrameBody
import Idealize.ShloMosaic.Lib.Ring
import Idealize.ShloMosaic.Lib.WholeRead
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Whole-buffer loads and stores

Every access of the body is through the rectangle that is all of its buffer. A load of a buffer held at the raw
contents that read `X` then reads `X`; and after a store, whatever was stored before it, the buffer reads the
payload, and so does a later load. -/

section Whole

variable {sig' : RefSig} {Val : EltTy → Type} {κ : Kind} {sp : Space} {S : Shape} {e : EltTy}

/-- A load of all of a whole buffer held at the raw contents that read `X` reads `X`. -/
private theorem readAt_all_unread {m : Memref sig' κ sp S e} (h : m.IsWhole) {off : Fin S.rank → ℕ} (hz : off = fun _ => 0)
    (inb : ∀ a, off a + S.size a ≤ S.size a) (X : S.Idx → Val e) :
    View.readAt Val m.view (Rect.unit off S.size inb).toLoadRect (h.unread X) = X := by
  funext y
  rw [h.readAt_unread]
  exact congrFun (View.ld_unit_zero hz inb X) y

/-- After a store of all of the buffer, whatever was stored before, the buffer reads the payload. -/
private theorem read_writes_all [∀ e, Nonempty (Val e)] (v : View sig' κ sp S e) (f : v.ty.Contents Val) {off : Fin S.rank → ℕ}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hz inb y⟩),
    View.canon_cons_unit_zero hz inb w L]

end Whole

/-- The offsets of every access: zero on both axes, and on all three of a per-core result. -/
private theorem zeros2 : (![0, 0] : Fin 2 → ℕ) = fun _ => 0 := funext fun a => by fin_cases a <;> rfl
private theorem zeros3 : (![0, 0, 0] : Fin 3 → ℕ) = fun _ => 0 := funext fun a => by fin_cases a <;> rfl

/-! ## The payloads at what the loads read

The body's stores are the generated payload terms at the values its loads return. Each load returns the contents the
buffer is held at (or the payload stored just before), so each store's payload is the transition of `KState` at those
contents. -/

section Payloads

variable {i : grid0.Coords} {a8 xn : Vec F S512x512 .f32} {a3 lab : Vec F S512x1 .i32} {a4 w : Vec F S2560x512 .f32}
  {a9 a9' m a10 l a11 lv : Vec F S512x1 .f32}

private theorem tileOut_at (h8 : a8 = xn) (h3 : a3 = lab) (h4 : a4 = w) :
    k0_pay15 (k0_pay9 a8 a4) (k0_pay12 i a3) (k0_pay13 i a8 a4 a3) oneF (k0_pay14 i a8 a4 a3) = tileOut i xn lab w := by
  subst h8 h3 h4; rfl

private theorem mNew_at (h8 : a8 = xn) (h3 : a3 = lab) (h4 : a4 = w) (h9 : a9 = m) :
    k0_pay2 (k0_pay17 (k0_pay9 a8 a4) (k0_pay11 i) (k0_pay12 i a3) (k0_pay13 i a8 a4 a3) oneF (k0_pay14 i a8 a4 a3) a9)
      = k0_pay2 (mNew i xn lab w m) := by
  subst h8 h3 h4 h9; rfl

private theorem lNew_at (h8 : a8 = xn) (h3 : a3 = lab) (h4 : a4 = w) (h9 : a9 = m) (h9' : a9' = m) (h10 : a10 = l) :
    k0_pay18 (k0_pay9 a8 a4) (k0_pay11 i) (k0_pay12 i a3) (k0_pay13 i a8 a4 a3) oneF (k0_pay14 i a8 a4 a3) a9 a9' a10
      = lNew i xn lab w m l := by
  subst h8 h3 h4 h9 h9' h10; rfl

private theorem lvNew_at (h8 : a8 = xn) (h3 : a3 = lab) (h4 : a4 = w) (h11 : a11 = lv) :
    k0_pay1 (k0_pay12 i a3) (k0_pay15 (k0_pay9 a8 a4) (k0_pay12 i a3) (k0_pay13 i a8 a4 a3) oneF (k0_pay14 i a8 a4 a3)) a11
      = lvNew i xn lab w lv := by
  subst h8 h3 h4 h11; rfl

private theorem lseOut_at {t : Scr F} {a b : Vec F S512x1 .f32} (ha : a = t.m) (hb : b = t.l) : k0_pay3 a b = lseOut t := by
  subst ha hb; rfl

private theorem lvOut_at {t : Scr F} {a : Vec F S512x1 .f32} (ha : a = t.lv) : k0_pay4 a = lvOut t := by
  subst ha; rfl

end Payloads

/-- A core's first tile: the reset, then the tile's arithmetic on the reset scratch; the per-core results untouched. -/
theorem runFirst (c : Dev nD) (i : grid0.Coords) (arg2 : Memref sig .tc .vmem S512x512 .f32) (harg2 : arg2.IsWhole) (arg3 : Memref sig .tc .vmem S512x1 .i32) (harg3 : arg3.IsWhole) (arg4 : Memref sig .tc .vmem S2560x512 .f32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : condFirst i) (hc1 : ¬condLast i)
    (x : Vec F S512x512 .f32) (lab : Vec F S512x1 .i32) (w : Vec F S2560x512 .f32)
    (o3 : Vec F S512x2560 .f32) (o4 o5 : Vec F S1x512x1 .f32) (s : Scr F) (E : Set ℕ) (K : PUnit → sProp 𝕄) :
    iprop(owns (c : Thread nD τ) arg2 fullShare x ∗ owns (c : Thread nD τ) arg3 fullShare lab ∗ owns (c : Thread nD τ) arg4 fullShare w
          ∗ owns (c : Thread nD τ) arg5 fullShare o3 ∗ owns (c : Thread nD τ) arg6 fullShare o4 ∗ owns (c : Thread nD τ) arg7 fullShare o5
          ∗ owns (c : Thread nD τ) arg8 fullShare s.xn ∗ owns (c : Thread nD τ) arg9 fullShare s.m ∗ owns (c : Thread nD τ) arg10 fullShare s.l ∗ owns (c : Thread nD τ) arg11 fullShare s.lv
          ∗ (iprop(owns (c : Thread nD τ) arg2 fullShare x ∗ owns (c : Thread nD τ) arg3 fullShare lab ∗ owns (c : Thread nD τ) arg4 fullShare w
              ∗ owns (c : Thread nD τ) arg5 fullShare (tileOut i (scrReset x).xn lab w) ∗ owns (c : Thread nD τ) arg6 fullShare o4 ∗ owns (c : Thread nD τ) arg7 fullShare o5
              ∗ owns (c : Thread nD τ) arg8 fullShare (scrNext i lab w (scrReset x)).xn ∗ owns (c : Thread nD τ) arg9 fullShare (scrNext i lab w (scrReset x)).m
              ∗ owns (c : Thread nD τ) arg10 fullShare (scrNext i lab w (scrReset x)).l ∗ owns (c : Thread nD τ) arg11 fullShare (scrNext i lab w (scrReset x)).lv) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
  -- the body is its sequence of memory operations over the payloads; each buffer's raw contents are those that read
  -- the contents it is held at
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  -- the run: the reset taken, the per-core stores skipped
  sl_exec (disch := first | exact hc0 | exact hc1)
  sl_step
  iapply Hk
  -- what the loads read: the inputs' contents, and of the scratch the reset just stored
  have hr2 : View.readAt (Elt F) arg2.view (Rect.unit (s := S512x512) ![0, 0] S512x512.size inb_S512x512_S512x512_0_0).toLoadRect (harg2.unread x) = x :=
    readAt_all_unread harg2 zeros2 _ _
  have hr3 : View.readAt (Elt F) arg3.view (Rect.unit (s := S512x1) ![0, 0] S512x1.size inb_S512x1_S512x1_0_0).toLoadRect (harg3.unread lab) = lab :=
    readAt_all_unread harg3 zeros2 _ _
  have hr4 : View.readAt (Elt F) arg4.view (Rect.unit (s := S2560x512) ![0, 0] S2560x512.size inb_S2560x512_S2560x512_0_0).toLoadRect (harg4.unread w) = w :=
    readAt_all_unread harg4 zeros2 _ _
  have hc8 : _ = (scrReset x).xn :=
    (View.readCov_unit_zero (Val := Elt F) (S := S512x512) arg8.view zeros2 inb_S512x512_S512x512_0_0 _).trans (congrArg k0_pay8 hr2)
  have hc9 : _ = (scrReset x).m := View.readCov_unit_zero (Val := Elt F) (S := S512x1) arg9.view zeros2 inb_S512x1_S512x1_0_0 (k0_pay5 (F := F))
  have hc10 : _ = (scrReset x).l := View.readCov_unit_zero (Val := Elt F) (S := S512x1) arg10.view zeros2 inb_S512x1_S512x1_0_0 (k0_pay6 (F := F))
  have hc11 : _ = (scrReset x).lv := View.readCov_unit_zero (Val := Elt F) (S := S512x1) arg11.view zeros2 inb_S512x1_S512x1_0_0 (k0_pay7 (F := F))
  -- each buffer handed back: an untouched one at what it held, a stored one at the last payload stored into it
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    on_goal 2 => iexact H5
    ipureintro
    exact (read_writes_all (S := S512x2560) _ _ zeros2 _ _ _).trans (tileOut_at hc8 hr3 hr4)
  isplitl [H6]
  · iexists _; isplitr; · ipureintro; exact harg6.read_unread _
    iexact H6
  isplitl [H7]
  · iexists _; isplitr; · ipureintro; exact harg7.read_unread _
    iexact H7
  isplitl [H8]
  · iexists _; isplitr
    on_goal 2 => iexact H8
    ipureintro
    exact (read_writes_all (S := S512x512) _ _ zeros2 _ _ _).trans (congrArg k0_pay8 hr2)
  isplitl [H9]
  · iexists _; isplitr
    on_goal 2 => iexact H9
    ipureintro
    exact (read_writes_all (S := S512x1) _ _ zeros2 _ _ _).trans (mNew_at hc8 hr3 hr4 hc9)
  isplitl [H10]
  · iexists _; isplitr
    on_goal 2 => iexact H10
    ipureintro
    exact (read_writes_all (S := S512x1) _ _ zeros2 _ _ _).trans (lNew_at hc8 hr3 hr4 hc9 hc9 hc10)
  iexists _; isplitr
  on_goal 2 => iexact H11
  ipureintro
  exact (read_writes_all (S := S512x1) _ _ zeros2 _ _ _).trans (lvNew_at hc8 hr3 hr4 hc11)

/-- A middle tile: the tile's arithmetic on the scratch as found; the per-core results untouched. -/
theorem runMiddle (c : Dev nD) (i : grid0.Coords) (arg2 : Memref sig .tc .vmem S512x512 .f32) (harg2 : arg2.IsWhole) (arg3 : Memref sig .tc .vmem S512x1 .i32) (harg3 : arg3.IsWhole) (arg4 : Memref sig .tc .vmem S2560x512 .f32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬condFirst i) (hc1 : ¬condLast i)
    (x : Vec F S512x512 .f32) (lab : Vec F S512x1 .i32) (w : Vec F S2560x512 .f32)
    (o3 : Vec F S512x2560 .f32) (o4 o5 : Vec F S1x512x1 .f32) (s : Scr F) (E : Set ℕ) (K : PUnit → sProp 𝕄) :
    iprop(owns (c : Thread nD τ) arg2 fullShare x ∗ owns (c : Thread nD τ) arg3 fullShare lab ∗ owns (c : Thread nD τ) arg4 fullShare w
          ∗ owns (c : Thread nD τ) arg5 fullShare o3 ∗ owns (c : Thread nD τ) arg6 fullShare o4 ∗ owns (c : Thread nD τ) arg7 fullShare o5
          ∗ owns (c : Thread nD τ) arg8 fullShare s.xn ∗ owns (c : Thread nD τ) arg9 fullShare s.m ∗ owns (c : Thread nD τ) arg10 fullShare s.l ∗ owns (c : Thread nD τ) arg11 fullShare s.lv
          ∗ (iprop(owns (c : Thread nD τ) arg2 fullShare x ∗ owns (c : Thread nD τ) arg3 fullShare lab ∗ owns (c : Thread nD τ) arg4 fullShare w
              ∗ owns (c : Thread nD τ) arg5 fullShare (tileOut i (s).xn lab w) ∗ owns (c : Thread nD τ) arg6 fullShare o4 ∗ owns (c : Thread nD τ) arg7 fullShare o5
              ∗ owns (c : Thread nD τ) arg8 fullShare (scrNext i lab w (s)).xn ∗ owns (c : Thread nD τ) arg9 fullShare (scrNext i lab w (s)).m
              ∗ owns (c : Thread nD τ) arg10 fullShare (scrNext i lab w (s)).l ∗ owns (c : Thread nD τ) arg11 fullShare (scrNext i lab w (s)).lv) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
  -- the body is its sequence of memory operations over the payloads; each buffer's raw contents are those that read
  -- the contents it is held at
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  -- the run: the reset skipped, the per-core stores skipped
  sl_exec (disch := first | exact hc0 | exact hc1)
  sl_step
  iapply Hk
  -- what the loads read: the contents each buffer is held at
  have hr3 : View.readAt (Elt F) arg3.view (Rect.unit (s := S512x1) ![0, 0] S512x1.size inb_S512x1_S512x1_0_0).toLoadRect (harg3.unread lab) = lab :=
    readAt_all_unread harg3 zeros2 _ _
  have hr4 : View.readAt (Elt F) arg4.view (Rect.unit (s := S2560x512) ![0, 0] S2560x512.size inb_S2560x512_S2560x512_0_0).toLoadRect (harg4.unread w) = w :=
    readAt_all_unread harg4 zeros2 _ _
  have hr8 : View.readAt (Elt F) arg8.view (Rect.unit (s := S512x512) ![0, 0] S512x512.size inb_S512x512_S512x512_0_0).toLoadRect (harg8.unread s.xn) = s.xn :=
    readAt_all_unread harg8 zeros2 _ _
  have hr9 : View.readAt (Elt F) arg9.view (Rect.unit (s := S512x1) ![0, 0] S512x1.size inb_S512x1_S512x1_0_0).toLoadRect (harg9.unread s.m) = s.m :=
    readAt_all_unread harg9 zeros2 _ _
  have hr10 : View.readAt (Elt F) arg10.view (Rect.unit (s := S512x1) ![0, 0] S512x1.size inb_S512x1_S512x1_0_0).toLoadRect (harg10.unread s.l) = s.l :=
    readAt_all_unread harg10 zeros2 _ _
  have hr11 : View.readAt (Elt F) arg11.view (Rect.unit (s := S512x1) ![0, 0] S512x1.size inb_S512x1_S512x1_0_0).toLoadRect (harg11.unread s.lv) = s.lv :=
    readAt_all_unread harg11 zeros2 _ _
  -- each buffer handed back: an untouched one at what it held, a stored one at the last payload stored into it
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    on_goal 2 => iexact H5
    ipureintro
    exact (read_writes_all (S := S512x2560) _ _ zeros2 _ _ _).trans (tileOut_at hr8 hr3 hr4)
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    on_goal 2 => iexact H9
    ipureintro
    exact (read_writes_all (S := S512x1) _ _ zeros2 _ _ _).trans (mNew_at hr8 hr3 hr4 hr9)
  isplitl [H10]
  · iexists _; isplitr
    on_goal 2 => iexact H10
    ipureintro
    exact (read_writes_all (S := S512x1) _ _ zeros2 _ _ _).trans (lNew_at hr8 hr3 hr4 hr9 hr9 hr10)
  iexists _; isplitr
  on_goal 2 => iexact H11
  ipureintro
  exact (read_writes_all (S := S512x1) _ _ zeros2 _ _ _).trans (lvNew_at hr8 hr3 hr4 hr11)

/-- A core's last tile: the tile's arithmetic on the scratch as found, then the log-sum-exp and the true-label logit stored to the per-core results. -/
theorem runLast (c : Dev nD) (i : grid0.Coords) (arg2 : Memref sig .tc .vmem S512x512 .f32) (harg2 : arg2.IsWhole) (arg3 : Memref sig .tc .vmem S512x1 .i32) (harg3 : arg3.IsWhole) (arg4 : Memref sig .tc .vmem S2560x512 .f32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬condFirst i) (hc1 : condLast i)
    (x : Vec F S512x512 .f32) (lab : Vec F S512x1 .i32) (w : Vec F S2560x512 .f32)
    (o3 : Vec F S512x2560 .f32) (o4 o5 : Vec F S1x512x1 .f32) (s : Scr F) (E : Set ℕ) (K : PUnit → sProp 𝕄) :
    iprop(owns (c : Thread nD τ) arg2 fullShare x ∗ owns (c : Thread nD τ) arg3 fullShare lab ∗ owns (c : Thread nD τ) arg4 fullShare w
          ∗ owns (c : Thread nD τ) arg5 fullShare o3 ∗ owns (c : Thread nD τ) arg6 fullShare o4 ∗ owns (c : Thread nD τ) arg7 fullShare o5
          ∗ owns (c : Thread nD τ) arg8 fullShare s.xn ∗ owns (c : Thread nD τ) arg9 fullShare s.m ∗ owns (c : Thread nD τ) arg10 fullShare s.l ∗ owns (c : Thread nD τ) arg11 fullShare s.lv
          ∗ (iprop(owns (c : Thread nD τ) arg2 fullShare x ∗ owns (c : Thread nD τ) arg3 fullShare lab ∗ owns (c : Thread nD τ) arg4 fullShare w
              ∗ owns (c : Thread nD τ) arg5 fullShare (tileOut i (s).xn lab w) ∗ owns (c : Thread nD τ) arg6 fullShare (lseOut (scrNext i lab w s)) ∗ owns (c : Thread nD τ) arg7 fullShare (lvOut (scrNext i lab w s))
              ∗ owns (c : Thread nD τ) arg8 fullShare (scrNext i lab w (s)).xn ∗ owns (c : Thread nD τ) arg9 fullShare (scrNext i lab w (s)).m
              ∗ owns (c : Thread nD τ) arg10 fullShare (scrNext i lab w (s)).l ∗ owns (c : Thread nD τ) arg11 fullShare (scrNext i lab w (s)).lv) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
  -- the body is its sequence of memory operations over the payloads; each buffer's raw contents are those that read
  -- the contents it is held at
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  -- the run: the reset skipped, the per-core stores taken
  sl_exec (disch := first | exact hc0 | exact hc1)
  sl_step
  iapply Hk
  -- what the loads read: the contents each buffer is held at, and, for the per-core results, the scratch just updated
  have hr3 : View.readAt (Elt F) arg3.view (Rect.unit (s := S512x1) ![0, 0] S512x1.size inb_S512x1_S512x1_0_0).toLoadRect (harg3.unread lab) = lab :=
    readAt_all_unread harg3 zeros2 _ _
  have hr4 : View.readAt (Elt F) arg4.view (Rect.unit (s := S2560x512) ![0, 0] S2560x512.size inb_S2560x512_S2560x512_0_0).toLoadRect (harg4.unread w) = w :=
    readAt_all_unread harg4 zeros2 _ _
  have hr8 : View.readAt (Elt F) arg8.view (Rect.unit (s := S512x512) ![0, 0] S512x512.size inb_S512x512_S512x512_0_0).toLoadRect (harg8.unread s.xn) = s.xn :=
    readAt_all_unread harg8 zeros2 _ _
  have hr9 : View.readAt (Elt F) arg9.view (Rect.unit (s := S512x1) ![0, 0] S512x1.size inb_S512x1_S512x1_0_0).toLoadRect (harg9.unread s.m) = s.m :=
    readAt_all_unread harg9 zeros2 _ _
  have hr10 : View.readAt (Elt F) arg10.view (Rect.unit (s := S512x1) ![0, 0] S512x1.size inb_S512x1_S512x1_0_0).toLoadRect (harg10.unread s.l) = s.l :=
    readAt_all_unread harg10 zeros2 _ _
  have hr11 : View.readAt (Elt F) arg11.view (Rect.unit (s := S512x1) ![0, 0] S512x1.size inb_S512x1_S512x1_0_0).toLoadRect (harg11.unread s.lv) = s.lv :=
    readAt_all_unread harg11 zeros2 _ _
  have hv90 : _ = (scrNext i lab w s).m :=
    (View.readCov_unit_zero (Val := Elt F) (S := S512x1) arg9.view zeros2 inb_S512x1_S512x1_0_0 _).trans (mNew_at hr8 hr3 hr4 hr9)
  have hv91 : _ = (scrNext i lab w s).l :=
    (View.readCov_unit_zero (Val := Elt F) (S := S512x1) arg10.view zeros2 inb_S512x1_S512x1_0_0 _).trans (lNew_at hr8 hr3 hr4 hr9 hr9 hr10)
  have hv97 : _ = (scrNext i lab w s).lv :=
    (View.readCov_unit_zero (Val := Elt F) (S := S512x1) arg11.view zeros2 inb_S512x1_S512x1_0_0 _).trans (lvNew_at hr8 hr3 hr4 hr11)
  -- each buffer handed back: an untouched one at what it held, a stored one at the last payload stored into it
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    on_goal 2 => iexact H5
    ipureintro
    exact (read_writes_all (S := S512x2560) _ _ zeros2 _ _ _).trans (tileOut_at hr8 hr3 hr4)
  isplitl [H6]
  · iexists _; isplitr
    on_goal 2 => iexact H6
    ipureintro
    exact (read_writes_all (S := S1x512x1) _ _ zeros3 _ _ _).trans (lseOut_at hv90 hv91)
  isplitl [H7]
  · iexists _; isplitr
    on_goal 2 => iexact H7
    ipureintro
    exact (read_writes_all (S := S1x512x1) _ _ zeros3 _ _ _).trans (lvOut_at hv97)
  isplitl [H8]
  · iexists _; isplitr; · ipureintro; exact harg8.read_unread _
    iexact H8
  isplitl [H9]
  · iexists _; isplitr
    on_goal 2 => iexact H9
    ipureintro
    exact (read_writes_all (S := S512x1) _ _ zeros2 _ _ _).trans (mNew_at hr8 hr3 hr4 hr9)
  isplitl [H10]
  · iexists _; isplitr
    on_goal 2 => iexact H10
    ipureintro
    exact (read_writes_all (S := S512x1) _ _ zeros2 _ _ _).trans (lNew_at hr8 hr3 hr4 hr9 hr9 hr10)
  iexists _; isplitr
  on_goal 2 => iexact H11
  ipureintro
  exact (read_writes_all (S := S512x1) _ _ zeros2 _ _ _).trans (lvNew_at hr8 hr3 hr4 hr11)

end Cert.Kernel.Hand

end
-- ==== Proof.KFrameBits.lean ====
/-
  The word-level kernel keeps its arguments: at any float family, from any memory, every weakly fair execution of
  its @main terminates without fault and ends with the three argument arrays as they were.
  Nothing is said of the values the kernel computes. The three result windows (the logits tile and the two per-core
  results) are handed to the body at some contents and taken back at some contents; the four scratch arrays are held
  by the region invariant at some contents and given back at some contents. The inputs are named: the logits and the
  label column sit in their one staging buffer from the first point on, and the weight block, whose last tile
  overhangs the array, arrives at every point as the array's block filled out past the array's end with whatever the
  buffer held, and is handed back as it came (the body only reads it). At a point the body is in one of three
  situations — a core's first class tile, a middle tile, its last tile — and in each its run (KRunsBits.lean), given
  the contents at hand, returns every buffer at some contents. After the region the host lines write only buffers of
  their own, so the label argument, which bypasses the region, ends as it began.
-/
import proofs.«409471_j56487409877363_2_alg».proof.Proof.KRunsBits
import proofs.«409471_j56487409877363_2_alg».proof.Proof.Gen.Kernel.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The three result windows: nothing is said of what the body leaves in them. -/
def forgets0 : Fin 6 → Bool := fun | 0 => false | 1 => false | 2 => false | 3 => true | 4 => true | 5 => true | ⟨_ + 6, h⟩ => absurd h (Nat.not_lt.2 (Nat.le_add_left _ _))

/-- The proof data on core c: the arrays as the region finds them; after the body at a point the logits and the label
    column at their blocks, the weight block at the array's block filled out past the array's end (with contents
    nothing reads), the three result windows unnamed; the invariant the scratch arrays at some contents and the
    generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => win0_2.fill (grid0.coords t) (Pipeline.Dat.unnamed (cfg := cfg0) ⟨2, h⟩ t) (iblk m c 2 t)
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) (Pipeline.Dat.unnamed (cfg := cfg0) 2 t) (iblk m c 2 t) := by
  dsimp only [dats]; rfl

/-- The logits' and the label column's staging buffers hold their blocks at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- The weight block's buffer, fetched at every point, holds the array's block on the rows inside the array and
    what it held before elsewhere. -/
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]

/-- The region invariant opened: the four scratch arrays each at some contents, the generator register at some state. -/
theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
        ∗ (∃ r, prngReg c r)) := by
  unfold Pipeline.ΦA; rw [scopedRest0_eq]; simp only [owns_whole]; try rfl

/-! ## Which situation a point is in -/

/-- A point is a core's first tile when its position is ≡ 0 (mod 10) — decided over the grid. -/
theorem hcondFirst : ∀ t : Fin cfg0.N, condFirst (grid0.coords t) ↔ t.val % 10 = 0 :=
  (by decide +kernel : ∀ t : Fin grid0.N, condFirst (grid0.coords t) ↔ t.val % 10 = 0)
/-- A point is a core's last tile when its position is ≡ 9 (mod 10). -/
theorem hcondLast : ∀ t : Fin cfg0.N, condLast (grid0.coords t) ↔ t.val % 10 = 9 :=
  (by decide +kernel : ∀ t : Fin grid0.N, condLast (grid0.coords t) ↔ t.val % 10 = 9)

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X)
    ∗ (∃ X, owns (c : Thread nD τ) (st0_5 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (grid0.coords t) d ((cfg0.win 2).cut (grid0.coords t) ((dats m 0 c).after 2 t))))
    ∗ (∃ X, owns (c : Thread nD τ) (st0_3 t) fullShare X)
    ∗ (∃ X, owns (c : Thread nD τ) (st0_4 t) fullShare X)
    ∗ (∃ X, owns (c : Thread nD τ) (st0_5 t) fullShare X))

set_option maxHeartbeats 1600000 in
/-- The body at any point: the inputs' buffers hold their blocks, the result windows and the scratch arrays hold
    something; the point is a first, a middle or a last tile, and that situation's run applies to the contents at
    hand; what comes back is each input as it was and everything else at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  have hcut : (cfg0.win 2).cut (grid0.coords t) ((dats m 0 c).after 2 t) = iblk m c 2 t := by
    rw [after0_2]; exact win0_2.cut_fill _ _ _
  rw [hcut]
  have hN : t.val < 20 := lt_of_lt_of_eq t.isLt (show cfg0.N = 20 from N_0)
  by_cases h0 : t.val % 10 = 0
  · have h1 : ¬ t.val % 10 = 9 := by omega
    iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%X3, H3⟩, ⟨%X4, H4⟩, ⟨%X5, H5⟩⟩
    iapply (runFirst c (grid0.coords t) _ _ _ _ _ _ _ _ _ _ _ _ _ _ _ _ _ _ _ _ ((hcondFirst t).mpr h0) (fun h => h1 ((hcondLast t).mp h))
      (iblk m c 0 t) (iblk m c 1 t) (win0_2.fill (grid0.coords t) d2 (iblk m c 2 t)) X3 X4 X5 ⟨s0, s1, s2, s3⟩ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexists d2; iexact H2
    isplitl [H3]; · iexists _; iexact H3
    isplitl [H4]; · iexists _; iexact H4
    iexists _; iexact H5
  · by_cases h1 : t.val % 10 = 9
    · iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%X3, H3⟩, ⟨%X4, H4⟩, ⟨%X5, H5⟩⟩
      iapply (runLast c (grid0.coords t) _ _ _ _ _ _ _ _ _ _ _ _ _ _ _ _ _ _ _ _ (fun h => h0 ((hcondFirst t).mp h)) ((hcondLast t).mpr h1)
        (iblk m c 0 t) (iblk m c 1 t) (win0_2.fill (grid0.coords t) d2 (iblk m c 2 t)) X3 X4 X5 ⟨s0, s1, s2, s3⟩ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitl [HS0 HS1 HS2 HS3]
        · isplitl [HS0]; · iexists _; iexact HS0
          isplitl [HS1]; · iexists _; iexact HS1
          isplitl [HS2]; · iexists _; iexact HS2
          iexists _; iexact HS3
        iexact Hg
      isplitl [Ho]; · iexact Ho
      isplitl [H0]; · iexact H0
      isplitl [H1]; · iexact H1
      isplitl [H2]; · iexists d2; iexact H2
      isplitl [H3]; · iexists _; iexact H3
      isplitl [H4]; · iexists _; iexact H4
      iexists _; iexact H5
    · iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%X3, H3⟩, ⟨%X4, H4⟩, ⟨%X5, H5⟩⟩
      iapply (runMiddle c (grid0.coords t) _ _ _ _ _ _ _ _ _ _ _ _ _ _ _ _ _ _ _ _ (fun h => h0 ((hcondFirst t).mp h)) (fun h => h1 ((hcondLast t).mp h))
        (iblk m c 0 t) (iblk m c 1 t) (win0_2.fill (grid0.coords t) d2 (iblk m c 2 t)) X3 X4 X5 ⟨s0, s1, s2, s3⟩ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitl [HS0 HS1 HS2 HS3]
        · isplitl [HS0]; · iexists _; iexact HS0
          isplitl [HS1]; · iexists _; iexact HS1
          isplitl [HS2]; · iexists _; iexact HS2
          iexists _; iexact HS3
        iexact Hg
      isplitl [Ho]; · iexact Ho
      isplitl [H0]; · iexact H0
      isplitl [H1]; · iexact H1
      isplitl [H2]; · iexists d2; iexact H2
      isplitl [H3]; · iexists _; iexact H3
      isplitl [H4]; · iexists _; iexact H4
      iexists _; iexact H5

/-- The library's body obligation, at every point, the three result windows forgotten. -/
theorem body_obligation (c : Dev nD) : BodyObligationLoose (dats (F := F) m 0 c) (defs₀ (F := F)) Variants.none () Set.univ forgets0 := fun t => by
  rw [bigSep_W0, bigSep_W0]
  exact sound_body m c t

/-! ## The run and the frame -/

/-- The buffers the host lines after the region may write: any but the label argument. -/
def T0 : Finset (Ref sig .tc) := Finset.univ.erase main_arg1

/-- No host line after the region writes the label argument. -/
theorem hostOps1_keeps_arg1 : ∀ op ∈ (hostOps1 : List (HloOp τ sig (Elt F))), Proc.devRef .tc main_arg1 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- So every buffer they write is in T0. -/
theorem sfx_T : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  subst hops
  refine Finset.mem_erase.mpr ⟨?_, Finset.mem_univ _⟩
  rintro rfl
  exact hostOps1_keeps_arg1 op hop hb

set_option backward.isDefEq.respectTransparency.types false in
/-- From any memory with zero counters every weakly fair execution of @main terminates, and ends with every input array
    of the pipeline at its region-entry contents and every buffer that bypasses the region and that the later host
    lines do not write at its region-entry contents. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_T)
    (hmain := hmain m Variants.none) (hA := A_eq m) (hΦ := fun _ _ => rfl)

/-- The run's post read at the three arguments: the logits and the weights are input arrays of the pipeline, which end
    at their entry contents; the labels bypass the region (the region reads a reshaped copy) and no later host line
    writes them. -/
theorem args_of_post (r : PUnit × MemSt nD τ sig (Elt F))
    (h : Pipeline.RDat.FramePostR (cfgs 0) (fun c => (dats m 0 c).toRForget forgets0) T0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h0 := Pipeline.RDat.FramePostR.arr_in h c (0 : Fin cfg0.W) rfl
  have h2 := Pipeline.RDat.FramePostR.arr_in h c (2 : Fin cfg0.W) rfl
  have h1 := (h c).2 main_arg1 (Finset.mem_sdiff.mpr ⟨Pipeline.mem_restRefs_of main_arg1 (by decide) (by decide),
    fun hmem => (Finset.mem_erase.mp hmem).1 rfl⟩)
  exact ⟨h0.trans ((A_eq m c 0).trans (V_main_arg0 m c)), h1.trans (V_main_arg1 m c), h2.trans ((A_eq m c 2).trans (V_main_arg2 m c))⟩

/-- The frame: the three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_of_post m r h c) (run_main m ρ)

end Cert.Kernel.Hand

end
-- ==== Proof.KEntry.lean ====
/-
  A valid lane of the tile a grid point stores is the specification's scaled logit: at point t, batch row r, lane j
  with  2560 t + j < 50000,  the stored entry is  outv r (2560 t + j)  of the three argument arrays — the normalised
  logits the point finds are the logits over their rows' clamped norms, its labels block is the label vector, and its
  weight block's row j is the weight array's row 2560 t + j.
-/
import proofs.«409471_j56487409877363_2_alg».proof.Proof.KData
import proofs.«409471_j56487409877363_2_alg».proof.Proof.KBlocks
import proofs.«409471_j56487409877363_2_alg».proof.Proof.KRead
import proofs.«409471_j56487409877363_2_alg».proof.Proof.KReadUpd
import proofs.«409471_j56487409877363_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ)

/-- The reset scratch's normalised logits, off the logits array: every point's logits block is the whole array. -/
theorem reset_xn (c : Dev nD) (t : Fin cfg0.N) (r k : Fin 512) :
    (scrReset (F := Ideal) (xBlk m c t)).xn (ix2 r k)
      = Ideal.div (argX m c (ix2 r k)) (Cert.Arc.nrm fun k' => argX m c (ix2 r k')) := by
  rw [scrReset_xn, xBlk_apply]
  congr 2
  funext k'
  exact xBlk_apply m c t r k'

/-- The transition keeps the normalised logits, so after every point they are the reset's. -/
theorem scrAt_xn (c : Dev nD) : ∀ (n : ℕ) (hn : n < cfg0.N) (r k : Fin 512),
    (scrAt m c n hn).xn (ix2 r k) = Ideal.div (argX m c (ix2 r k)) (Cert.Arc.nrm fun k' => argX m c (ix2 r k'))
  | 0, hn, r, k => by
    show (scrReset (F := Ideal) (xBlk m c ⟨0, hn⟩)).xn (ix2 r k) = _
    exact reset_xn m c ⟨0, hn⟩ r k
  | n + 1, hn, r, k => by
    rw [scrAt]
    show (if (n + 1) % 10 = 0 then scrReset (F := Ideal) (xBlk m c ⟨n + 1, hn⟩) else scrAt m c n (Nat.lt_of_succ_lt hn)).xn (ix2 r k) = _
    by_cases h : (n + 1) % 10 = 0
    · rw [if_pos h]; exact reset_xn m c ⟨n + 1, hn⟩ r k
    · rw [if_neg h]; exact scrAt_xn c n (Nat.lt_of_succ_lt hn) r k

/-- The normalised logits every point's arithmetic finds: the logits divided by their rows' clamped norms. -/
theorem scrIn_xn (c : Dev nD) (t : Fin cfg0.N) (r k : Fin 512) :
    (scrIn m c t).xn (ix2 r k) = Ideal.div (argX m c (ix2 r k)) (Cert.Arc.nrm fun k' => argX m c (ix2 r k')) := by
  unfold scrIn
  by_cases h : t.val % 10 = 0
  · rw [if_pos h]; exact reset_xn m c t r k
  · rw [if_neg h]; exact scrAt_xn m c _ _ r k

/-- The stored tile at a valid lane is the specification's entry: the cosine is taken of the normalised logits row
    against the weight row  2560 t + j  divided by its clamped norm, and the margin applied where the row's label is
    that column. -/
theorem tile_entry (c : Dev nD) (t : Fin cfg0.N) (r : Fin 512) (j : Fin 2560) (hv : t.val * 2560 + j.val < 50000) :
    tileOut (F := Ideal) (grid0.coords t) (scrIn m c t).xn (labBlk m c t) (wBlk m c t zfill) (ix2 r j)
      = Cert.Arc.outv (argX m c) (argLab m c) (argW m c) r ⟨t.val * 2560 + j.val, hv⟩ := by
  have hc : colOf (grid0.coords t) j = t.val * 2560 + j.val := by unfold colOf; rw [tileNo_coords]
  have hcos : cosT (scrIn m c t).xn (wBlk m c t zfill) r j
      = Cert.Arc.cosv (argX m c) (argW m c) r ⟨t.val * 2560 + j.val, hv⟩ := by
    have hrow : brow (wBlk m c t zfill) j = Cert.Arc.wrow (argW m c) ⟨t.val * 2560 + j.val, hv⟩ := by
      funext k
      exact wBlk_apply m c t zfill j k hv
    unfold cosT Cert.Arc.cosv
    refine Finset.sum_congr rfl fun k _ => ?_
    rw [scrIn_xn, hrow]
    rfl
  rw [tileOut_apply _ _ _ _ r j (by rw [hc]; exact hv), labBlk_apply, hc, hcos]
  rfl

end Cert.KernelIdeal.Hand

end
-- ==== Proof.KOut.lean ====
/-
  The kernel's first result. The logits-tile window writes its block back at every point: point t's block covers the
  class columns 2560 t … 2560 t + 2559, cut at the array's end (the last block keeps its first 1360 columns), so the
  twenty blocks tile the [512, 50000] array, and after the last write-back entry (r, c) holds what point c / 2560 left
  at lane c % 2560: the scaled logit of the specification.
-/
import proofs.«409471_j56487409877363_2_alg».proof.Proof.KData
import proofs.«409471_j56487409877363_2_alg».proof.Proof.KBlocks
import proofs.«409471_j56487409877363_2_alg».proof.Proof.KRead
import proofs.«409471_j56487409877363_2_alg».proof.Proof.KReadUpd
import proofs.«409471_j56487409877363_2_alg».proof.Proof.KEntry
import proofs.«409471_j56487409877363_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ)

/-! ## From the blocks to the array -/

/-- The logits-tile window's index map and cuts, decided over the grid: point t's block is block (0, t); it keeps all
    512 rows, and of its 2560 columns those below the array's end (all of them before the last point, 1360 at it). -/
theorem tile_idx : ∀ t : Fin cfg0.N, win0_3.index t (0 : Fin 2) = 0 ∧ win0_3.index t (1 : Fin 2) = t.val
    ∧ win0_3.xsize (grid0.coords t) (0 : Fin 2) = 512
    ∧ t.val * 2560 + win0_3.xsize (grid0.coords t) (1 : Fin 2) ≤ 50000
    ∧ (t.val < 19 → win0_3.xsize (grid0.coords t) (1 : Fin 2) = 2560)
    ∧ (t.val = 19 → win0_3.xsize (grid0.coords t) (1 : Fin 2) = 1360) :=
  (by decide +kernel : ∀ t : Fin grid0.N, _)

/-- The specification's entry depends on its row and column through their values. -/
theorem outv_congr (x : Cert.Arc.SX.Idx → EReal) (lab : Cert.Arc.SL.Idx → BitVec 32) (w : Cert.Arc.SW.Idx → EReal)
    {r r' : Fin 512} {c c' : Fin 50000} (hr : r.val = r'.val) (hc : c.val = c'.val) :
    Cert.Arc.outv x lab w r c = Cert.Arc.outv x lab w r' c' := by
  obtain rfl := Fin.ext hr
  obtain rfl := Fin.ext hc
  rfl

/-- What point t writes back is its block of the specification's scaled logits: lane (r, q) of the cut block sits at
    array index (r, 2560 t + q), a column inside the array, where the stored tile holds the specification's entry. -/
theorem tile_flushed (c : Dev nD) (t : Fin cfg0.N) :
    (dats m 0 c).flushed 3 t
      = ((cfg0.win 3).blk t).view.read (Elt Ideal) (Cert.Arc.outSpec (argX m c) (argLab m c) (argW m c)) := by
  show (cfg0.win 3).cut (grid0.coords t) ((dats m 0 c).after 3 t) = _
  rw [after0_3]
  obtain ⟨e0, e1, x0, x1, -, -⟩ := tile_idx t
  funext j
  have hj0 : (j 0).val < 512 := lt_of_lt_of_le (j 0).isLt (win0_3.xsize_le (grid0.coords t) 0)
  have hj1 : (j 1).val < 2560 := lt_of_lt_of_le (j 1).isLt (win0_3.xsize_le (grid0.coords t) 1)
  have hjx : (j 1).val < win0_3.xsize (grid0.coords t) (1 : Fin 2) := (j 1).isLt
  have hcol : t.val * 2560 + (j 1).val < 50000 := by omega
  have hL : (win0_3.xinj (grid0.coords t) j : S512x2560.Idx) = ix2 ⟨(j 0).val, hj0⟩ ⟨(j 1).val, hj1⟩ := by
    funext a
    match a with
    | ⟨0, _⟩ => rfl
    | ⟨1, _⟩ => rfl
  have h0 : ((((cfg0.win 3).blk t).view.emb j) 0).val = (j 0).val := by
    show win0_3.index t (0 : Fin 2) * 512 + 1 * (j 0).val = (j 0).val
    omega
  have h1 : ((((cfg0.win 3).blk t).view.emb j) 1).val = t.val * 2560 + (j 1).val := by
    show win0_3.index t (1 : Fin 2) * 2560 + 1 * (j 1).val = t.val * 2560 + (j 1).val
    omega
  show tileOut (F := Ideal) (grid0.coords t) (scrIn m c t).xn (labBlk m c t) (wBlk m c t zfill) (win0_3.xinj (grid0.coords t) j)
      = Cert.Arc.outSpec (argX m c) (argLab m c) (argW m c) (((cfg0.win 3).blk t).view.emb j)
  refine (congrArg (tileOut (F := Ideal) (grid0.coords t) (scrIn m c t).xn (labBlk m c t) (wBlk m c t zfill)) hL).trans ?_
  refine (tile_entry m c t ⟨(j 0).val, hj0⟩ ⟨(j 1).val, hj1⟩ hcol).trans ?_
  exact outv_congr _ _ _ h0.symm h1.symm

/-- An index of the array is in point t's block iff each coordinate is in the block's kept range on its axis. -/
theorem mem_tile (t : Fin cfg0.N) (i : S512x50000.Idx) :
    i ∈ ((cfg0.win 3).blk t).view.set ↔ ∀ a : Fin 2, win0_3.index t a * S512x2560.size a ≤ (i a).val
      ∧ (i a).val < win0_3.index t a * S512x2560.size a + win0_3.xsize (grid0.coords t) a := by
  show i ∈ ((View.whole main_v0_0).slice (win0_3.rect t)).set ↔ _
  rw [View.set_slice_whole, Rect.mem_set_unit]
  exact Iff.rfl

/-- Every index of the array is in the block of the point its column's tile names: column c is lane c % 2560 of
    point c / 2560, inside that point's cut. -/
theorem tile_cover (i : S512x50000.Idx) :
    ∃ t : Fin cfg0.N, (cfg0.win 3).flush t = true ∧ i ∈ ((cfg0.win 3).blk t).view.set := by
  have hi0 : (i 0).val < 512 := (i 0).isLt
  have hi1 : (i 1).val < 50000 := (i 1).isLt
  have hN : cfg0.N = 20 := N_0
  refine ⟨⟨(i 1).val / 2560, by rw [hN]; omega⟩, flush0_3 _, ?_⟩
  rw [mem_tile]
  obtain ⟨e0, e1, x0, x1, xa, xb⟩ := tile_idx ⟨(i 1).val / 2560, by rw [hN]; omega⟩
  intro a
  match a with
  | ⟨0, _⟩ =>
    show win0_3.index _ (0 : Fin 2) * 512 ≤ (i 0).val ∧ (i 0).val < win0_3.index _ (0 : Fin 2) * 512 + win0_3.xsize _ (0 : Fin 2)
    rw [e0, x0]; omega
  | ⟨1, _⟩ =>
    show win0_3.index _ (1 : Fin 2) * 2560 ≤ (i 1).val ∧ (i 1).val < win0_3.index _ (1 : Fin 2) * 2560 + win0_3.xsize _ (1 : Fin 2)
    rw [e1]
    have e1' : (⟨(i 1).val / 2560, by rw [hN]; omega⟩ : Fin cfg0.N).val = (i 1).val / 2560 := rfl
    rw [e1'] at xa xb ⊢
    by_cases h19 : (i 1).val / 2560 < 19
    · rw [xa h19]; omega
    · rw [xb (by omega)]; omega

/-- The first result after the run: the specification's scaled logits. -/
theorem out_final (c : Dev nD) :
    (dats m 0 c).arrAt 3 cfg0.N = Cert.Arc.outSpec (argX m c) (argLab m c) (argW m c) :=
  (dats m 0 c).arrAt_eq_of_cover 3 _ (fun t _ => tile_flushed m c t) tile_cover

end Cert.KernelIdeal.Hand

end
-- ==== Proof.KParts.lean ====
/-
  The two per-core result arrays [2, 512, 1] after the run. Each is written back twice: core a's block (a, 0, 0), of
  one 512-row column, at the core's last tile, point 10 a + 9. So entry (a, r, 0) holds what that point left at row r:
  the log-sum-exp  m + log l  of the scratch after the point (first array), its true-label logit (second array).
-/
import proofs.«409471_j56487409877363_2_alg».proof.Proof.KData
import proofs.«409471_j56487409877363_2_alg».proof.Proof.KBlocks
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ)

/-- The point 10 a + 9 is a grid point. -/
theorem lastPt_lt (a : Fin 2) : 10 * a.val + 9 < cfg0.N := by
  have := a.isLt; show 10 * a.val + 9 < grid0.N; rw [N_0]; omega

/-- The scratch after a point does not depend on how the point's number is written. -/
theorem scrAt_congr (c : Dev nD) {n n' : ℕ} (h : n = n') (hn : n < cfg0.N) (hn' : n' < cfg0.N) :
    scrAt m c n hn = scrAt m c n' hn' := by
  subst h; rfl

/-- Window 4's block at point `t` is block (t / 10, 0, 0): the core's. -/
theorem blkIdx4 : ∀ t : Fin cfg0.N, win0_4.index t (0 : Fin 3) = t.val / 10 ∧ win0_4.index t (1 : Fin 3) = 0 ∧ win0_4.index t (2 : Fin 3) = 0 :=
  (by decide +kernel : ∀ t : Fin grid0.N, win0_4.index t (0 : Fin 3) = t.val / 10 ∧ win0_4.index t (1 : Fin 3) = 0 ∧ win0_4.index t (2 : Fin 3) = 0)

/-- The first per-core array as the write-backs leave it: entry (a, r, 0) is row r of what point 10 a + 9 stores. -/
def G4 (c : Dev nD) : S2x512x1.Idx → EReal := fun i =>
  lseOut (F := Ideal) (scrAt m c (10 * (i 0).val + 9) (lastPt_lt ⟨(i 0).val, (i 0).isLt⟩)) (ix3 0 ⟨(i 1).val, (i 1).isLt⟩ 0)

/-- What a core's last tile writes back is its block of that array. -/
theorem flushed4_eq (c : Dev nD) (t : Fin cfg0.N) (hf : (cfg0.win 4).flush t = true) :
    (dats m 0 c).flushed 4 t = ((cfg0.win 4).blk t).view.read (Elt Ideal) (G4 m c) := by
  have h9 : t.val % 10 = 9 := (flush0_4 t).mp hf
  obtain ⟨e0, e1, e2⟩ := blkIdx4 t
  show (cfg0.win 4).cut (grid0.coords t) ((dats m 0 c).after 4 t) = _
  rw [after0_4]
  funext j
  show lseOut (F := Ideal) (scrAt m c t.val t.isLt) j = G4 m c (((cfg0.win 4).blk t).view.emb j)
  unfold G4
  have hj0 : (j 0).val < 1 := (j 0).isLt
  have hj2 : (j 2).val < 1 := (j 2).isLt
  have q0 : ((((cfg0.win 4).blk t).view.emb j) 0).val = t.val / 10 := by
    show win0_4.index t (0 : Fin 3) * 1 + 1 * (j 0).val = _; omega
  have q1 : ((((cfg0.win 4).blk t).view.emb j) 1).val = (j 1).val := by
    show win0_4.index t (1 : Fin 3) * 512 + 1 * (j 1).val = _; omega
  rw [scrAt_congr m c (show 10 * ((((cfg0.win 4).blk t).view.emb j) 0).val + 9 = t.val by rw [q0]; omega) _ t.isLt]
  refine congrArg _ ?_
  funext a; apply Fin.ext
  match a with
  | ⟨0, _⟩ => show (j 0).val = 0; omega
  | ⟨1, _⟩ => show (j 1).val = ((((cfg0.win 4).blk t).view.emb j) 1).val; rw [q1]
  | ⟨2, _⟩ => show (j 2).val = 0; omega

/-- An index of the array is in point `t`'s block iff each coordinate is in the block's range on its axis. -/
theorem mem_blk4 (t : Fin cfg0.N) (i : S2x512x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_call0_v1_1).slice (win0_4.rect t)).set ↔ _
  rw [View.set_slice_whole, Rect.mem_set_unit]
  exact Iff.rfl

/-- The first per-core array: the log-sum-exp stored at the core's last tile. -/
theorem parts4 (c : Dev nD) (a : Fin 2) (r : Fin 512) :
    (dats m 0 c).arrAt 4 cfg0.N (ix3 a r 0) = lseOut (F := Ideal) (scrAt m c (10 * a.val + 9) (lastPt_lt a)) (ix3 0 r 0) := by
  have ha := a.isLt
  have hr := r.isLt
  obtain ⟨t0, ht0⟩ : ∃ t0 : Fin cfg0.N, t0.val = 10 * a.val + 9 := ⟨⟨_, lastPt_lt a⟩, rfl⟩
  have hf : (cfg0.win 4).flush t0 = true := (flush0_4 t0).mpr (by omega)
  have hmem : (ix3 a r 0 : S2x512x1.Idx) ∈ ((cfg0.win 4).blk t0).view.set := by
    rw [mem_blk4]
    obtain ⟨e0, e1, e2⟩ := blkIdx4 t0
    intro b
    match b with
    | ⟨0, _⟩ => show win0_4.index t0 (0 : Fin 3) * 1 ≤ a.val ∧ a.val < win0_4.index t0 (0 : Fin 3) * 1 + 1; omega
    | ⟨1, _⟩ => show win0_4.index t0 (1 : Fin 3) * 512 ≤ r.val ∧ r.val < win0_4.index t0 (1 : Fin 3) * 512 + 512; omega
    | ⟨2, _⟩ => show win0_4.index t0 (2 : Fin 3) * 1 ≤ 0 ∧ 0 < win0_4.index t0 (2 : Fin 3) * 1 + 1; omega
  rw [(dats m 0 c).arrAt_eq_piecewise 4 (G4 m c) (fun t hf => flushed4_eq m c t hf) (ix3 a r 0), if_pos ⟨t0, hf, hmem⟩]
  rfl

/-- Window 5's block at point `t` is block (t / 10, 0, 0): the core's. -/
theorem blkIdx5 : ∀ t : Fin cfg0.N, win0_5.index t (0 : Fin 3) = t.val / 10 ∧ win0_5.index t (1 : Fin 3) = 0 ∧ win0_5.index t (2 : Fin 3) = 0 :=
  (by decide +kernel : ∀ t : Fin grid0.N, win0_5.index t (0 : Fin 3) = t.val / 10 ∧ win0_5.index t (1 : Fin 3) = 0 ∧ win0_5.index t (2 : Fin 3) = 0)

/-- The second per-core array as the write-backs leave it: entry (a, r, 0) is row r of what point 10 a + 9 stores. -/
def G5 (c : Dev nD) : S2x512x1.Idx → EReal := fun i =>
  lvOut (F := Ideal) (scrAt m c (10 * (i 0).val + 9) (lastPt_lt ⟨(i 0).val, (i 0).isLt⟩)) (ix3 0 ⟨(i 1).val, (i 1).isLt⟩ 0)

/-- What a core's last tile writes back is its block of that array. -/
theorem flushed5_eq (c : Dev nD) (t : Fin cfg0.N) (hf : (cfg0.win 5).flush t = true) :
    (dats m 0 c).flushed 5 t = ((cfg0.win 5).blk t).view.read (Elt Ideal) (G5 m c) := by
  have h9 : t.val % 10 = 9 := (flush0_5 t).mp hf
  obtain ⟨e0, e1, e2⟩ := blkIdx5 t
  show (cfg0.win 5).cut (grid0.coords t) ((dats m 0 c).after 5 t) = _
  rw [after0_5]
  funext j
  show lvOut (F := Ideal) (scrAt m c t.val t.isLt) j = G5 m c (((cfg0.win 5).blk t).view.emb j)
  unfold G5
  have hj0 : (j 0).val < 1 := (j 0).isLt
  have hj2 : (j 2).val < 1 := (j 2).isLt
  have q0 : ((((cfg0.win 5).blk t).view.emb j) 0).val = t.val / 10 := by
    show win0_5.index t (0 : Fin 3) * 1 + 1 * (j 0).val = _; omega
  have q1 : ((((cfg0.win 5).blk t).view.emb j) 1).val = (j 1).val := by
    show win0_5.index t (1 : Fin 3) * 512 + 1 * (j 1).val = _; omega
  rw [scrAt_congr m c (show 10 * ((((cfg0.win 5).blk t).view.emb j) 0).val + 9 = t.val by rw [q0]; omega) _ t.isLt]
  refine congrArg _ ?_
  funext a; apply Fin.ext
  match a with
  | ⟨0, _⟩ => show (j 0).val = 0; omega
  | ⟨1, _⟩ => show (j 1).val = ((((cfg0.win 5).blk t).view.emb j) 1).val; rw [q1]
  | ⟨2, _⟩ => show (j 2).val = 0; omega

/-- An index of the array is in point `t`'s block iff each coordinate is in the block's range on its axis. -/
theorem mem_blk5 (t : Fin cfg0.N) (i : S2x512x1.Idx) :
    i ∈ ((cfg0.win 5).blk t).view.set ↔ ∀ a : Fin 3, win0_5.index t a * S1x512x1.size a ≤ (i a).val ∧ (i a).val < win0_5.index t a * S1x512x1.size a + S1x512x1.size a := by
  show i ∈ ((View.whole main_call0_v1_2).slice (win0_5.rect t)).set ↔ _
  rw [View.set_slice_whole, Rect.mem_set_unit]
  exact Iff.rfl

/-- The second per-core array: the true-label logit stored at the core's last tile. -/
theorem parts5 (c : Dev nD) (a : Fin 2) (r : Fin 512) :
    (dats m 0 c).arrAt 5 cfg0.N (ix3 a r 0) = lvOut (F := Ideal) (scrAt m c (10 * a.val + 9) (lastPt_lt a)) (ix3 0 r 0) := by
  have ha := a.isLt
  have hr := r.isLt
  obtain ⟨t0, ht0⟩ : ∃ t0 : Fin cfg0.N, t0.val = 10 * a.val + 9 := ⟨⟨_, lastPt_lt a⟩, rfl⟩
  have hf : (cfg0.win 5).flush t0 = true := (flush0_5 t0).mpr (by omega)
  have hmem : (ix3 a r 0 : S2x512x1.Idx) ∈ ((cfg0.win 5).blk t0).view.set := by
    rw [mem_blk5]
    obtain ⟨e0, e1, e2⟩ := blkIdx5 t0
    intro b
    match b with
    | ⟨0, _⟩ => show win0_5.index t0 (0 : Fin 3) * 1 ≤ a.val ∧ a.val < win0_5.index t0 (0 : Fin 3) * 1 + 1; omega
    | ⟨1, _⟩ => show win0_5.index t0 (1 : Fin 3) * 512 ≤ r.val ∧ r.val < win0_5.index t0 (1 : Fin 3) * 512 + 512; omega
    | ⟨2, _⟩ => show win0_5.index t0 (2 : Fin 3) * 1 ≤ 0 ∧ 0 < win0_5.index t0 (2 : Fin 3) * 1 + 1; omega
  rw [(dats m 0 c).arrAt_eq_piecewise 5 (G5 m c) (fun t hf => flushed5_eq m c t hf) (ix3 a r 0), if_pos ⟨t0, hf, hmem⟩]
  rfl

end Cert.KernelIdeal.Hand

end
-- ==== Proof.KTail.lean ====
/-
  The kernel's second result, read off the two per-core arrays and the host lines after the region. Each per-core
  array [2, 512, 1] is written twice: core a's block at its last tile, point 10 a + 9, with that point's log-sum-exp
  m + log l  and true-label logit. The host lines slice the two cores apart, merge the log-sum-exps by
  max + log1p (exp (-|difference|)), add the two label logits, subtract, and take the mean over the 512 rows.
-/
import proofs.«409471_j56487409877363_2_alg».proof.Proof.KData
import proofs.«409471_j56487409877363_2_alg».proof.Proof.KParts
import proofs.«409471_j56487409877363_2_alg».proof.Proof.Spec
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ)

/-- Core `a`'s final log-sum-exp and true-label logit at row `r`: what its last tile stored. -/
def lseCore (c : Dev nD) (a : Fin 2) (r : Fin 512) : EReal :=
  lseOut (F := Ideal) (scrAt m c (10 * a.val + 9) (by have := a.isLt; show 10 * a.val + 9 < grid0.N; rw [N_0]; omega)) (ix3 0 r 0)
def lvCore (c : Dev nD) (a : Fin 2) (r : Fin 512) : EReal :=
  lvOut (F := Ideal) (scrAt m c (10 * a.val + 9) (by have := a.isLt; show 10 * a.val + 9 < grid0.N; rw [N_0]; omega)) (ix3 0 r 0)

/-- One row's loss as the host lines compute it from the two cores' parts. -/
def rowMerged (c : Dev nD) (r : Fin 512) : EReal :=
  (max (lseCore m c 0 r) (lseCore m c 1 r)
      + Ideal.log1p (Ideal.exp (-(max (lseCore m c 0 r - lseCore m c 1 r) (-(lseCore m c 0 r - lseCore m c 1 r))))))
    - (lvCore m c 0 r + lvCore m c 1 r)

/-! ## The host lines after the region, as one function of the two per-core arrays -/

/-- Core 0's and core 1's slices of a per-core array [2, 512, 1], each as a column [512, 1]. -/
def part0 (L : FVec Ideal S2x512x1 .f32) : FVec Ideal S512x1 .f32 :=
  shapeCast S512x1 (extractStridedSlice S1x512x1 ![0, 0, 0] L slices_S2x512x1_S1x512x1_0_0_0) shapeCasts_S1x512x1_S512x1
def part1 (L : FVec Ideal S2x512x1 .f32) : FVec Ideal S512x1 .f32 :=
  shapeCast S512x1 (extractStridedSlice S1x512x1 ![1, 0, 0] L slices_S2x512x1_S1x512x1_1_0_0) shapeCasts_S1x512x1_S512x1

theorem part0_apply (L : FVec Ideal S2x512x1 .f32) (r : Fin 512) : part0 L (ix2 r 0) = L (ix3 0 r 0) := by
  unfold part0
  rw [shapeCast_apply _ shapeCasts_S1x512x1_S512x1 (ix2 r (0 : Fin 1)) (ix3 (0 : Fin 1) r (0 : Fin 1))
    (by rewrite [Shape.rowMajor_val_three, Shape.rowMajor_val_two]; show (0 * 512 + r.val) * 1 + 0 = r.val * 1 + 0; omega)]
  exact extractStridedSlice_apply _ L slices_S2x512x1_S1x512x1_0_0_0 (ix3 (0 : Fin 1) r (0 : Fin 1)) (ix3 (0 : Fin 2) r (0 : Fin 1))
    (fun a => by
      match a with
      | ⟨0, _⟩ => rfl
      | ⟨1, _⟩ => show r.val = 0 + r.val; omega
      | ⟨2, _⟩ => rfl)

theorem part1_apply (L : FVec Ideal S2x512x1 .f32) (r : Fin 512) : part1 L (ix2 r 0) = L (ix3 1 r 0) := by
  unfold part1
  rw [shapeCast_apply _ shapeCasts_S1x512x1_S512x1 (ix2 r (0 : Fin 1)) (ix3 (0 : Fin 1) r (0 : Fin 1))
    (by rewrite [Shape.rowMajor_val_three, Shape.rowMajor_val_two]; show (0 * 512 + r.val) * 1 + 0 = r.val * 1 + 0; omega)]
  exact extractStridedSlice_apply _ L slices_S2x512x1_S1x512x1_1_0_0 (ix3 (0 : Fin 1) r (0 : Fin 1)) (ix3 (1 : Fin 2) r (0 : Fin 1))
    (fun a => by
      match a with
      | ⟨0, _⟩ => rfl
      | ⟨1, _⟩ => show r.val = 0 + r.val; omega
      | ⟨2, _⟩ => rfl)

/-- One row of the host lines: the two cores' log-sum-exps merged by max + log1p (exp (-|difference|)), minus the sum of
    the two cores' label logits. -/
def mergedRow (L4 L5 : FVec Ideal S2x512x1 .f32) (r : Fin 512) : EReal :=
  (max (L4 (ix3 0 r 0)) (L4 (ix3 1 r 0))
      + Ideal.log1p (Ideal.exp (-(max (L4 (ix3 0 r 0) - L4 (ix3 1 r 0)) (-(L4 (ix3 0 r 0) - L4 (ix3 1 r 0)))))))
    - (L5 (ix3 0 r 0) + L5 (ix3 1 r 0))

/-- The host lines up to the column of row losses. The select's guard compares the difference with itself for
    inequality: over the extended reals nothing differs from itself, so the merged branch is always taken. -/
def tailCol (L4 L5 : FVec Ideal S2x512x1 .f32) : FVec Ideal S512x1 .f32 :=
  subf
    (select (cmpf .une (subf (part0 L4) (part1 L4)) (subf (part0 L4) (part1 L4)))
      (addf (part0 L4) (part1 L4))
      (addf (maximumf (part0 L4) (part1 L4))
        (Host.log1p (Host.exp (Host.negf (Host.absf (subf (part0 L4) (part1 L4))))))))
    (addf (part0 L5) (part1 L5))

theorem cmp_une_self (z : EReal) : Ideal.cmp .une z z = 0#1 := by
  unfold Ideal.cmp; simp

theorem tailCol_apply (L4 L5 : FVec Ideal S2x512x1 .f32) (r : Fin 512) : tailCol L4 L5 (ix2 r 0) = mergedRow L4 L5 r := by
  show Scalar.select (Ideal.cmp .une (part0 L4 (ix2 r 0) - part1 L4 (ix2 r 0)) (part0 L4 (ix2 r 0) - part1 L4 (ix2 r 0)))
      (part0 L4 (ix2 r 0) + part1 L4 (ix2 r 0))
      (max (part0 L4 (ix2 r 0)) (part1 L4 (ix2 r 0))
        + Ideal.log1p (Ideal.exp (-(max (part0 L4 (ix2 r 0) - part1 L4 (ix2 r 0)) (-(part0 L4 (ix2 r 0) - part1 L4 (ix2 r 0)))))))
      - (part0 L5 (ix2 r 0) + part1 L5 (ix2 r 0)) = _
  rw [cmp_une_self, select_zero, part0_apply, part1_apply, part0_apply, part1_apply]
  rfl

/-- The host lines whole: the column reshaped to a vector, summed from zero, divided by 512. -/
def tailFn (L4 L5 : FVec Ideal S2x512x1 .f32) : FVec Ideal S_ .f32 :=
  Host.divf
    (Host.reduceAdd (shapeCast S512 (tailCol L4 L5) shapeCasts_S512x1_S512) (constant (F := Ideal) S_ .f32 0x00000000#32)
      reducesTo_S512_S_d0 h_S_)
    (constant (F := Ideal) S_ .f32 0x44000000#32)

theorem tailFn_eq (L4 L5 : FVec Ideal S2x512x1 .f32) :
    tailFn L4 L5 = fun _ => Ideal.div (∑ r : Fin 512, mergedRow L4 L5 r) Cert.Arc.c512 := by
  funext i
  show Ideal.div (Host.reduceAdd (F := Ideal) (shapeCast S512 (tailCol L4 L5) shapeCasts_S512x1_S512)
      (constant (F := Ideal) S_ .f32 0x00000000#32) reducesTo_S512_S_d0 h_S_ i) (Ideal.ofBits .f32 0x44000000#32) = _
  unfold Cert.Arc.c512
  refine congrArg (fun z => Ideal.div z (Ideal.ofBits .f32 0x44000000#32)) ?_
  show Host.reduceAdd (F := Ideal) (shapeCast S512 (tailCol L4 L5) shapeCasts_S512x1_S512)
      (constant (F := Ideal) S_ .f32 0x00000000#32) reducesTo_S512_S_d0 h_S_ i = ∑ r : Fin 512, mergedRow L4 L5 r
  simp only [Host.reduceAdd, Ideal.hostReduceAdd_def]
  rw [Ideal.hostReduceAdd_total reducesTo_S512_S_d0 (fun b => b.elim0), constant_apply, Ideal.ofBits_zero_f32, zero_add]
  refine Fintype.sum_equiv (idxEquiv1 (n := 512)) _ _ fun j => ?_
  show _ = mergedRow L4 L5 (j 0)
  refine (shapeCast_apply (tailCol L4 L5) shapeCasts_S512x1_S512 j (ix2 (j 0) (0 : Fin 1))
    (by rewrite [Shape.rowMajor_val_two, Shape.rowMajor_val_one]; show (j 0).val * 1 + 0 = (j 0).val; omega)).trans ?_
  exact tailCol_apply L4 L5 (j 0)

/-- The second result after the run: the mean of the rows' merged losses. -/
theorem loss_tail (c : Dev nD) :
    Pipeline.afterTail₀ cfgs (dats m) 0 (V0 m) [hostOps1] c main_v0_1
      = fun _ => Ideal.div (∑ r : Fin 512, rowMerged m c r) Cert.Arc.c512 := by
  have h4 : Pipeline.withArrays (cfgs 0).spec c (V0 m c) (fun w => (dats m 0 c).arrAt w (cfgs 0).N)
      (Proc.devRef .tc main_call0_v1_1) = (dats m 0 c).arrAt 4 cfg0.N :=
    Pipeline.withArrays_arr spec0 launch0.win.arr_inj c _ _ 4
  have h5 : Pipeline.withArrays (cfgs 0).spec c (V0 m c) (fun w => (dats m 0 c).arrAt w (cfgs 0).N)
      (Proc.devRef .tc main_call0_v1_2) = (dats m 0 c).arrAt 5 cfg0.N :=
    Pipeline.withArrays_arr spec0 launch0.win.arr_inj c _ _ 5
  unfold Pipeline.afterTail₀
  show StableHlo.after hostOps1 _ (Proc.devRef .tc main_v0_1) = _
  generalize hW : Pipeline.withArrays _ _ _ _ = W at h4 h5
  after_results_simp
  simp only [StableHlo.TRef.ofBuf, StableHlo.TRef.toBuf, cast_eq]
  show tailFn (W (Proc.devRef .tc main_call0_v1_1)) (W (Proc.devRef .tc main_call0_v1_2)) = _
  rw [tailFn_eq, h4, h5]
  funext _
  refine congrArg (fun z => Ideal.div z Cert.Arc.c512) (Finset.sum_congr rfl fun r _ => ?_)
  unfold mergedRow rowMerged lseCore lvCore
  rw [parts4 m c 0 r, parts4 m c 1 r, parts5 m c 0 r, parts5 m c 1 r]

end Cert.KernelIdeal.Hand

end
-- ==== Proof.KLoss.lean ====
/-
  The kernel's second result is the specification's loss. For a batch row with scaled logits o (real numbers, the
  inputs being finite), a core's ten tiles run the online soft-max recurrence over its half of the class columns:
  after each tile the running sum is the sum of exp (o - m) over the columns seen, m the running maximum; at the
  core's last tile  m + log l  is the log of the sum of exp o over the half, and the true-label logit is o at the
  label if the label lies in the half, else 0. Merging the halves by log-add-exp gives the log-sum-exp over all
  columns, and the two label logits add to o at the label.
-/
import proofs.«409471_j56487409877363_2_alg».proof.Proof.KData
import proofs.«409471_j56487409877363_2_alg».proof.Proof.KBlocks
import proofs.«409471_j56487409877363_2_alg».proof.Proof.KRead
import proofs.«409471_j56487409877363_2_alg».proof.Proof.KReadUpd
import proofs.«409471_j56487409877363_2_alg».proof.Proof.KTail
import proofs.«409471_j56487409877363_2_alg».proof.Proof.KOut
import proofs.«409471_j56487409877363_2_alg».proof.Proof.SoftmaxLaws
import proofs.«409471_j56487409877363_2_alg».proof.Proof.RefReal
import proofs.«409471_j56487409877363_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

namespace Loss

/-! ### One row over plain data: the columns seen, a tile's lanes, the two recurrences -/

/-- The class columns c with lo ≤ c < hi. -/
def cols (lo hi : ℕ) : Finset (Fin 50000) := Finset.univ.filter (fun c => lo ≤ c.val ∧ c.val < hi)

theorem mem_cols {lo hi : ℕ} {c : Fin 50000} : c ∈ cols lo hi ↔ lo ≤ c.val ∧ c.val < hi := by
  unfold cols
  rw [Finset.mem_filter]
  exact ⟨fun h => h.2, fun h => ⟨Finset.mem_univ _, h⟩⟩

/-- Lane j of tile n as a class column (column 0 for a lane past the array's end). -/
def laneCol (n : ℕ) (j : Fin 2560) : Fin 50000 :=
  if h : n * 2560 + j.val < 50000 then ⟨n * 2560 + j.val, h⟩ else ⟨0, by decide⟩

theorem laneCol_val (n : ℕ) (j : Fin 2560) (h : n * 2560 + j.val < 50000) :
    (laneCol n j).val = n * 2560 + j.val := by
  unfold laneCol
  rw [dif_pos h]

/-- The columns seen after tile n are those seen before it and the tile's valid lanes. -/
theorem cols_step (lo n : ℕ) (hlo : lo ≤ 2560 * n) :
    cols lo (2560 * n) ∪ (Finset.univ.filter (fun j : Fin 2560 => n * 2560 + j.val < 50000)).image (laneCol n)
      = cols lo (2560 * (n + 1)) := by
  ext c
  rw [Finset.mem_union, mem_cols, mem_cols, Finset.mem_image]
  constructor
  · rintro (⟨h1, h2⟩ | ⟨j, hj, rfl⟩)
    · exact ⟨h1, by omega⟩
    · have hv := (Finset.mem_filter.mp hj).2
      have h3 := laneCol_val n j hv
      have h4 := j.isLt
      constructor <;> omega
  · rintro ⟨h1, h2⟩
    by_cases h : c.val < 2560 * n
    · exact Or.inl ⟨h1, h⟩
    · have hlt : c.val - 2560 * n < 2560 := by omega
      have hv : n * 2560 + (c.val - 2560 * n) < 50000 := by have := c.isLt; omega
      refine Or.inr ⟨⟨c.val - 2560 * n, hlt⟩, Finset.mem_filter.mpr ⟨Finset.mem_univ _, hv⟩, ?_⟩
      apply Fin.ext
      rw [laneCol_val n ⟨c.val - 2560 * n, hlt⟩ hv]
      show n * 2560 + (c.val - 2560 * n) = c.val
      omega

/-- One tile of the online soft-max on a row: the invariant over the columns below 2560 n passes to the columns
    below 2560 (n + 1), a lane past the array's end holding the bottom element. -/
theorem row_step (o : Fin 50000 → ℝ) (lo n : ℕ) (hlo : lo ≤ 2560 * n) (hn : n < 20) (mm l : EReal)
    (h : Cert.Arc.Laws.Inv o (cols lo (2560 * n)) mm l) (e : Fin 2560 → EReal)
    (he : ∀ j, e j = if n * 2560 + j.val < 50000 then ((o (laneCol n j) : ℝ) : EReal) else ⊥) :
    Cert.Arc.Laws.Inv o (cols lo (2560 * (n + 1)))
      (max mm ((Finset.univ : Finset (Fin 2560)).fold max (⊥ : EReal) e))
      (Ideal.exp (mm - max mm ((Finset.univ : Finset (Fin 2560)).fold max (⊥ : EReal) e)) * l
        + ∑ j : Fin 2560, Ideal.exp (e j - max mm ((Finset.univ : Finset (Fin 2560)).fold max (⊥ : EReal) e))) := by
  rw [← cols_step lo n hlo]
  refine Cert.Arc.Laws.inv_step o _ mm l h (fun j : Fin 2560 => n * 2560 + j.val < 50000) (laneCol n) ?_ ?_ ?_ e he
  · intro j j' hj hj' hc
    have h1 := congrArg Fin.val hc
    rw [laneCol_val n j hj, laneCol_val n j' hj'] at h1
    exact Fin.ext (by omega)
  · intro j hj hmem
    have h1 := (mem_cols.mp hmem).2
    rw [laneCol_val n j hj] at h1
    omega
  · exact ⟨⟨0, by decide⟩, by show n * 2560 + 0 < 50000; omega⟩

/-- A label word below 50000 equals the word of a column number below 50000 exactly when the numbers agree. -/
theorem word_eq_iff (lw : BitVec 32) (x : ℕ) (hx : x < 50000) : lw = BitVec.ofNat 32 x ↔ lw.toNat = x := by
  constructor
  · intro h
    rw [h, BitVec.toNat_ofNat]
    exact Nat.mod_eq_of_lt (by omega)
  · intro h
    apply BitVec.eq_of_toNat_eq
    rw [BitVec.toNat_ofNat, Nat.mod_eq_of_lt (by omega)]
    exact h

/-- One tile of the true-label recurrence on a row: the tile adds the entry at the label's column when it has it. -/
theorem lv_step (o : Fin 50000 → ℝ) (lc : Fin 50000) (lw : BitVec 32) (hlw : lw.toNat = lc.val) (lo n : ℕ)
    (hlo : lo ≤ 2560 * n) (lv : EReal)
    (hlv : lv = if lo ≤ lc.val ∧ lc.val < 2560 * n then ((o lc : ℝ) : EReal) else 0)
    (f : Fin 2560 → EReal) (hf : ∀ j, n * 2560 + j.val < 50000 → f j = ((o (laneCol n j) : ℝ) : EReal)) :
    lv + ∑ j : Fin 2560, (if lw = BitVec.ofNat 32 (n * 2560 + j.val) ∧ n * 2560 + j.val < 50000 then f j else 0)
      = if lo ≤ lc.val ∧ lc.val < 2560 * (n + 1) then ((o lc : ℝ) : EReal) else 0 := by
  have hterm : ∀ j : Fin 2560,
      (if lw = BitVec.ofNat 32 (n * 2560 + j.val) ∧ n * 2560 + j.val < 50000 then f j else 0)
        = if n * 2560 + j.val = lc.val then ((o lc : ℝ) : EReal) else 0 := by
    intro j
    by_cases hj : n * 2560 + j.val = lc.val
    · have hv : n * 2560 + j.val < 50000 := by rw [hj]; exact lc.isLt
      have hc : laneCol n j = lc := Fin.ext (by rw [laneCol_val n j hv]; exact hj)
      rw [if_pos ⟨(word_eq_iff lw _ hv).mpr (by rw [hlw]; exact hj.symm), hv⟩, if_pos hj, hf j hv, hc]
    · rw [if_neg hj, if_neg]
      rintro ⟨h1, h2⟩
      exact hj (by rw [← (word_eq_iff lw _ h2).mp h1]; exact hlw)
  rw [Finset.sum_congr rfl (fun j _ => hterm j), hlv]
  by_cases hin : 2560 * n ≤ lc.val ∧ lc.val < 2560 * (n + 1)
  · have hlt : lc.val - 2560 * n < 2560 := by omega
    rw [Finset.sum_eq_single (⟨lc.val - 2560 * n, hlt⟩ : Fin 2560)]
    · rw [if_neg (by omega), if_pos (by show n * 2560 + (lc.val - 2560 * n) = lc.val; omega), if_pos (by omega),
        zero_add]
    · intro j _ hj
      rw [if_neg]
      intro h
      exact hj (Fin.ext (by show j.val = lc.val - 2560 * n; omega))
    · intro h
      exact absurd (Finset.mem_univ _) h
  · rw [Finset.sum_eq_zero, add_zero]
    · by_cases h1 : lo ≤ lc.val ∧ lc.val < 2560 * n
      · rw [if_pos h1, if_pos (by omega)]
      · rw [if_neg h1, if_neg (by omega)]
    · intro j _
      rw [if_neg]
      have := j.isLt
      omega

/-! ### The kernel's points on one row -/

variable (m : (ℓ : Loc nD τ sig) → Buf (Elt Ideal) ℓ)

theorem scrNext_l (i : grid0.Coords) (lab : Vec Ideal S512x1 .i32) (wb : Vec Ideal S2560x512 .f32) (s : Scr Ideal) :
    (scrNext (F := Ideal) i lab wb s).l = lNew (F := Ideal) i s.xn lab wb s.m s.l := rfl

theorem scrNext_lv (i : grid0.Coords) (lab : Vec Ideal S512x1 .i32) (wb : Vec Ideal S2560x512 .f32) (s : Scr Ideal) :
    (scrNext (F := Ideal) i lab wb s).lv = lvNew (F := Ideal) i s.xn lab wb s.lv := rfl

theorem colOf_coords (t : Fin cfg0.N) (j : Fin 2560) : colOf (grid0.coords t) j = t.val * 2560 + j.val := by
  unfold colOf
  rw [tileNo_coords]

theorem lt_twenty (t : Fin cfg0.N) : t.val < 20 := by
  have h := t.isLt
  change t.val < grid0.N at h
  rw [N_0] at h
  exact h

/-- A valid lane of the tile point t stores is the specification's scaled logit at the lane's class column. -/
theorem lane_entry (c : Dev nD) (t : Fin cfg0.N) (r : Fin 512) (j : Fin 2560) (hv : t.val * 2560 + j.val < 50000) :
    tileOut (F := Ideal) (grid0.coords t) (scrIn m c t).xn (labBlk m c t) (wBlk m c t zfill) (ix2 r j)
      = Cert.Arc.outv (argX m c) (argLab m c) (argW m c) r ⟨t.val * 2560 + j.val, hv⟩ := by
  have hcol := colOf_coords t j
  rw [tileOut_apply _ _ _ _ r j (by rw [hcol]; exact hv), hcol, labBlk_apply]
  have hcos : cosT (scrIn m c t).xn (wBlk m c t zfill) r j
      = Cert.Arc.cosv (argX m c) (argW m c) r ⟨t.val * 2560 + j.val, hv⟩ := by
    have hb : brow (wBlk m c t zfill) j = Cert.Arc.wrow (argW m c) ⟨t.val * 2560 + j.val, hv⟩ := by
      funext k
      exact wBlk_apply m c t zfill j k hv
    unfold cosT Cert.Arc.cosv
    rw [hb]
    refine Finset.sum_congr rfl (fun k _ => ?_)
    rw [scrIn_xn]
    rfl
  rw [hcos]
  rfl

section Row

variable (c : Dev nD) (r : Fin 512) (o : Fin 50000 → ℝ)
  (ho : ∀ col, Cert.Arc.outv (argX m c) (argLab m c) (argW m c) r col = ((o col : ℝ) : EReal))

include ho

/-- A lane of point t as the soft-max sees it: the row's scaled logit at a valid column, the bottom element else. -/
theorem maskedE_eq (t : Fin cfg0.N) (j : Fin 2560) :
    maskedE (grid0.coords t) (scrIn m c t).xn (labBlk m c t) (wBlk m c t zfill) r j
      = if t.val * 2560 + j.val < 50000 then ((o (laneCol t.val j) : ℝ) : EReal) else ⊥ := by
  unfold maskedE
  rw [colOf_coords t j]
  by_cases hv : t.val * 2560 + j.val < 50000
  · rw [if_pos hv, if_pos hv, lane_entry m c t r j hv, ho,
      show laneCol t.val j = ⟨t.val * 2560 + j.val, hv⟩ from dif_pos hv]
  · rw [if_neg hv, if_neg hv]

/-- One point on the row: the invariant and the true-label logit pass from the scratch the point finds to the
    scratch it leaves. -/
theorem point_step (hl : Cert.Arc.LabelsInRange (argLab m c)) (t : Fin cfg0.N) (lo : ℕ) (hlo : lo ≤ 2560 * t.val)
    (hin : Cert.Arc.Laws.Inv o (cols lo (2560 * t.val)) ((scrIn m c t).m (ix2 r 0)) ((scrIn m c t).l (ix2 r 0)))
    (hlv : (scrIn m c t).lv (ix2 r 0)
      = if lo ≤ (Cert.Arc.labCol (argLab m c) r).val ∧ (Cert.Arc.labCol (argLab m c) r).val < 2560 * t.val
        then ((o (Cert.Arc.labCol (argLab m c) r) : ℝ) : EReal) else 0) :
    Cert.Arc.Laws.Inv o (cols lo (2560 * (t.val + 1))) ((scrAt m c t.val t.isLt).m (ix2 r 0))
        ((scrAt m c t.val t.isLt).l (ix2 r 0))
      ∧ (scrAt m c t.val t.isLt).lv (ix2 r 0)
        = if lo ≤ (Cert.Arc.labCol (argLab m c) r).val ∧ (Cert.Arc.labCol (argLab m c) r).val < 2560 * (t.val + 1)
          then ((o (Cert.Arc.labCol (argLab m c) r) : ℝ) : EReal) else 0 := by
  rw [scrAt_eq m c t, scrNext_m, scrNext_l, scrNext_lv, lNew_apply, mNew_apply, lvNew_apply]
  refine ⟨row_step o lo t.val hlo (lt_twenty t) _ _ hin _ (fun j => maskedE_eq m c r o ho t j), ?_⟩
  have hlw : (labBlk m c t (ix2 r 0)).toNat = (Cert.Arc.labCol (argLab m c) r).val := by
    rw [labBlk_apply]
    unfold Cert.Arc.labCol
    rw [dif_pos (hl _)]
  have hsum : ∀ j : Fin 2560,
      (if labBlk m c t (ix2 r 0) = BitVec.ofNat 32 (colOf (grid0.coords t) j) ∧ colOf (grid0.coords t) j < 50000
        then tileOut (F := Ideal) (grid0.coords t) (scrIn m c t).xn (labBlk m c t) (wBlk m c t zfill) (ix2 r j) else 0)
      = (if labBlk m c t (ix2 r 0) = BitVec.ofNat 32 (t.val * 2560 + j.val) ∧ t.val * 2560 + j.val < 50000
        then tileOut (F := Ideal) (grid0.coords t) (scrIn m c t).xn (labBlk m c t) (wBlk m c t zfill) (ix2 r j) else 0) := by
    intro j
    rw [colOf_coords t j]
  rw [Finset.sum_congr rfl (fun j _ => hsum j)]
  refine lv_step o _ _ hlw lo t.val hlo _ hlv _ (fun j hv => ?_)
  rw [lane_entry m c t r j hv, ho, show laneCol t.val j = ⟨t.val * 2560 + j.val, hv⟩ from dif_pos hv]

/-- After point n of a core the row's running pair satisfies the invariant over the core's columns below
    2560 (n + 1), and the true-label logit is the logit at the label when the label is among them. -/
theorem core_inv (hl : Cert.Arc.LabelsInRange (argLab m c)) : ∀ (n : ℕ) (hn : n < cfg0.N),
    Cert.Arc.Laws.Inv o (cols (25600 * (n / 10)) (2560 * (n + 1))) ((scrAt m c n hn).m (ix2 r 0))
        ((scrAt m c n hn).l (ix2 r 0))
      ∧ (scrAt m c n hn).lv (ix2 r 0)
        = if 25600 * (n / 10) ≤ (Cert.Arc.labCol (argLab m c) r).val
            ∧ (Cert.Arc.labCol (argLab m c) r).val < 2560 * (n + 1)
          then ((o (Cert.Arc.labCol (argLab m c) r) : ℝ) : EReal) else 0 := by
  have hreset : ∀ (n : ℕ) (hn : n < cfg0.N), n % 10 = 0 → scrIn m c ⟨n, hn⟩ = scrReset (xBlk m c ⟨n, hn⟩) →
      Cert.Arc.Laws.Inv o (cols (25600 * (n / 10)) (2560 * n)) ((scrIn m c ⟨n, hn⟩).m (ix2 r 0))
        ((scrIn m c ⟨n, hn⟩).l (ix2 r 0))
      ∧ (scrIn m c ⟨n, hn⟩).lv (ix2 r 0)
        = if 25600 * (n / 10) ≤ (Cert.Arc.labCol (argLab m c) r).val
            ∧ (Cert.Arc.labCol (argLab m c) r).val < 2560 * n
          then ((o (Cert.Arc.labCol (argLab m c) r) : ℝ) : EReal) else 0 := by
    intro n hn h10 hs
    have hempty : cols (25600 * (n / 10)) (2560 * n) = ∅ := by
      ext x
      rw [mem_cols]
      constructor
      · intro h; omega
      · intro h; exact absurd h (Finset.notMem_empty _)
    rw [hs, scrReset_m, scrReset_l, scrReset_lv, hempty]
    exact ⟨Cert.Arc.Laws.inv_init o, by rw [if_neg]; omega⟩
  intro n
  induction n with
  | zero =>
    intro hn
    have h := hreset 0 hn rfl (if_pos rfl)
    exact point_step m c r o ho hl ⟨0, hn⟩ (25600 * (0 / 10)) (by omega) h.1 h.2
  | succ n ih =>
    intro hn
    have hlo : 25600 * ((n + 1) / 10) ≤ 2560 * (n + 1) := by omega
    by_cases h10 : (n + 1) % 10 = 0
    · have h := hreset (n + 1) hn h10 (if_pos h10)
      exact point_step m c r o ho hl ⟨n + 1, hn⟩ (25600 * ((n + 1) / 10)) hlo h.1 h.2
    · have hs : scrIn m c ⟨n + 1, hn⟩ = scrAt m c n (Nat.lt_of_succ_lt hn) := if_neg h10
      have h := ih (Nat.lt_of_succ_lt hn)
      have e1 : n / 10 = (n + 1) / 10 := by omega
      rw [e1] at h
      rw [← hs] at h
      exact point_step m c r o ho hl ⟨n + 1, hn⟩ (25600 * ((n + 1) / 10)) hlo h.1 h.2

/-- A core's two stored results on the row: the log of the sum of exp o over the core's half of the columns, and
    the logit at the label when the label lies in the half. -/
theorem core_final (hl : Cert.Arc.LabelsInRange (argLab m c)) (a : Fin 2) :
    lseCore m c a r
        = ((Real.log (∑ col ∈ cols (25600 * a.val) (25600 * (a.val + 1)), Real.exp (o col)) : ℝ) : EReal)
      ∧ lvCore m c a r
        = if 25600 * a.val ≤ (Cert.Arc.labCol (argLab m c) r).val
            ∧ (Cert.Arc.labCol (argLab m c) r).val < 25600 * (a.val + 1)
          then ((o (Cert.Arc.labCol (argLab m c) r) : ℝ) : EReal) else 0 := by
  have ha := a.isLt
  have hn : 10 * a.val + 9 < cfg0.N := by show 10 * a.val + 9 < grid0.N; rw [N_0]; omega
  obtain ⟨h1, h2⟩ := core_inv m c r o ho hl (10 * a.val + 9) hn
  have e1 : 25600 * ((10 * a.val + 9) / 10) = 25600 * a.val := by omega
  have e2 : 2560 * (10 * a.val + 9 + 1) = 25600 * (a.val + 1) := by omega
  rw [e1, e2] at h1 h2
  have hne : (cols (25600 * a.val) (25600 * (a.val + 1))).Nonempty :=
    ⟨⟨25600 * a.val, by omega⟩, mem_cols.mpr ⟨le_refl _, by show 25600 * a.val < 25600 * (a.val + 1); omega⟩⟩
  unfold lseCore lvCore
  rw [lseOut_apply, lvOut_apply]
  exact ⟨Cert.Arc.Laws.inv_lse o _ hne _ _ h1, h2⟩

end Row

/-- One row's merged loss is the specification's. -/
theorem rowMerged_eq (c : Dev nD) (hx : Cert.Arc.FiniteArr (argX m c)) (hl : Cert.Arc.LabelsInRange (argLab m c))
    (hw : Cert.Arc.FiniteArr (argW m c)) (r : Fin 512) :
    rowMerged m c r = Cert.Arc.lossRow (argX m c) (argLab m c) (argW m c) r := by
  have hR : ∀ col, ∃ v : ℝ, Cert.Arc.outv (argX m c) (argLab m c) (argW m c) r col = (v : EReal) :=
    fun col => Cert.Arc.Ref.outv_isR _ _ _ hx hw r col
  choose o ho using hR
  have h0 : lseCore m c 0 r = ((Real.log (∑ col ∈ cols 0 25600, Real.exp (o col)) : ℝ) : EReal)
      ∧ lvCore m c 0 r = if 0 ≤ (Cert.Arc.labCol (argLab m c) r).val ∧ (Cert.Arc.labCol (argLab m c) r).val < 25600
          then ((o (Cert.Arc.labCol (argLab m c) r) : ℝ) : EReal) else 0 := core_final m c r o ho hl 0
  have h1 : lseCore m c 1 r = ((Real.log (∑ col ∈ cols 25600 51200, Real.exp (o col)) : ℝ) : EReal)
      ∧ lvCore m c 1 r = if 25600 ≤ (Cert.Arc.labCol (argLab m c) r).val ∧ (Cert.Arc.labCol (argLab m c) r).val < 51200
          then ((o (Cert.Arc.labCol (argLab m c) r) : ℝ) : EReal) else 0 := core_final m c r o ho hl 1
  have hne0 : (cols 0 25600).Nonempty := ⟨⟨0, by decide⟩, mem_cols.mpr ⟨le_refl _, by decide⟩⟩
  have hne1 : (cols 25600 51200).Nonempty := ⟨⟨25600, by decide⟩, mem_cols.mpr ⟨le_refl _, by decide⟩⟩
  have hsplit : (∑ col ∈ cols 0 25600, Real.exp (o col)) + (∑ col ∈ cols 25600 51200, Real.exp (o col))
      = ∑ col : Fin 50000, Real.exp (o col) := by
    have hU : cols 0 25600 ∪ cols 25600 51200 = (Finset.univ : Finset (Fin 50000)) := by
      ext x
      rw [Finset.mem_union, mem_cols, mem_cols]
      constructor
      · intro _; exact Finset.mem_univ _
      · intro _; have := x.isLt; omega
    rw [← hU, Finset.sum_union]
    · rw [Finset.disjoint_left]
      intro x hx0 hx1
      have := mem_cols.mp hx0
      have := mem_cols.mp hx1
      omega
  have hlvs : (if 0 ≤ (Cert.Arc.labCol (argLab m c) r).val ∧ (Cert.Arc.labCol (argLab m c) r).val < 25600
          then ((o (Cert.Arc.labCol (argLab m c) r) : ℝ) : EReal) else 0)
      + (if 25600 ≤ (Cert.Arc.labCol (argLab m c) r).val ∧ (Cert.Arc.labCol (argLab m c) r).val < 51200
          then ((o (Cert.Arc.labCol (argLab m c) r) : ℝ) : EReal) else 0)
      = ((o (Cert.Arc.labCol (argLab m c) r) : ℝ) : EReal) := by
    have hlt := (Cert.Arc.labCol (argLab m c) r).isLt
    by_cases h : (Cert.Arc.labCol (argLab m c) r).val < 25600
    · rw [if_pos ⟨Nat.zero_le _, h⟩, if_neg (by omega), add_zero]
    · rw [if_neg (by omega), if_pos (by omega), zero_add]
  have hsum : (∑ col : Fin 50000, Ideal.exp (Cert.Arc.outv (argX m c) (argLab m c) (argW m c) r col))
      = ∑ col : Fin 50000, Ideal.exp ((o col : ℝ) : EReal) :=
    Finset.sum_congr rfl (fun col _ => by rw [ho])
  unfold rowMerged Cert.Arc.lossRow
  rw [h0.1, h1.1, h0.2, h1.2,
    Cert.Arc.Laws.logaddexp_merge _ _ (Cert.Arc.Laws.sum_exp_pos _ hne0 o) (Cert.Arc.Laws.sum_exp_pos _ hne1 o),
    hsplit, hlvs, hsum, ho, Cert.Arc.Laws.log_sum_exp_coe (by decide) o]

end Loss

variable (m : (ℓ : Loc nD τ sig) → Buf (Elt Ideal) ℓ)

/-- The second result after the run: the specification's loss, for finite inputs and labels in range. -/
theorem loss_final (c : Dev nD) (hx : Cert.Arc.FiniteArr (argX m c)) (hl : Cert.Arc.LabelsInRange (argLab m c))
    (hw : Cert.Arc.FiniteArr (argW m c)) :
    Pipeline.afterTail₀ cfgs (dats m) 0 (V0 m) [hostOps1] c main_v0_1
      = fun _ => Cert.Arc.lossSpec (argX m c) (argLab m c) (argW m c) := by
  rw [loss_tail]
  funext _
  unfold Cert.Arc.lossSpec
  rw [Finset.sum_congr rfl (fun r _ => Loss.rowMerged_eq m c hx hl hw r)]

end Cert.KernelIdeal.Hand

end
-- ==== Proof.lean ====
/-
  The certificate of the ArcFace head: L2-normalised logits against L2-normalised class weights, the angular margin at
  the true-label column, the scale, and the mean cross-entropy — a Pallas kernel that walks the 50000 classes in twenty
  tiles of 2560 on two cores, keeping an online soft-max per batch row, against the plain jnp reference.

  Both programs are proved against one specification (Proof/Spec.lean): the scaled logits `outSpec` index by index, and
  the loss `lossSpec`, the mean over the rows of  log (sum_c exp out[r,c]) - out[r, label r].
  The kernel side: the body's run in its three situations (Proof/KRuns.lean), the proof data and the run of @main
  (Proof/KData.lean, Proof/KFrame.lean), the first result through the blocks' write-backs (Proof/KOut.lean), the second
  through the online soft-max invariant and the merge of the two cores by log-add-exp (Proof/KTail.lean, Proof/KLoss.lean).
  The reference side: its run and its operations read at an index, then the same specification (Proof/RefOut.lean,
  Proof/RefLoss.lean, gathered in Proof/RefValue.lean). The precondition gives finite inputs and labels that are classes (Proof/PreFacts.lean).
  The kernel's mask fill is named minus infinity at the extended reals: the one entry of the idealization's ledger.
-/
import proofs.«409471_j56487409877363_2_alg».proof.Defs
import proofs.«409471_j56487409877363_2_alg».proof.Proof.Gen.Kernel
import proofs.«409471_j56487409877363_2_alg».proof.Proof.Gen.KernelIdeal
import proofs.«409471_j56487409877363_2_alg».proof.Proof.Gen.ReferenceIdeal
import proofs.«409471_j56487409877363_2_alg».proof.Proof.Gen.Pre_finite_inputs
import proofs.«409471_j56487409877363_2_alg».proof.Proof.RefRun
import proofs.«409471_j56487409877363_2_alg».proof.Proof.RefRead
import proofs.«409471_j56487409877363_2_alg».proof.Proof.RefValue
import proofs.«409471_j56487409877363_2_alg».proof.Proof.PreFacts
import proofs.«409471_j56487409877363_2_alg».proof.Proof.KFrame
import proofs.«409471_j56487409877363_2_alg».proof.Proof.KFrameBits
import proofs.«409471_j56487409877363_2_alg».proof.Proof.KOut
import proofs.«409471_j56487409877363_2_alg».proof.Proof.KLoss
import Idealize.ShloMosaic.Adequacy
import Idealize.ShloMosaic.Init
import Idealize.ShloMosaic.PureOps.IdealRules

set_option maxRecDepth 16384

noncomputable section

namespace Cert.Proof

open Idealize.ShloMosaic Idealize.SL.Sem

/-- The word-level kernel terminates without fault and leaves its arguments as they were. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame m ρ

/-- And the reference: its run, the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ledger's one entry: the mask fill's name denotes minus infinity by the certificate's table. -/
theorem preserves : Cert.preserves_Kernel_KernelIdeal :=
  IdealRules.named_const.statement Cert.KernelIdeal.κ "neg_big" .f32 0xFF333332#32 ⊥ rfl

/-- Both idealized programs end at the specification of the arguments they agree on. -/
theorem algebraic : Cert.algebraic_KernelIdeal_ReferenceIdeal := by
  intro m ρ m' ρ' hpre hagree
  refine ⟨fun c => Cert.Arc.outSpec (Cert.KernelIdeal.Hand.argX m c) (Cert.KernelIdeal.Hand.argLab m c) (Cert.KernelIdeal.Hand.argW m c),
    fun c => fun _ => Cert.Arc.lossSpec (Cert.KernelIdeal.Hand.argX m c) (Cert.KernelIdeal.Hand.argLab m c) (Cert.KernelIdeal.Hand.argW m c), ?_, ?_⟩
  · refine (θ_run Cert.KernelIdeal.defs _ _).mono (fun r h c => ?_) (Cert.KernelIdeal.Hand.run_main m ρ)
    obtain ⟨hx, hl, hw⟩ := Cert.Arc.pre_facts _ _ _ (hpre c)
    refine ⟨((h c).1 3).trans (Cert.KernelIdeal.Hand.out_final m c),
      ((h c).2 Cert.KernelIdeal.main_v0_1 (Pipeline.mem_restRefs_of Cert.KernelIdeal.main_v0_1 (by decide) (by decide))).trans
        (Cert.KernelIdeal.Hand.loss_final m c hx hl hw), ?_, ?_, ?_⟩
    · exact ((h c).1 0).trans (((Cert.KernelIdeal.Hand.dats m 0 c).arrAt_in 0 rfl _).trans
        ((Cert.KernelIdeal.Hand.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Hand.dats m) c)
    · exact ((h c).1 2).trans (((Cert.KernelIdeal.Hand.dats m 0 c).arrAt_in 2 rfl _).trans
        ((Cert.KernelIdeal.Hand.A_eq m c 2).trans (Cert.KernelIdeal.Gen.V_main_arg2 m c)))
  · refine (θ_run Cert.ReferenceIdeal.defs _ _).mono (fun r h c => ?_) (Cert.ReferenceIdeal.ValueP.run (F := Ideal) m' ρ')
    obtain ⟨hx, hl, hw⟩ := Cert.Arc.pre_facts _ _ _ (hpre c)
    obtain ⟨e0, e1, e2⟩ := hagree c
    refine ⟨(h c).1.trans ?_, (h c).2.1.trans ?_, (h c).2.2.1, (h c).2.2.2.1, (h c).2.2.2.2⟩
    · rw [Cert.ReferenceIdeal.ReadP.val_main_v39_eq, e0, e1, e2]
      exact Cert.Arc.Ref.out_eq _ _ _
    · rw [Cert.ReferenceIdeal.ReadP.val_main_v46_eq, e0, e1, e2]
      exact Cert.Arc.Ref.loss_eq _ _ _ hx hl hw

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
